-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3129 : Shape := ⟨2, ![16384, 3129]⟩
abbrev S3129 : Shape := ⟨1, ![3129]⟩
abbrev S16384x10 : Shape := ⟨2, ![16384, 10]⟩
abbrev S16384x1 : Shape := ⟨2, ![16384, 1]⟩
abbrev S_ : Shape := ⟨0, ![]⟩

class Facts : Prop where
  bcast_S_S16384x3129 : S_.BroadcastsInDim S16384x3129 (![] : Fin 0 → Fin S16384x3129.rank)
  reducesTo_S16384x3129_S_d0_1 : S16384x3129.ReducesTo [0, 1] S_
  h_S_ : 0 < S_.numel
  bcast_S_S3129 : S_.BroadcastsInDim S3129 (![] : Fin 0 → Fin S3129.rank)
  reducesTo_S3129_S_d0 : S3129.ReducesTo [0] S_
  bcast_S_S16384x10 : S_.BroadcastsInDim S16384x10 (![] : Fin 0 → Fin S16384x10.rank)
  reducesTo_S16384x10_S_d0_1 : S16384x10.ReducesTo [0, 1] S_
  bcast_S_S16384x1 : S_.BroadcastsInDim S16384x1 (![] : Fin 0 → Fin S16384x1.rank)
  reducesTo_S16384x1_S_d0_1 : S16384x1.ReducesTo [0, 1] S_

variable [Facts]

def fn_part1 {F : FTy → Type} [FloatOps F] (main_arg3 : IVec S16384x1 32) (main_v12 : IVec S_ 1) (main_v15 : IVec S_ 1) : IVec S_ 1 :=
  let main_v16 : IVec S_ 1 := andi main_v12 main_v15
  let main_c_6 : IVec S_ 32 := constantI S_ 32 0#32
  let main_v17 : IVec S16384x1 32 := broadcastInDim S16384x1 ![] bcast_S_S16384x1 main_c_6
  let main_v18 : IVec S16384x1 1 := cmpi .sge main_arg3 main_v17
  let main_c_7 : IVec S_ 1 := constantI S_ 1 1#1
  let main_v19 : IVec S_ 1 := (fun x v => Host.reduce IntOp.andi x v reducesTo_S16384x1_S_d0_1 h_S_) main_v18 main_c_7
  let main_v20 : IVec S_ 1 := andi main_v16 main_v19
  let main_c_8 : IVec S_ 32 := constantI S_ 32 3129#32
  let main_v21 : IVec S16384x1 32 := broadcastInDim S16384x1 ![] bcast_S_S16384x1 main_c_8
  let main_v22 : IVec S16384x1 1 := cmpi .slt main_arg3 main_v21
  let main_c_9 : IVec S_ 1 := constantI S_ 1 1#1
  let main_v23 : IVec S_ 1 := (fun x v => Host.reduce IntOp.andi x v reducesTo_S16384x1_S_d0_1 h_S_) main_v22 main_c_9
  let main_v24 : IVec S_ 1 := andi main_v20 main_v23
  main_v24

def fn {F : FTy → Type} [FloatOps F] (main_arg0 : FVec F S16384x3129 .f32) (main_arg1 : FVec F S3129 .f32) (main_arg2 : IVec S16384x10 32) (main_arg3 : IVec S16384x1 32) : IVec S_ 1 :=
  let main_v0 : FVec F S16384x3129 .f32 := Host.absf main_arg0
  let main_cst : FVec F S_ .f32 := constant S_ .f32 0x7F800000#32
  let main_v1 : FVec F S16384x3129 .f32 := broadcastInDim S16384x3129 ![] bcast_S_S16384x3129 main_cst
  let main_v2 : IVec S16384x3129 1 := cmpf .olt main_v0 main_v1
  let main_c : IVec S_ 1 := constantI S_ 1 1#1
  let main_v3 : IVec S_ 1 := (fun x v => Host.reduce IntOp.andi x v reducesTo_S16384x3129_S_d0_1 h_S_) main_v2 main_c
  let main_v4 : FVec F S3129 .f32 := Host.absf main_arg1
  let main_cst_0 : FVec F S_ .f32 := constant S_ .f32 0x7F800000#32
  let main_v5 : FVec F S3129 .f32 := broadcastInDim S3129 ![] bcast_S_S3129 main_cst_0
  let main_v6 : IVec S3129 1 := cmpf .olt main_v4 main_v5
  let main_c_1 : IVec S_ 1 := constantI S_ 1 1#1
  let main_v7 : IVec S_ 1 := (fun x v => Host.reduce IntOp.andi x v reducesTo_S3129_S_d0 h_S_) main_v6 main_c_1
  let main_v8 : IVec S_ 1 := andi main_v3 main_v7
  let main_c_2 : IVec S_ 32 := constantI S_ 32 0#32
  let main_v9 : IVec S16384x10 32 := broadcastInDim S16384x10 ![] bcast_S_S16384x10 main_c_2
  let main_v10 : IVec S16384x10 1 := cmpi .sge main_arg2 main_v9
  let main_c_3 : IVec S_ 1 := constantI S_ 1 1#1
  let main_v11 : IVec S_ 1 := (fun x v => Host.reduce IntOp.andi x v reducesTo_S16384x10_S_d0_1 h_S_) main_v10 main_c_3
  let main_v12 : IVec S_ 1 := andi main_v8 main_v11
  let main_c_4 : IVec S_ 32 := constantI S_ 32 3129#32
  let main_v13 : IVec S16384x10 32 := broadcastInDim S16384x10 ![] bcast_S_S16384x10 main_c_4
  let main_v14 : IVec S16384x10 1 := cmpi .slt main_arg2 main_v13
  let main_c_5 : IVec S_ 1 := constantI S_ 1 1#1
  let main_v15 : IVec S_ 1 := (fun x v => Host.reduce IntOp.andi x v reducesTo_S16384x10_S_d0_1 h_S_) main_v14 main_c_5
  fn_part1 (F := F) main_arg3 main_v12 main_v15
-- ==== Kernel.lean ====
abbrev S16384x3129 : Shape := ⟨2, ![16384, 3129]⟩
abbrev S3129 : Shape := ⟨1, ![3129]⟩
abbrev S16384x10 : Shape := ⟨2, ![16384, 10]⟩
abbrev S16384x1 : Shape := ⟨2, ![16384, 1]⟩
abbrev S_ : Shape := ⟨0, ![]⟩
abbrev S1024x3129 : Shape := ⟨2, ![1024, 3129]⟩
abbrev S1024x1 : Shape := ⟨2, ![1024, 1]⟩
abbrev S1024x512 : Shape := ⟨2, ![1024, 512]⟩
abbrev S1024 : Shape := ⟨1, ![1024]⟩
abbrev S1024x57 : Shape := ⟨2, ![1024, 57]⟩
abbrev S16384 : Shape := ⟨1, ![16384]⟩
abbrev S16384x10x1 : Shape := ⟨3, ![16384, 10, 1]⟩
abbrev S1 : Shape := ⟨1, ![1]⟩
abbrev S1x1x1 : Shape := ⟨3, ![1, 1, 1]⟩
abbrev S16384x1x1 : Shape := ⟨3, ![16384, 1, 1]⟩

abbrev nBuf : Space → Nat
  | .hbm => 125
  | .vmem => 4
  | .smem => 0
  | _ => 0

abbrev bufTy : (tb : Table) → Fin (tcTables nBuf tb) → BufTy
  | .hbm, ⟨0, _⟩ => ⟨S16384x3129, .f32⟩
  | .hbm, ⟨1, _⟩ => ⟨S3129, .f32⟩
  | .hbm, ⟨2, _⟩ => ⟨S16384x10, .i32⟩
  | .hbm, ⟨3, _⟩ => ⟨S16384x1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384x10, .i32⟩
  | .hbm, ⟨8, _⟩ => ⟨S16384x10, .i32⟩
  | .hbm, ⟨9, _⟩ => ⟨S_, .i32⟩
  | .hbm, ⟨10, _⟩ => ⟨S16384x10, .i32⟩
  | .hbm, ⟨11, _⟩ => ⟨S16384x10, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S16384x1, .i32⟩
  | .hbm, ⟨16, _⟩ => ⟨S16384x1, .i32⟩
  | .hbm, ⟨17, _⟩ => ⟨S_, .i32⟩
  | .hbm, ⟨18, _⟩ => ⟨S16384x1, .i32⟩
  | .hbm, ⟨19, _⟩ => ⟨S16384x1, .i32⟩
  | .hbm, ⟨20, _⟩ => ⟨S16384x1, .f32⟩
  | .hbm, ⟨21, _⟩ => ⟨S16384, .f32⟩
  | .hbm, ⟨22, _⟩ => ⟨S_, .i32⟩
  | .hbm, ⟨23, _⟩ => ⟨S16384x10, .i32⟩
  | .hbm, ⟨24, _⟩ => ⟨S16384x10, .i1⟩
  | .hbm, ⟨25, _⟩ => ⟨S_, .i32⟩
  | .hbm, ⟨26, _⟩ => ⟨S16384x10, .i32⟩
  | .hbm, ⟨27, _⟩ => ⟨S16384x10, .i32⟩
  | .hbm, ⟨28, _⟩ => ⟨S16384x10, .i32⟩
  | .hbm, ⟨29, _⟩ => ⟨S16384x10x1, .i32⟩
  | .hbm, ⟨30, _⟩ => ⟨S1, .i32⟩
  | .hbm, ⟨31, _⟩ => ⟨S_, .i32⟩
  | .hbm, ⟨32, _⟩ => ⟨S16384x10x1, .i32⟩
  | .hbm, ⟨33, _⟩ => ⟨S16384x10x1, .i1⟩
  | .hbm, ⟨34, _⟩ => ⟨S1x1x1, .i32⟩
  | .hbm, ⟨35, _⟩ => ⟨S16384x10x1, .i32⟩
  | .hbm, ⟨36, _⟩ => ⟨S16384x10x1, .i1⟩
  | .hbm, ⟨37, _⟩ => ⟨S16384x10x1, .i1⟩
  | .hbm, ⟨38, _⟩ => ⟨S_, .i1⟩
  | .hbm, ⟨39, _⟩ => ⟨S16384x10, .i1⟩
  | .hbm, ⟨40, _⟩ => ⟨S16384x10, .f32⟩
  | .hbm, ⟨41, _⟩ => ⟨S_, .f32⟩
  | .hbm, ⟨42, _⟩ => ⟨S16384x10, .f32⟩
  | .hbm, ⟨43, _⟩ => ⟨S16384x10, .f32⟩
  | .hbm, ⟨44, _⟩ => ⟨S_, .i32⟩
  | .hbm, ⟨45, _⟩ => ⟨S16384x10, .i32⟩
  | .hbm, ⟨46, _⟩ => ⟨S16384x10, .i1⟩
  | .hbm, ⟨47, _⟩ => ⟨S_, .i32⟩
  | .hbm, ⟨48, _⟩ => ⟨S16384x10, .i32⟩
  | .hbm, ⟨49, _⟩ => ⟨S16384x10, .i32⟩
  | .hbm, ⟨50, _⟩ => ⟨S16384x10, .i32⟩
  | .hbm, ⟨51, _⟩ => ⟨S16384x10x1, .i32⟩
  | .hbm, ⟨52, _⟩ => ⟨S16384x10, .f32⟩
  | .hbm, ⟨53, _⟩ => ⟨S16384x1, .f32⟩
  | .hbm, ⟨54, _⟩ => ⟨S16384x10, .f32⟩
  | .hbm, ⟨55, _⟩ => ⟨S16384x10, .f32⟩
  | .hbm, ⟨56, _⟩ => ⟨S16384x10, .f32⟩
  | .hbm, ⟨57, _⟩ => ⟨S_, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S16384, .i32⟩
  | .hbm, ⟨68, _⟩ => ⟨S_, .i32⟩
  | .hbm, ⟨69, _⟩ => ⟨S16384x1, .i32⟩
  | .hbm, ⟨70, _⟩ => ⟨S16384x1, .i1⟩
  | .hbm, ⟨71, _⟩ => ⟨S_, .i32⟩
  | .hbm, ⟨72, _⟩ => ⟨S16384x1, .i32⟩
  | .hbm, ⟨73, _⟩ => ⟨S16384x1, .i32⟩
  | .hbm, ⟨74, _⟩ => ⟨S16384x1, .i32⟩
  | .hbm, ⟨75, _⟩ => ⟨S16384x1x1, .i32⟩
  | .hbm, ⟨76, _⟩ => ⟨S1, .i32⟩
  | .hbm, ⟨77, _⟩ => ⟨S_, .i32⟩
  | .hbm, ⟨78, _⟩ => ⟨S16384x1x1, .i32⟩
  | .hbm, ⟨79, _⟩ => ⟨S16384x1x1, .i1⟩
  | .hbm, ⟨80, _⟩ => ⟨S1x1x1, .i32⟩
  | .hbm, ⟨81, _⟩ => ⟨S16384x1x1, .i32⟩
  | .hbm, ⟨82, _⟩ => ⟨S16384x1x1, .i1⟩
  | .hbm, ⟨83, _⟩ => ⟨S16384x1x1, .i1⟩
  | .hbm, ⟨84, _⟩ => ⟨S_, .i1⟩
  | .hbm, ⟨85, _⟩ => ⟨S16384x1, .i1⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384, .f32⟩
  | .hbm, ⟨91, _⟩ => ⟨S16384, .f32⟩
  | .hbm, ⟨92, _⟩ => ⟨S_, .i32⟩
  | .hbm, ⟨93, _⟩ => ⟨S16384, .i32⟩
  | .hbm, ⟨94, _⟩ => ⟨S16384, .i1⟩
  | .hbm, ⟨95, _⟩ => ⟨S_, .i32⟩
  | .hbm, ⟨96, _⟩ => ⟨S16384, .i32⟩
  | .hbm, ⟨97, _⟩ => ⟨S16384, .i32⟩
  | .hbm, ⟨98, _⟩ => ⟨S16384, .i32⟩
  | .hbm, ⟨99, _⟩ => ⟨S16384x1, .i32⟩
  | .hbm, ⟨100, _⟩ => ⟨S16384, .f32⟩
  | .hbm, ⟨101, _⟩ => ⟨S16384, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .i32⟩
  | .hbm, ⟨108, _⟩ => ⟨S16384x1, .i32⟩
  | .hbm, ⟨109, _⟩ => ⟨S16384x1, .i1⟩
  | .hbm, ⟨110, _⟩ => ⟨S_, .f32⟩
  | .hbm, ⟨111, _⟩ => ⟨S_, .f32⟩
  | .hbm, ⟨112, _⟩ => ⟨S16384x1, .f32⟩
  | .hbm, ⟨113, _⟩ => ⟨S16384x1, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .local _ .vmem, ⟨0, _⟩ => ⟨S1024x3129, .f32⟩
  | .local _ .vmem, ⟨1, _⟩ => ⟨S1024x3129, .f32⟩
  | .local _ .vmem, ⟨2, _⟩ => ⟨S1024x1, .f32⟩
  | .local _ .vmem, ⟨3, _⟩ => ⟨S1024x1, .f32⟩
  | _, _ => ⟨S16384x3129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_c_1 : Ref sig .tc := ⟨.hbm, 30, rfl⟩
abbrev main_call2_c_2 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_3 : Ref sig .tc := ⟨.hbm, 38, rfl⟩
abbrev main_call2_v12 : Ref sig .tc := ⟨.hbm, 39, rfl⟩
abbrev main_call2_v13 : Ref sig .tc := ⟨.hbm, 40, rfl⟩
abbrev main_call2_cst : Ref sig .tc := ⟨.hbm, 41, rfl⟩
abbrev main_call2_v14 : Ref sig .tc := ⟨.hbm, 42, rfl⟩
abbrev main_v4 : Ref sig .tc := ⟨.hbm, 43, rfl⟩
abbrev main_c_3 : Ref sig .tc := ⟨.hbm, 44, rfl⟩
abbrev main_v5 : Ref sig .tc := ⟨.hbm, 45, rfl⟩
abbrev main_v6 : Ref sig .tc := ⟨.hbm, 46, rfl⟩
abbrev main_c_4 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst : Ref sig .tc := ⟨.hbm, 57, rfl⟩
abbrev main_v16 : Ref sig .tc := ⟨.hbm, 58, rfl⟩
abbrev main_cst_5 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_6 : Ref sig .tc := ⟨.hbm, 63, rfl⟩
abbrev main_v20 : Ref sig .tc := ⟨.hbm, 64, rfl⟩
abbrev main_cst_7 : Ref sig .tc := ⟨.hbm, 65, rfl⟩
abbrev main_v21 : Ref sig .tc := ⟨.hbm, 66, rfl⟩
abbrev main_v22 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_cst : Ref sig .tc := ⟨.hbm, 87, rfl⟩
abbrev main_call3_v14 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_c_8 : Ref sig .tc := ⟨.hbm, 92, rfl⟩
abbrev main_v26 : Ref sig .tc := ⟨.hbm, 93, rfl⟩
abbrev main_v27 : Ref sig .tc := ⟨.hbm, 94, rfl⟩
abbrev main_c_9 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_cst_10 : Ref sig .tc := ⟨.hbm, 102, rfl⟩
abbrev main_v34 : Ref sig .tc := ⟨.hbm, 103, rfl⟩
abbrev main_cst_11 : Ref sig .tc := ⟨.hbm, 104, rfl⟩
abbrev main_v35 : Ref sig .tc := ⟨.hbm, 105, rfl⟩
abbrev main_v36 : Ref sig .tc := ⟨.hbm, 106, rfl⟩
abbrev main_c_12 : Ref sig .tc := ⟨.hbm, 107, rfl⟩
abbrev main_v37 : Ref sig .tc := ⟨.hbm, 108, rfl⟩
abbrev main_v38 : Ref sig .tc := ⟨.hbm, 109, rfl⟩
abbrev main_cst_13 : Ref sig .tc := ⟨.hbm, 110, rfl⟩
abbrev main_cst_14 : Ref sig .tc := ⟨.hbm, 111, rfl⟩
abbrev main_call4_v0 : Ref sig .tc := ⟨.hbm, 112, rfl⟩
abbrev main_call4_v1 : Ref sig .tc := ⟨.hbm, 113, rfl⟩
abbrev main_v39 : Ref sig .tc := ⟨.hbm, 114, rfl⟩
abbrev main_v40 : Ref sig .tc := ⟨.hbm, 115, rfl⟩
abbrev main_cst_15 : Ref sig .tc := ⟨.hbm, 116, rfl⟩
abbrev main_v41 : Ref sig .tc := ⟨.hbm, 117, rfl⟩
abbrev main_cst_16 : Ref sig .tc := ⟨.hbm, 118, rfl⟩
abbrev main_v42 : Ref sig .tc := ⟨.hbm, 119, rfl⟩
abbrev main_v43 : Ref sig .tc := ⟨.hbm, 120, rfl⟩
abbrev main_cst_17 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S16384x10 : S_.BroadcastsInDim S16384x10 (![] : Fin 0 → Fin S16384x10.rank)
  bcast_S_S16384x1 : S_.BroadcastsInDim S16384x1 (![] : Fin 0 → Fin S16384x1.rank)
  inb_S1024x3129_S1024x512_0_0 : ∀ a, (![0, 0] : Fin 2 → Nat) a + S1024x512.size a ≤ S1024x3129.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S1024x3129_S1024x512_0_512 : ∀ a, (![0, 512] : Fin 2 → Nat) a + S1024x512.size a ≤ S1024x3129.size a
  inb_S1024x3129_S1024x512_0_1024 : ∀ a, (![0, 1024] : Fin 2 → Nat) a + S1024x512.size a ≤ S1024x3129.size a
  inb_S1024x3129_S1024x512_0_1536 : ∀ a, (![0, 1536] : Fin 2 → Nat) a + S1024x512.size a ≤ S1024x3129.size a
  inb_S1024x3129_S1024x512_0_2048 : ∀ a, (![0, 2048] : Fin 2 → Nat) a + S1024x512.size a ≤ S1024x3129.size a
  inb_S1024x3129_S1024x512_0_2560 : ∀ a, (![0, 2560] : Fin 2 → Nat) a + S1024x512.size a ≤ S1024x3129.size a
  inb_S1024x3129_S1024x57_0_3072 : ∀ a, (![0, 3072] : Fin 2 → Nat) a + S1024x57.size a ≤ S1024x3129.size a
  h_S1024x57 : 0 < S1024x57.numel
  reduces_S1024x57_S1024 : S1024x57.Reduces [1] S1024
  broadcasts_S1024x1_S1024x57 : S1024x1.Broadcasts S1024x57
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  shapeCasts_S16384x10_S16384x10x1 : S16384x10.ShapeCasts S16384x10x1
  bcast_S_S16384x10x1 : S_.BroadcastsInDim S16384x10x1 (![] : Fin 0 → Fin S16384x10x1.rank)
  bcast_S1_S1x1x1_2 : S1.BroadcastsInDim S1x1x1 (![2] : Fin 1 → Fin S1x1x1.rank)
  bcast_S1x1x1_S16384x10x1_0_1_2 : S1x1x1.BroadcastsInDim S16384x10x1 (![0, 1, 2] : Fin 3 → Fin S16384x10x1.rank)
  reducesTo_S16384x10x1_S16384x10_d2 : S16384x10x1.ReducesTo [2] S16384x10
  h_S_ : 0 < S_.numel
  bcast_S16384x10_S16384x10x1_0_1 : S16384x10.BroadcastsInDim S16384x10x1 (![0, 1] : Fin 2 → Fin S16384x10x1.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  reducesTo_S16384x10_S16384_d1 : S16384x10.ReducesTo [1] S16384
  bcast_S_S16384 : S_.BroadcastsInDim S16384 (![] : Fin 0 → Fin S16384.rank)
  reducesTo_S16384_S_d0 : S16384.ReducesTo [0] S_
  shapeCasts_S16384x1_S16384x1x1 : S16384x1.ShapeCasts S16384x1x1
  bcast_S_S16384x1x1 : S_.BroadcastsInDim S16384x1x1 (![] : Fin 0 → Fin S16384x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  gather_S16384x3129_S16384x10x1_S16384x10_n_1_0_0_1_2_11_wf : GatherDims.WF S16384x3129 S16384x10x1 S16384x10 [] [1] [0] [1] [0] 2 ![1, 1]
  gather_S3129_S16384x10x1_S16384x10_n_0_n_n_0_2_1_wf : GatherDims.WF S3129 S16384x10x1 S16384x10 [] [0] [] [0] [] 2 ![1]
  gather_S16384x3129_S16384x1x1_S16384x1_n_1_0_0_1_2_11_wf : GatherDims.WF S16384x3129 S16384x1x1 S16384x1 [] [1] [0] [1] [0] 2 ![1, 1]
  gather_S3129_S16384x1_S16384_n_0_n_n_0_1_1_wf : GatherDims.WF S3129 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3129.size a ≤ S16384x3129.size a
  hwx0_0 : ∀ i : grid0.Coords, EltTy.bits .f32 = 32 ∨ (Rect.block (s := S16384x3129) S1024x3129.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)

variable [Facts₀]

def gather_S16384x3129_S16384x10x1_S16384x10_n_1_0_0_1_2_11 : GatherDims S16384x3129 S16384x10x1 S16384x10 where
  offsetDims := []
  collapsedSliceDims := [1]
  operandBatchingDims := [0]
  startIndicesBatchingDims := [0]
  startIndexMap := [1]
  indexVectorDim := 2
  sliceSizes := ![1, 1]
  wf := gather_S16384x3129_S16384x10x1_S16384x10_n_1_0_0_1_2_11_wf
def gather_S3129_S16384x10x1_S16384x10_n_0_n_n_0_2_1 : GatherDims S3129 S16384x10x1 S16384x10 where
  offsetDims := []
  collapsedSliceDims := [0]
  operandBatchingDims := []
  startIndicesBatchingDims := []
  startIndexMap := [0]
  indexVectorDim := 2
  sliceSizes := ![1]
  wf := gather_S3129_S16384x10x1_S16384x10_n_0_n_n_0_2_1_wf
def gather_S16384x3129_S16384x1x1_S16384x1_n_1_0_0_1_2_11 : GatherDims S16384x3129 S16384x1x1 S16384x1 where
  offsetDims := []
  collapsedSliceDims := [1]
  operandBatchingDims := [0]
  startIndicesBatchingDims := [0]
  startIndexMap := [1]
  indexVectorDim := 2
  sliceSizes := ![1, 1]
  wf := gather_S16384x3129_S16384x1x1_S16384x1_n_1_0_0_1_2_11_wf
def gather_S3129_S16384x1_S16384_n_0_n_n_0_1_1 : GatherDims S3129 S16384x1 S16384 where
  offsetDims := []
  collapsedSliceDims := [0]
  operandBatchingDims := []
  startIndicesBatchingDims := []
  startIndexMap := [0]
  indexVectorDim := 1
  sliceSizes := ![1]
  wf := gather_S3129_S16384x1_S16384_n_0_n_n_0_1_1_wf

abbrev win0_0 : Pipeline.Window sig grid0 :=
  Pipeline.Window.ofSpec (Memref.whole main_arg0) S1024x3129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x3129 : Shape := ⟨2, ![16384, 3129]⟩
abbrev S3129 : Shape := ⟨1, ![3129]⟩
abbrev S16384x10 : Shape := ⟨2, ![16384, 10]⟩
abbrev S16384x1 : Shape := ⟨2, ![16384, 1]⟩
abbrev S_ : Shape := ⟨0, ![]⟩
abbrev S16384 : Shape := ⟨1, ![16384]⟩
abbrev S16384x10x1 : Shape := ⟨3, ![16384, 10, 1]⟩
abbrev S16384x10x2 : Shape := ⟨3, ![16384, 10, 2]⟩
abbrev S1x3129 : Shape := ⟨2, ![1, 3129]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S16384x3129, .f32⟩
  | .hbm, ⟨1, _⟩ => ⟨S3129, .f32⟩
  | .hbm, ⟨2, _⟩ => ⟨S16384x10, .i32⟩
  | .hbm, ⟨3, _⟩ => ⟨S16384x1, .i32⟩
  | .hbm, ⟨4, _⟩ => ⟨S_, .f32⟩
  | .hbm, ⟨5, _⟩ => ⟨S16384x3129, .f32⟩
  | .hbm, ⟨6, _⟩ => ⟨S16384, .i32⟩
  | .hbm, ⟨7, _⟩ => ⟨S16384x1, .i32⟩
  | .hbm, ⟨8, _⟩ => ⟨S_, .i32⟩
  | .hbm, ⟨9, _⟩ => ⟨S16384x1, .i32⟩
  | .hbm, ⟨10, _⟩ => ⟨S16384x1, .i1⟩
  | .hbm, ⟨11, _⟩ => ⟨S_, .i32⟩
  | .hbm, ⟨12, _⟩ => ⟨S16384x1, .i32⟩
  | .hbm, ⟨13, _⟩ => ⟨S16384x1, .i32⟩
  | .hbm, ⟨14, _⟩ => ⟨S16384x1, .i32⟩
  | .hbm, ⟨15, _⟩ => ⟨S_, .i32⟩
  | .hbm, ⟨16, _⟩ => ⟨S16384x10, .i32⟩
  | .hbm, ⟨17, _⟩ => ⟨S16384x10, .i1⟩
  | .hbm, ⟨18, _⟩ => ⟨S_, .i32⟩
  | .hbm, ⟨19, _⟩ => ⟨S16384x10, .i32⟩
  | .hbm, ⟨20, _⟩ => ⟨S16384x10, .i32⟩
  | .hbm, ⟨21, _⟩ => ⟨S16384x10, .i32⟩
  | .hbm, ⟨22, _⟩ => ⟨S16384x10, .i32⟩
  | .hbm, ⟨23, _⟩ => ⟨S16384x10x1, .i32⟩
  | .hbm, ⟨24, _⟩ => ⟨S16384x10x1, .i32⟩
  | .hbm, ⟨25, _⟩ => ⟨S16384x10x2, .i32⟩
  | .hbm, ⟨26, _⟩ => ⟨S_, .f32⟩
  | .hbm, ⟨27, _⟩ => ⟨S16384x10, .f32⟩
  | .hbm, ⟨28, _⟩ => ⟨S16384x3129, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x3129, .f32⟩
  | .hbm, ⟨36, _⟩ => ⟨S16384x3129, .f32⟩
  | .hbm, ⟨37, _⟩ => ⟨S16384x3129, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1, .f32⟩
  | .hbm, ⟨42, _⟩ => ⟨S16384x3129, .f32⟩
  | .hbm, ⟨43, _⟩ => ⟨S16384x3129, .f32⟩
  | .hbm, ⟨44, _⟩ => ⟨S1x3129, .f32⟩
  | .hbm, ⟨45, _⟩ => ⟨S16384x3129, .f32⟩
  | .hbm, ⟨46, _⟩ => ⟨S16384x3129, .f32⟩
  | .hbm, ⟨47, _⟩ => ⟨S16384x3129, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16384, .i32⟩
  | .hbm, ⟨56, _⟩ => ⟨S16384x1, .i32⟩
  | .hbm, ⟨57, _⟩ => ⟨S_, .i32⟩
  | .hbm, ⟨58, _⟩ => ⟨S16384x1, .i32⟩
  | .hbm, ⟨59, _⟩ => ⟨S16384x1, .i1⟩
  | .hbm, ⟨60, _⟩ => ⟨S_, .i32⟩
  | .hbm, ⟨61, _⟩ => ⟨S16384x1, .i32⟩
  | .hbm, ⟨62, _⟩ => ⟨S16384x1, .i32⟩
  | .hbm, ⟨63, _⟩ => ⟨S16384x1, .i32⟩
  | .hbm, ⟨64, _⟩ => ⟨S16384x1x1, .i32⟩
  | .hbm, ⟨65, _⟩ => ⟨S1, .i32⟩
  | .hbm, ⟨66, _⟩ => ⟨S_, .i32⟩
  | .hbm, ⟨67, _⟩ => ⟨S16384x1x1, .i32⟩
  | .hbm, ⟨68, _⟩ => ⟨S16384x1x1, .i1⟩
  | .hbm, ⟨69, _⟩ => ⟨S1x1x1, .i32⟩
  | .hbm, ⟨70, _⟩ => ⟨S16384x1x1, .i32⟩
  | .hbm, ⟨71, _⟩ => ⟨S16384x1x1, .i1⟩
  | .hbm, ⟨72, _⟩ => ⟨S16384x1x1, .i1⟩
  | .hbm, ⟨73, _⟩ => ⟨S_, .i1⟩
  | .hbm, ⟨74, _⟩ => ⟨S16384x1, .i1⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384, .f32⟩
  | .hbm, ⟨80, _⟩ => ⟨S16384, .f32⟩
  | .hbm, ⟨81, _⟩ => ⟨S_, .i32⟩
  | .hbm, ⟨82, _⟩ => ⟨S16384, .i32⟩
  | .hbm, ⟨83, _⟩ => ⟨S16384, .i1⟩
  | .hbm, ⟨84, _⟩ => ⟨S_, .i32⟩
  | .hbm, ⟨85, _⟩ => ⟨S16384, .i32⟩
  | .hbm, ⟨86, _⟩ => ⟨S16384, .i32⟩
  | .hbm, ⟨87, _⟩ => ⟨S16384, .i32⟩
  | .hbm, ⟨88, _⟩ => ⟨S16384x1, .i32⟩
  | .hbm, ⟨89, _⟩ => ⟨S16384, .f32⟩
  | .hbm, ⟨90, _⟩ => ⟨S16384, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .i32⟩
  | .hbm, ⟨97, _⟩ => ⟨S16384x1, .i32⟩
  | .hbm, ⟨98, _⟩ => ⟨S16384x1, .i1⟩
  | .hbm, ⟨99, _⟩ => ⟨S_, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S16384x3129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_c_7 : Ref sig .tc := ⟨.hbm, 81, rfl⟩
abbrev main_v33 : Ref sig .tc := ⟨.hbm, 82, rfl⟩
abbrev main_v34 : Ref sig .tc := ⟨.hbm, 83, rfl⟩
abbrev main_c_8 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_9 : Ref sig .tc := ⟨.hbm, 91, rfl⟩
abbrev main_v41 : Ref sig .tc := ⟨.hbm, 92, rfl⟩
abbrev main_cst_10 : Ref sig .tc := ⟨.hbm, 93, rfl⟩
abbrev main_v42 : Ref sig .tc := ⟨.hbm, 94, rfl⟩
abbrev main_v43 : Ref sig .tc := ⟨.hbm, 95, rfl⟩
abbrev main_c_11 : Ref sig .tc := ⟨.hbm, 96, rfl⟩
abbrev main_v44 : Ref sig .tc := ⟨.hbm, 97, rfl⟩
abbrev main_v45 : Ref sig .tc := ⟨.hbm, 98, rfl⟩
abbrev main_cst_12 : Ref sig .tc := ⟨.hbm, 99, rfl⟩
abbrev main_cst_13 : Ref sig .tc := ⟨.hbm, 100, rfl⟩
abbrev main_call2_v0 : Ref sig .tc := ⟨.hbm, 101, rfl⟩
abbrev main_call2_v1 : Ref sig .tc := ⟨.hbm, 102, rfl⟩
abbrev main_v46 : Ref sig .tc := ⟨.hbm, 103, rfl⟩
abbrev main_v47 : Ref sig .tc := ⟨.hbm, 104, rfl⟩
abbrev main_cst_14 : Ref sig .tc := ⟨.hbm, 105, rfl⟩
abbrev main_v48 : Ref sig .tc := ⟨.hbm, 106, rfl⟩
abbrev main_cst_15 : Ref sig .tc := ⟨.hbm, 107, rfl⟩
abbrev main_v49 : Ref sig .tc := ⟨.hbm, 108, rfl⟩
abbrev main_v50 : Ref sig .tc := ⟨.hbm, 109, rfl⟩
abbrev main_cst_16 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩

abbrev nD : Nat := 1
abbrev τ : Topo := Topo.v7x

variable {F : FTy → Type} [FloatOps F]

class Facts₀ : Prop where
  bcast_S_S16384x3129 : S_.BroadcastsInDim S16384x3129 (![] : Fin 0 → Fin S16384x3129.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S_S16384x10 : S_.BroadcastsInDim S16384x10 (![] : Fin 0 → Fin S16384x10.rank)
  bcast_S16384x1_S16384x10_0_1 : S16384x1.BroadcastsInDim S16384x10 (![0, 1] : Fin 2 → Fin S16384x10.rank)
  bcast_S16384x10_S16384x10x1_0_1 : S16384x10.BroadcastsInDim S16384x10x1 (![0, 1] : Fin 2 → Fin S16384x10x1.rank)
  concatenates_S16384x10x1_S16384x10x1_S16384x10x2_d2 : Shape.Concatenates [S16384x10x1, S16384x10x1] S16384x10x2 2
  reducesTo_S16384x3129_S16384_d1 : S16384x3129.ReducesTo [1] S16384
  h_S_ : 0 < S_.numel
  bcast_S_S16384 : S_.BroadcastsInDim S16384 (![] : Fin 0 → Fin S16384.rank)
  bcast_S16384x1_S16384x3129_0_1 : S16384x1.BroadcastsInDim S16384x3129 (![0, 1] : Fin 2 → Fin S16384x3129.rank)
  bcast_S3129_S1x3129_1 : S3129.BroadcastsInDim S1x3129 (![1] : Fin 1 → Fin S1x3129.rank)
  bcast_S1x3129_S16384x3129_0_1 : S1x3129.BroadcastsInDim S16384x3129 (![0, 1] : Fin 2 → Fin S16384x3129.rank)
  reducesTo_S16384_S_d0 : S16384.ReducesTo [0] S_
  shapeCasts_S16384x1_S16384 : S16384x1.ShapeCasts S16384
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  scatter_S16384x3129_S16384x10x2_S16384x10_n_01_01_2_wf : ScatterDims.WF S16384x3129 S16384x10x2 S16384x10 [] [0, 1] [0, 1] 2
  gather_S16384x3129_S16384x1x1_S16384x1_n_1_0_0_1_2_11_wf : GatherDims.WF S16384x3129 S16384x1x1 S16384x1 [] [1] [0] [1] [0] 2 ![1, 1]
  gather_S3129_S16384x1_S16384_n_0_n_n_0_1_1_wf : GatherDims.WF S3129 S16384x1 S16384 [] [0] [] [0] [] 1 ![1]

variable [Facts₀]

def scatter_S16384x3129_S16384x10x2_S16384x10_n_01_01_2 : ScatterDims S16384x3129 S16384x10x2 S16384x10 where
  updateWindowDims := []
  insertedWindowDims := [0, 1]
  scatterDimsToOperandDims := [0, 1]
  indexVectorDim := 2
  wf := scatter_S16384x3129_S16384x10x2_S16384x10_n_01_01_2_wf
def gather_S16384x3129_S16384x1x1_S16384x1_n_1_0_0_1_2_11 : GatherDims S16384x3129 S16384x1x1 S16384x1 where
  offsetDims := []
  collapsedSliceDims := [1]
  operandBatchingDims := [0]
  startIndicesBatchingDims := [0]
  startIndexMap := [1]
  indexVectorDim := 2
  sliceSizes := ![1, 1]
  wf := gather_S16384x3129_S16384x1x1_S16384x1_n_1_0_0_1_2_11_wf
def gather_S3129_S16384x1_S16384_n_0_n_n_0_1_1 : GatherDims S3129 S16384x1 S16384 where
  offsetDims := []
  collapsedSliceDims := [0]
  operandBatchingDims := []
  startIndicesBatchingDims := []
  startIndexMap := [0]
  indexVectorDim := 1
  sliceSizes := ![1]
  wf := gather_S3129_S16384x1_S16384_n_0_n_n_0_1_1_wf

class Facts : Prop extends Facts₀ where

variable [Facts]
-- ==== Proof.K.BodyDef.lean ====
/-
  What the body of the region stores, as a pure function of its block of logits: it loads the block's 3129 columns in
  seven chunks (six of 512 columns, one of 57), carries a running maximum and a rescaled running sum of exponentials
  through them, and stores the final maximum plus the logarithm of the final sum, one value per row.
-/
import proofs.«429144_j34359738695_3_alg».proof.Proof.Gen.Kernel.Skeleton
import Idealize.ShloMosaic.Lib.Pipeline.FrameBody

noncomputable section

namespace Cert.Kernel.Fr

open Cert.Kernel Cert.Kernel.Gen
open Idealize.ShloMosaic Idealize.SL.Sem

variable {F : FTy → Type} [FloatOps F]

/-- The seven column chunks the body loads, and the one column it stores. -/
abbrev rc0 : Rect S1024x3129 := Rect.unit (s := S1024x3129) ![0, 0] S1024x512.size inb_S1024x3129_S1024x512_0_0
abbrev rc1 : Rect S1024x3129 := Rect.unit (s := S1024x3129) ![0, 512] S1024x512.size inb_S1024x3129_S1024x512_0_512
abbrev rc2 : Rect S1024x3129 := Rect.unit (s := S1024x3129) ![0, 1024] S1024x512.size inb_S1024x3129_S1024x512_0_1024
abbrev rc3 : Rect S1024x3129 := Rect.unit (s := S1024x3129) ![0, 1536] S1024x512.size inb_S1024x3129_S1024x512_0_1536
abbrev rc4 : Rect S1024x3129 := Rect.unit (s := S1024x3129) ![0, 2048] S1024x512.size inb_S1024x3129_S1024x512_0_2048
abbrev rc5 : Rect S1024x3129 := Rect.unit (s := S1024x3129) ![0, 2560] S1024x512.size inb_S1024x3129_S1024x512_0_2560
abbrev rc6 : Rect S1024x3129 := Rect.unit (s := S1024x3129) ![0, 3072] S1024x57.size inb_S1024x3129_S1024x57_0_3072
abbrev rout : Rect S1024x1 := Rect.unit (s := S1024x1) ![0, 0] S1024x1.size inb_S1024x1_S1024x1_0_0

/-- The value the body stores, from its block of logits: the running maximum plus the logarithm of the rescaled
    running sum after the seven chunks. -/
def bodyVal (x0 : Vec F S1024x3129 .f32) : FVec F S1024x1 .f32 :=
  k0_pay1
    (k0_pay10 (k0_pay5 (View.ld x0 rc0) (View.ld x0 rc1) (View.ld x0 rc2)) (k0_pay6 (View.ld x0 rc0) (View.ld x0 rc1) (View.ld x0 rc2)) (View.ld x0 rc3) (View.ld x0 rc4) (View.ld x0 rc5))
    (k0_pay11 (k0_pay5 (View.ld x0 rc0) (View.ld x0 rc1) (View.ld x0 rc2)) (View.ld x0 rc3) (View.ld x0 rc4) (View.ld x0 rc5) (View.ld x0 rc6))
    (k0_pay12 (k0_pay5 (View.ld x0 rc0) (View.ld x0 rc1) (View.ld x0 rc2)) (View.ld x0 rc3) (View.ld x0 rc4) (View.ld x0 rc5) (View.ld x0 rc6))
    (k0_pay13 (k0_pay5 (View.ld x0 rc0) (View.ld x0 rc1) (View.ld x0 rc2)) (View.ld x0 rc3) (View.ld x0 rc4) (View.ld x0 rc5) (View.ld x0 rc6))

end Cert.Kernel.Fr

end
-- ==== Proof.K.Frame.lean ====
/-
  The frame of `Kernel`: @main is host lines, ONE pipelined region over 16 row blocks, and 104 host lines after it.

  The region's body reads its block of 1024 rows of logits in seven column chunks and stores one column of 1024
  values; it keeps nothing between grid points and names no scratch, semaphore or transfer. So the proof data are:
  every array at what the region finds (`V`: the launch contents after the host lines before the region), the input
  window's buffer at its block, the output window's buffer at the body's stored value of that block (`out0_1`), the
  invariant the untouched rest.  The body's triple is run symbolically; the launch is the library's frame run for a
  region continued by host lines, whose post names every array after the region and every other buffer as the later
  lines leave it.  The argument arrays are written by no host line and staged by no output window: they end as
  launched (`frame`), at any float instance.
-/
import proofs.«429144_j34359738695_3_alg».proof.Proof.Gen.Kernel.Launch
import proofs.«429144_j34359738695_3_alg».proof.Proof.Gen.Kernel.Skeleton
import proofs.«429144_j34359738695_3_alg».proof.Proof.Gen.Kernel.Points
import proofs.«429144_j34359738695_3_alg».proof.Proof.K.BodyDef
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch, and the ones after it. -/
abbrev preOps : List (List (HloOp τ sig (Elt F))) := [hostOps0, hostOps0_1, hostOps0_2, hostOps0_3]
abbrev tailOps : List (List (HloOp τ sig (Elt F))) := [hostOps1, hostOps1_1, hostOps1_2, hostOps1_3, hostOps1_4, hostOps1_5, hostOps1_6]

/-- Core `c`'s buffer contents when the region is entered: the launch contents after the lines before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- A property of every operation of every stretch, from the stretches' own lists. -/
theorem forall_mem_of_forall {α : Type} {P : α → Prop} {L : List (List α)} (h : L.Forall fun l => l.Forall P) :
    ∀ l ∈ L, ∀ a ∈ l, P a :=
  fun l hl a ha => (List.forall_iff_forall_mem.mp ((List.forall_iff_forall_mem.mp h) l hl)) a ha

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the lines before the region, the region, the lines after it: it reduces to the region CONTINUED BY the
    later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_mem_of_forall (P := fun op : HloOp τ sig (Elt F) => op.bufs ⊆ StableHlo.tcRefs τ sig)
    (by simp only [List.Forall]; exact ⟨hostOps1_sub, hostOps1_1_sub, hostOps1_2_sub, hostOps1_3_sub, hostOps1_4_sub, hostOps1_5_sub, hostOps1_6_sub⟩) ops hops op hop)
/-- They allocate nothing. -/
theorem sfx_fresh : ∀ ops ∈ (tailOps : List (List (HloOp τ sig (Elt F)))), ∀ op ∈ ops, op.fresh = ∅ :=
  forall_mem_of_forall (P := fun op : HloOp τ sig (Elt F) => op.fresh = ∅)
    (by simp only [List.Forall]; exact ⟨hostOps1_fresh, hostOps1_1_fresh, hostOps1_2_fresh, hostOps1_3_fresh, hostOps1_4_fresh, hostOps1_5_fresh, hostOps1_6_fresh⟩)

/-- A stretch writes neither array of the pipeline (each line writes its own result buffer, which is neither the
    logits nor the region's result). -/
local macro "keeps_tac" : tactic => `(tactic| (
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))))

theorem hostOps1_keeps : (hostOps1 : List (HloOp τ sig (Elt F))).Forall fun op => ∀ w, Proc.devRef .tc (Pipeline.arrRef spec0 w) ∉ op.writes := by
  keeps_tac
theorem hostOps1_1_keeps : (hostOps1_1 : List (HloOp τ sig (Elt F))).Forall fun op => ∀ w, Proc.devRef .tc (Pipeline.arrRef spec0 w) ∉ op.writes := by
  keeps_tac
theorem hostOps1_2_keeps : (hostOps1_2 : List (HloOp τ sig (Elt F))).Forall fun op => ∀ w, Proc.devRef .tc (Pipeline.arrRef spec0 w) ∉ op.writes := by
  keeps_tac
theorem hostOps1_3_keeps : (hostOps1_3 : List (HloOp τ sig (Elt F))).Forall fun op => ∀ w, Proc.devRef .tc (Pipeline.arrRef spec0 w) ∉ op.writes := by
  keeps_tac
theorem hostOps1_4_keeps : (hostOps1_4 : List (HloOp τ sig (Elt F))).Forall fun op => ∀ w, Proc.devRef .tc (Pipeline.arrRef spec0 w) ∉ op.writes := by
  keeps_tac
theorem hostOps1_5_keeps : (hostOps1_5 : List (HloOp τ sig (Elt F))).Forall fun op => ∀ w, Proc.devRef .tc (Pipeline.arrRef spec0 w) ∉ op.writes := by
  keeps_tac
theorem hostOps1_6_keeps : (hostOps1_6 : List (HloOp τ sig (Elt F))).Forall fun op => ∀ w, Proc.devRef .tc (Pipeline.arrRef spec0 w) ∉ op.writes := by
  keeps_tac

theorem sfx_keeps : ∀ ops ∈ (tailOps : List (List (HloOp τ sig (Elt F)))), ∀ op ∈ ops,
    ∀ w, Proc.devRef .tc (Pipeline.arrRef spec0 w) ∉ op.writes :=
  forall_mem_of_forall (P := fun op : HloOp τ sig (Elt F) => ∀ w, Proc.devRef .tc (Pipeline.arrRef spec0 w) ∉ op.writes)
    (by simp only [List.Forall]; exact ⟨hostOps1_keeps, hostOps1_1_keeps, hostOps1_2_keeps, hostOps1_3_keeps, hostOps1_4_keeps, hostOps1_5_keeps, hostOps1_6_keeps⟩)

/-! ## The argument arrays are written by no host line -/

/-- No line of a list writes reference `b`. -/
local macro "nowrite_tac" : tactic => `(tactic| (
  simp only [List.flatten_cons, List.flatten_nil, List.append_nil, List.cons_append, List.nil_append, List.Forall,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 1000000 in
theorem pre_nowrite_arg0 : (List.flatten (preOps (F := F))).Forall fun op => Proc.devRef .tc main_arg0 ∉ op.writes := by
  simp only [preOps, hostOps0, hostOps0_1, hostOps0_2, hostOps0_3]; nowrite_tac
set_option maxHeartbeats 1000000 in
theorem pre_nowrite_arg1 : (List.flatten (preOps (F := F))).Forall fun op => Proc.devRef .tc main_arg1 ∉ op.writes := by
  simp only [preOps, hostOps0, hostOps0_1, hostOps0_2, hostOps0_3]; nowrite_tac
set_option maxHeartbeats 1000000 in
theorem pre_nowrite_arg2 : (List.flatten (preOps (F := F))).Forall fun op => Proc.devRef .tc main_arg2 ∉ op.writes := by
  simp only [preOps, hostOps0, hostOps0_1, hostOps0_2, hostOps0_3]; nowrite_tac
set_option maxHeartbeats 1000000 in
theorem pre_nowrite_arg3 : (List.flatten (preOps (F := F))).Forall fun op => Proc.devRef .tc main_arg3 ∉ op.writes := by
  simp only [preOps, hostOps0, hostOps0_1, hostOps0_2, hostOps0_3]; nowrite_tac
set_option maxHeartbeats 4000000 in
theorem tail_nowrite_arg0 : (List.flatten (tailOps (F := F))).Forall fun op => Proc.devRef .tc main_arg0 ∉ op.writes := by
  simp only [tailOps, hostOps1, hostOps1_1, hostOps1_2, hostOps1_3, hostOps1_4, hostOps1_5, hostOps1_6]; nowrite_tac
set_option maxHeartbeats 4000000 in
theorem tail_nowrite_arg1 : (List.flatten (tailOps (F := F))).Forall fun op => Proc.devRef .tc main_arg1 ∉ op.writes := by
  simp only [tailOps, hostOps1, hostOps1_1, hostOps1_2, hostOps1_3, hostOps1_4, hostOps1_5, hostOps1_6]; nowrite_tac
set_option maxHeartbeats 4000000 in
theorem tail_nowrite_arg2 : (List.flatten (tailOps (F := F))).Forall fun op => Proc.devRef .tc main_arg2 ∉ op.writes := by
  simp only [tailOps, hostOps1, hostOps1_1, hostOps1_2, hostOps1_3, hostOps1_4, hostOps1_5, hostOps1_6]; nowrite_tac
set_option maxHeartbeats 4000000 in
theorem tail_nowrite_arg3 : (List.flatten (tailOps (F := F))).Forall fun op => Proc.devRef .tc main_arg3 ∉ op.writes := by
  simp only [tailOps, hostOps1, hostOps1_1, hostOps1_2, hostOps1_3, hostOps1_4, hostOps1_5, hostOps1_6]; nowrite_tac

/-- The region finds each argument array as launched. -/
theorem V_main_arg0 (c : Dev nD) : V m c main_arg0 = m ((c : Thread nD τ).loc main_arg0) :=
  StableHlo.after_of_forall_not_mem (b := Proc.devRef .tc main_arg0) _ _ (List.forall_iff_forall_mem.mp pre_nowrite_arg0)
theorem V_main_arg1 (c : Dev nD) : V m c main_arg1 = m ((c : Thread nD τ).loc main_arg1) :=
  StableHlo.after_of_forall_not_mem (b := Proc.devRef .tc main_arg1) _ _ (List.forall_iff_forall_mem.mp pre_nowrite_arg1)
theorem V_main_arg2 (c : Dev nD) : V m c main_arg2 = m ((c : Thread nD τ).loc main_arg2) :=
  StableHlo.after_of_forall_not_mem (b := Proc.devRef .tc main_arg2) _ _ (List.forall_iff_forall_mem.mp pre_nowrite_arg2)
theorem V_main_arg3 (c : Dev nD) : V m c main_arg3 = m ((c : Thread nD τ).loc main_arg3) :=
  StableHlo.after_of_forall_not_mem (b := Proc.devRef .tc main_arg3) _ _ (List.forall_iff_forall_mem.mp pre_nowrite_arg3)

/-- An argument array that no window writes back ends as launched: the later lines do not write it, and it is not
    the region's result. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp tail_nowrite_arg1),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp tail_nowrite_arg2),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp tail_nowrite_arg3),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The output window's staging buffer after the body: its one store, over the whole buffer. -/
def out0_1 (x0 : Vec F S1024x3129 .f32) : Vec F S1024x1 .f32 :=
  View.canon [⟨rout, bodyVal x0⟩]

/-- The store covers the buffer. -/
theorem cover0_1 (p0 : Vec F S1024x1 .f32) (y : S1024x1.Idx) :
    ∃ pc ∈ ([⟨rout, p0⟩] : List (View.Piece (Elt F) S1024x1 .f32)), y ∈ pc.1.set :=
  View.cover_of_tiled [⟨rout, p0⟩] S1024x1.size (by rfl) y

/-! ## The body's triple -/

set_option maxHeartbeats 4000000 in
/-- The kernel body on whole staging memrefs, the input's at read contents `x0` and the output's at anything, runs to
    the continuation holding the input's as it was and the output's at `out0_1 x0`. -/
theorem sound_kernel (c : Dev nD) (E : Set ℕ) (i : grid0.Coords) (arg1 : Memref sig .tc .vmem S1024x3129 .f32) (harg1 : arg1.IsWhole) (arg2 : Memref sig .tc .vmem S1024x1 .f32) (harg2 : arg2.IsWhole)
    (x0 : Vec F S1024x3129 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__logz_kernel i arg1 harg1 arg2 harg2) K := by
  simp only [cc0__logz_kernel_eq_skeleton]; unfold cc0__logz_kernel_skel
  simp only [k0_part1_eq_skeleton, k0_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The arrays as the region finds them; after the body at point `t` the input's buffer at its block and the output's
    at the body's value of that block; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data give and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The logits' array after the region is the array the region found (an input window's array is never written). -/
theorem arr0_kept (c : Dev nD) : (dats m 0 c).arrAt 0 cfg0.N = m ((c : Thread nD τ).loc main_arg0) :=
  ((dats m 0 c).arrAt_in 0 rfl cfg0.N).trans ((A_eq m c 0).trans (V_main_arg0 m c))

/-- THE FRAME: the argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (arr0_kept m c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.Kernel.Fr

end
-- ==== Proof.KI.BodyDef.lean ====
/-
  What the body of the region stores, as a pure function of its block of logits: it loads the block's 3129 columns in
  seven chunks (six of 512 columns, one of 57), carries a running maximum and a rescaled running sum of exponentials
  through them, and stores the final maximum plus the logarithm of the final sum, one value per row.
-/
import proofs.«429144_j34359738695_3_alg».proof.Proof.Gen.KernelIdeal.Skeleton
import Idealize.ShloMosaic.Lib.Pipeline.FrameBody

noncomputable section

namespace Cert.KernelIdeal.Fr

open Cert.KernelIdeal Cert.KernelIdeal.Gen
open Idealize.ShloMosaic Idealize.SL.Sem

variable {F : FTy → Type} [FloatOps F]

/-- The seven column chunks the body loads, and the one column it stores. -/
abbrev rc0 : Rect S1024x3129 := Rect.unit (s := S1024x3129) ![0, 0] S1024x512.size inb_S1024x3129_S1024x512_0_0
abbrev rc1 : Rect S1024x3129 := Rect.unit (s := S1024x3129) ![0, 512] S1024x512.size inb_S1024x3129_S1024x512_0_512
abbrev rc2 : Rect S1024x3129 := Rect.unit (s := S1024x3129) ![0, 1024] S1024x512.size inb_S1024x3129_S1024x512_0_1024
abbrev rc3 : Rect S1024x3129 := Rect.unit (s := S1024x3129) ![0, 1536] S1024x512.size inb_S1024x3129_S1024x512_0_1536
abbrev rc4 : Rect S1024x3129 := Rect.unit (s := S1024x3129) ![0, 2048] S1024x512.size inb_S1024x3129_S1024x512_0_2048
abbrev rc5 : Rect S1024x3129 := Rect.unit (s := S1024x3129) ![0, 2560] S1024x512.size inb_S1024x3129_S1024x512_0_2560
abbrev rc6 : Rect S1024x3129 := Rect.unit (s := S1024x3129) ![0, 3072] S1024x57.size inb_S1024x3129_S1024x57_0_3072
abbrev rout : Rect S1024x1 := Rect.unit (s := S1024x1) ![0, 0] S1024x1.size inb_S1024x1_S1024x1_0_0

/-- The value the body stores, from its block of logits: the running maximum plus the logarithm of the rescaled
    running sum after the seven chunks. -/
def bodyVal (x0 : Vec F S1024x3129 .f32) : FVec F S1024x1 .f32 :=
  k0_pay1
    (k0_pay10 (k0_pay5 (View.ld x0 rc0) (View.ld x0 rc1) (View.ld x0 rc2)) (k0_pay6 (View.ld x0 rc0) (View.ld x0 rc1) (View.ld x0 rc2)) (View.ld x0 rc3) (View.ld x0 rc4) (View.ld x0 rc5))
    (k0_pay11 (k0_pay5 (View.ld x0 rc0) (View.ld x0 rc1) (View.ld x0 rc2)) (View.ld x0 rc3) (View.ld x0 rc4) (View.ld x0 rc5) (View.ld x0 rc6))
    (k0_pay12 (k0_pay5 (View.ld x0 rc0) (View.ld x0 rc1) (View.ld x0 rc2)) (View.ld x0 rc3) (View.ld x0 rc4) (View.ld x0 rc5) (View.ld x0 rc6))
    (k0_pay13 (k0_pay5 (View.ld x0 rc0) (View.ld x0 rc1) (View.ld x0 rc2)) (View.ld x0 rc3) (View.ld x0 rc4) (View.ld x0 rc5) (View.ld x0 rc6))

end Cert.KernelIdeal.Fr

end
-- ==== Proof.KI.Frame.lean ====
/-
  The frame of `KernelIdeal`: @main is host lines, ONE pipelined region over 16 row blocks, and 104 host lines after it.

  The region's body reads its block of 1024 rows of logits in seven column chunks and stores one column of 1024
  values; it keeps nothing between grid points and names no scratch, semaphore or transfer. So the proof data are:
  every array at what the region finds (`V`: the launch contents after the host lines before the region), the input
  window's buffer at its block, the output window's buffer at the body's stored value of that block (`out0_1`), the
  invariant the untouched rest.  The body's triple is run symbolically; the launch is the library's frame run for a
  region continued by host lines, whose post names every array after the region and every other buffer as the later
  lines leave it.  The argument arrays are written by no host line and staged by no output window: they end as
  launched (`frame`), at any float instance.
-/
import proofs.«429144_j34359738695_3_alg».proof.Proof.Gen.KernelIdeal.Launch
import proofs.«429144_j34359738695_3_alg».proof.Proof.Gen.KernelIdeal.Skeleton
import proofs.«429144_j34359738695_3_alg».proof.Proof.Gen.KernelIdeal.Points
import proofs.«429144_j34359738695_3_alg».proof.Proof.KI.BodyDef
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch, and the ones after it. -/
abbrev preOps : List (List (HloOp τ sig (Elt F))) := [hostOps0, hostOps0_1, hostOps0_2, hostOps0_3]
abbrev tailOps : List (List (HloOp τ sig (Elt F))) := [hostOps1, hostOps1_1, hostOps1_2, hostOps1_3, hostOps1_4, hostOps1_5, hostOps1_6]

/-- Core `c`'s buffer contents when the region is entered: the launch contents after the lines before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- A property of every operation of every stretch, from the stretches' own lists. -/
theorem forall_mem_of_forall {α : Type} {P : α → Prop} {L : List (List α)} (h : L.Forall fun l => l.Forall P) :
    ∀ l ∈ L, ∀ a ∈ l, P a :=
  fun l hl a ha => (List.forall_iff_forall_mem.mp ((List.forall_iff_forall_mem.mp h) l hl)) a ha

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the lines before the region, the region, the lines after it: it reduces to the region CONTINUED BY the
    later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_mem_of_forall (P := fun op : HloOp τ sig (Elt F) => op.bufs ⊆ StableHlo.tcRefs τ sig)
    (by simp only [List.Forall]; exact ⟨hostOps1_sub, hostOps1_1_sub, hostOps1_2_sub, hostOps1_3_sub, hostOps1_4_sub, hostOps1_5_sub, hostOps1_6_sub⟩) ops hops op hop)
/-- They allocate nothing. -/
theorem sfx_fresh : ∀ ops ∈ (tailOps : List (List (HloOp τ sig (Elt F)))), ∀ op ∈ ops, op.fresh = ∅ :=
  forall_mem_of_forall (P := fun op : HloOp τ sig (Elt F) => op.fresh = ∅)
    (by simp only [List.Forall]; exact ⟨hostOps1_fresh, hostOps1_1_fresh, hostOps1_2_fresh, hostOps1_3_fresh, hostOps1_4_fresh, hostOps1_5_fresh, hostOps1_6_fresh⟩)

/-- A stretch writes neither array of the pipeline (each line writes its own result buffer, which is neither the
    logits nor the region's result). -/
local macro "keeps_tac" : tactic => `(tactic| (
  simp only [List.Forall]
  repeat' apply And.intro
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))))

theorem hostOps1_keeps : (hostOps1 : List (HloOp τ sig (Elt F))).Forall fun op => ∀ w, Proc.devRef .tc (Pipeline.arrRef spec0 w) ∉ op.writes := by
  keeps_tac
theorem hostOps1_1_keeps : (hostOps1_1 : List (HloOp τ sig (Elt F))).Forall fun op => ∀ w, Proc.devRef .tc (Pipeline.arrRef spec0 w) ∉ op.writes := by
  keeps_tac
theorem hostOps1_2_keeps : (hostOps1_2 : List (HloOp τ sig (Elt F))).Forall fun op => ∀ w, Proc.devRef .tc (Pipeline.arrRef spec0 w) ∉ op.writes := by
  keeps_tac
theorem hostOps1_3_keeps : (hostOps1_3 : List (HloOp τ sig (Elt F))).Forall fun op => ∀ w, Proc.devRef .tc (Pipeline.arrRef spec0 w) ∉ op.writes := by
  keeps_tac
theorem hostOps1_4_keeps : (hostOps1_4 : List (HloOp τ sig (Elt F))).Forall fun op => ∀ w, Proc.devRef .tc (Pipeline.arrRef spec0 w) ∉ op.writes := by
  keeps_tac
theorem hostOps1_5_keeps : (hostOps1_5 : List (HloOp τ sig (Elt F))).Forall fun op => ∀ w, Proc.devRef .tc (Pipeline.arrRef spec0 w) ∉ op.writes := by
  keeps_tac
theorem hostOps1_6_keeps : (hostOps1_6 : List (HloOp τ sig (Elt F))).Forall fun op => ∀ w, Proc.devRef .tc (Pipeline.arrRef spec0 w) ∉ op.writes := by
  keeps_tac

theorem sfx_keeps : ∀ ops ∈ (tailOps : List (List (HloOp τ sig (Elt F)))), ∀ op ∈ ops,
    ∀ w, Proc.devRef .tc (Pipeline.arrRef spec0 w) ∉ op.writes :=
  forall_mem_of_forall (P := fun op : HloOp τ sig (Elt F) => ∀ w, Proc.devRef .tc (Pipeline.arrRef spec0 w) ∉ op.writes)
    (by simp only [List.Forall]; exact ⟨hostOps1_keeps, hostOps1_1_keeps, hostOps1_2_keeps, hostOps1_3_keeps, hostOps1_4_keeps, hostOps1_5_keeps, hostOps1_6_keeps⟩)

/-! ## The argument arrays are written by no host line -/

/-- No line of a list writes reference `b`. -/
local macro "nowrite_tac" : tactic => `(tactic| (
  simp only [List.flatten_cons, List.flatten_nil, List.append_nil, List.cons_append, List.nil_append, List.Forall,
    StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 1000000 in
theorem pre_nowrite_arg0 : (List.flatten (preOps (F := F))).Forall fun op => Proc.devRef .tc main_arg0 ∉ op.writes := by
  simp only [preOps, hostOps0, hostOps0_1, hostOps0_2, hostOps0_3]; nowrite_tac
set_option maxHeartbeats 1000000 in
theorem pre_nowrite_arg1 : (List.flatten (preOps (F := F))).Forall fun op => Proc.devRef .tc main_arg1 ∉ op.writes := by
  simp only [preOps, hostOps0, hostOps0_1, hostOps0_2, hostOps0_3]; nowrite_tac
set_option maxHeartbeats 1000000 in
theorem pre_nowrite_arg2 : (List.flatten (preOps (F := F))).Forall fun op => Proc.devRef .tc main_arg2 ∉ op.writes := by
  simp only [preOps, hostOps0, hostOps0_1, hostOps0_2, hostOps0_3]; nowrite_tac
set_option maxHeartbeats 1000000 in
theorem pre_nowrite_arg3 : (List.flatten (preOps (F := F))).Forall fun op => Proc.devRef .tc main_arg3 ∉ op.writes := by
  simp only [preOps, hostOps0, hostOps0_1, hostOps0_2, hostOps0_3]; nowrite_tac
set_option maxHeartbeats 4000000 in
theorem tail_nowrite_arg0 : (List.flatten (tailOps (F := F))).Forall fun op => Proc.devRef .tc main_arg0 ∉ op.writes := by
  simp only [tailOps, hostOps1, hostOps1_1, hostOps1_2, hostOps1_3, hostOps1_4, hostOps1_5, hostOps1_6]; nowrite_tac
set_option maxHeartbeats 4000000 in
theorem tail_nowrite_arg1 : (List.flatten (tailOps (F := F))).Forall fun op => Proc.devRef .tc main_arg1 ∉ op.writes := by
  simp only [tailOps, hostOps1, hostOps1_1, hostOps1_2, hostOps1_3, hostOps1_4, hostOps1_5, hostOps1_6]; nowrite_tac
set_option maxHeartbeats 4000000 in
theorem tail_nowrite_arg2 : (List.flatten (tailOps (F := F))).Forall fun op => Proc.devRef .tc main_arg2 ∉ op.writes := by
  simp only [tailOps, hostOps1, hostOps1_1, hostOps1_2, hostOps1_3, hostOps1_4, hostOps1_5, hostOps1_6]; nowrite_tac
set_option maxHeartbeats 4000000 in
theorem tail_nowrite_arg3 : (List.flatten (tailOps (F := F))).Forall fun op => Proc.devRef .tc main_arg3 ∉ op.writes := by
  simp only [tailOps, hostOps1, hostOps1_1, hostOps1_2, hostOps1_3, hostOps1_4, hostOps1_5, hostOps1_6]; nowrite_tac

/-- The region finds each argument array as launched. -/
theorem V_main_arg0 (c : Dev nD) : V m c main_arg0 = m ((c : Thread nD τ).loc main_arg0) :=
  StableHlo.after_of_forall_not_mem (b := Proc.devRef .tc main_arg0) _ _ (List.forall_iff_forall_mem.mp pre_nowrite_arg0)
theorem V_main_arg1 (c : Dev nD) : V m c main_arg1 = m ((c : Thread nD τ).loc main_arg1) :=
  StableHlo.after_of_forall_not_mem (b := Proc.devRef .tc main_arg1) _ _ (List.forall_iff_forall_mem.mp pre_nowrite_arg1)
theorem V_main_arg2 (c : Dev nD) : V m c main_arg2 = m ((c : Thread nD τ).loc main_arg2) :=
  StableHlo.after_of_forall_not_mem (b := Proc.devRef .tc main_arg2) _ _ (List.forall_iff_forall_mem.mp pre_nowrite_arg2)
theorem V_main_arg3 (c : Dev nD) : V m c main_arg3 = m ((c : Thread nD τ).loc main_arg3) :=
  StableHlo.after_of_forall_not_mem (b := Proc.devRef .tc main_arg3) _ _ (List.forall_iff_forall_mem.mp pre_nowrite_arg3)

/-- An argument array that no window writes back ends as launched: the later lines do not write it, and it is not
    the region's result. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp tail_nowrite_arg1),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp tail_nowrite_arg2),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp tail_nowrite_arg3),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The output window's staging buffer after the body: its one store, over the whole buffer. -/
def out0_1 (x0 : Vec F S1024x3129 .f32) : Vec F S1024x1 .f32 :=
  View.canon [⟨rout, bodyVal x0⟩]

/-- The store covers the buffer. -/
theorem cover0_1 (p0 : Vec F S1024x1 .f32) (y : S1024x1.Idx) :
    ∃ pc ∈ ([⟨rout, p0⟩] : List (View.Piece (Elt F) S1024x1 .f32)), y ∈ pc.1.set :=
  View.cover_of_tiled [⟨rout, p0⟩] S1024x1.size (by rfl) y

/-! ## The body's triple -/

set_option maxHeartbeats 4000000 in
/-- The kernel body on whole staging memrefs, the input's at read contents `x0` and the output's at anything, runs to
    the continuation holding the input's as it was and the output's at `out0_1 x0`. -/
theorem sound_kernel (c : Dev nD) (E : Set ℕ) (i : grid0.Coords) (arg1 : Memref sig .tc .vmem S1024x3129 .f32) (harg1 : arg1.IsWhole) (arg2 : Memref sig .tc .vmem S1024x1 .f32) (harg2 : arg2.IsWhole)
    (x0 : Vec F S1024x3129 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__logz_kernel i arg1 harg1 arg2 harg2) K := by
  simp only [cc0__logz_kernel_eq_skeleton]; unfold cc0__logz_kernel_skel
  simp only [k0_part1_eq_skeleton, k0_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The arrays as the region finds them; after the body at point `t` the input's buffer at its block and the output's
    at the body's value of that block; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data give and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The logits' array after the region is the array the region found (an input window's array is never written). -/
theorem arr0_kept (c : Dev nD) : (dats m 0 c).arrAt 0 cfg0.N = m ((c : Thread nD τ).loc main_arg0) :=
  ((dats m 0 c).arrAt_in 0 rfl cfg0.N).trans ((A_eq m c 0).trans (V_main_arg0 m c))

/-- THE FRAME: the argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (arr0_kept m c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Fr

end
-- ==== Proof.Spec.lean ====
/-
  The mathematics of the claim, stated over plain functions on the extended reals; no program is imported.

  A row `x_i` of logits has maximum `M_i`, shifted exponential sum `S_i = ∑_c exp (x_ic - M_i)` and normaliser
  `logZ_i = M_i + log S_i`; its log-probabilities are `logp_ic = (x_ic - M_i) - log S_i`.  The loss is
  `rate * weighted + (1 - rate) * standard` with
    weighted = mean_i ( - ∑_c w_c * counts_ic * logp_ic ),   counts_ic = ∑_{j : a_ij = c} 0.1
    standard = ( ∑_i w_{y_i} * (-logp_{i, y_i}) ) / ∑_i w_{y_i}.
  One program spells the weighted term through the counts (`resultR`), the other sums over the ten answers of a row
  and subtracts `logZ` from the gathered logit (`resultK`); on finite inputs the two are equal (`bridge`).
  The normaliser is also computed chunk by chunk with a running maximum and a rescaled running sum (`online`);
  on a finite row that recurrence ends at `logZ` (`online_eq`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- logits [16384, 3129], class weights [3129], ten answers a row [16384, 10], one hard label a row [16384, 1]. -/
abbrev SPred : Shape := ⟨2, ![16384, 3129]⟩
abbrev SWt : Shape := ⟨1, ![3129]⟩
abbrev SAns : Shape := ⟨2, ![16384, 10]⟩
abbrev SMode : Shape := ⟨2, ![16384, 1]⟩

/-- The float literals both programs carry, as the extended reals their words denote. -/
def c01 : EReal := Ideal.ofBits .f32 0x3DCCCCCD#32   -- 0.1f
def c08 : EReal := Ideal.ofBits .f32 0x3F4CCCCD#32   -- 0.8f
def c02 : EReal := Ideal.ofBits .f32 0x3E4CCCCD#32   -- 0.2f
def cB : EReal := Ideal.ofBits .f32 0x46800000#32    -- 16384.0f
def cOne : EReal := Ideal.ofBits .f32 0x3F800000#32  -- 1.0f

/-- A label word as a column: its value, held inside the row (a label in range is its own column). -/
def col (v : BitVec 32) : Fin 3129 := ⟨min v.toNat 3128, by omega⟩

theorem col_of_lt (v : BitVec 32) (h : v.toNat < 3129) : col v = ⟨v.toNat, h⟩ := by
  apply Fin.ext; simp only [col]; omega

/-! ## One row -/

/-- The maximum of a row, as the fold the reductions give. -/
def rowMaxOf (row : Fin 3129 → EReal) : EReal := (Finset.univ : Finset (Fin 3129)).fold max ⊥ row
/-- The shifted exponential sum of a row. -/
def rowSumOf (row : Fin 3129 → EReal) : EReal := ∑ c : Fin 3129, Ideal.exp (row c - rowMaxOf row)
/-- The normaliser of a row. -/
def logZOf (row : Fin 3129 → EReal) : EReal := rowMaxOf row + Ideal.log (rowSumOf row)

/-- One step of the running pair (maximum, rescaled sum) over a chunk `f` of `n` entries. -/
def step (n : ℕ) (f : Fin n → EReal) (p : EReal × EReal) : EReal × EReal :=
  (max p.1 ((Finset.univ : Finset (Fin n)).fold max ⊥ f),
   p.2 * Ideal.exp (p.1 - max p.1 ((Finset.univ : Finset (Fin n)).fold max ⊥ f))
     + ∑ k : Fin n, Ideal.exp (f k - max p.1 ((Finset.univ : Finset (Fin n)).fold max ⊥ f)))

/-- The entries `s, …, s + n - 1` of a row. -/
def chunk (row : Fin 3129 → EReal) (s n : ℕ) (h : s + n ≤ 3129) : Fin n → EReal := fun k => row ⟨s + k.val, by omega⟩

/-- The running pair after the seven chunks 512, 512, 512, 512, 512, 512, 57 of a row, started at `(-∞, 0)`. -/
def online (row : Fin 3129 → EReal) : EReal × EReal :=
  step 57 (chunk row 3072 57 (by omega)) (step 512 (chunk row 2560 512 (by omega)) (step 512 (chunk row 2048 512 (by omega))
    (step 512 (chunk row 1536 512 (by omega)) (step 512 (chunk row 1024 512 (by omega)) (step 512 (chunk row 512 512 (by omega))
      (step 512 (chunk row 0 512 (by omega)) (⊥, 0)))))))

/-! ## The whole batch -/

variable (x : SPred.Idx → EReal) (w : SWt.Idx → EReal) (a : SAns.Idx → BitVec 32) (mo : SMode.Idx → BitVec 32)

def xrow (i : Fin 16384) : Fin 3129 → EReal := fun c => x (ix2 i c)
def logZ (i : Fin 16384) : EReal := logZOf (xrow x i)
def logp (i : Fin 16384) (c : Fin 3129) : EReal := (x (ix2 i c) - rowMaxOf (xrow x i)) - Ideal.log (rowSumOf (xrow x i))

/-- the class weight of row `i`'s hard label -/
def wy (i : Fin 16384) : EReal := w (ix1 (col (mo (ix2 i (0 : Fin 1)))))
/-- the share of rows whose hard label is class 0 weighs 0.8, the others 0.2 -/
def rate : EReal := Ideal.div (∑ i : Fin 16384, (if mo (ix2 i (0 : Fin 1)) = 0#32 then c08 else c02)) cB
def comb (r wl sl : EReal) : EReal := r * wl + (cOne - r) * sl

/-- the soft-label term of row `i`, summed over its ten answers -/
def softK (i : Fin 16384) : EReal :=
  c01 * ∑ j : Fin 10, w (ix1 (col (a (ix2 i j)))) * (x (ix2 i (col (a (ix2 i j)))) - logZ x i)
def wlK : EReal := Ideal.div (∑ i : Fin 16384, -(softK x w a i)) cB
def slK : EReal := Ideal.div (∑ i : Fin 16384, wy w mo i * (logZ x i - x (ix2 i (col (mo (ix2 i (0 : Fin 1)))))))
  (∑ i : Fin 16384, wy w mo i)
def resultK : EReal := comb (rate mo) (wlK x w a) (slK x w mo)

/-- how much soft label row `i` puts on class `c`: 0.1 for each of its answers that is `c` -/
def counts (i : Fin 16384) (c : Fin 3129) : EReal := ∑ j : Fin 10, (if col (a (ix2 i j)) = c then c01 else 0)
def softR (i : Fin 16384) : EReal := ∑ c : Fin 3129, (w (ix1 c) * counts a i c) * logp x i c
def wlR : EReal := Ideal.div (∑ i : Fin 16384, -(softR x w a i)) cB
def slR : EReal := Ideal.div (∑ i : Fin 16384, wy w mo i * (-(logp x i (col (mo (ix2 i (0 : Fin 1)))))))
  (∑ i : Fin 16384, wy w mo i)
def resultR : EReal := comb (rate mo) (wlR x w a) (slR x w mo)

end Cert.Spec

end
-- ==== Proof.SpecOnline.lean ====
/-
  The chunked running-maximum recurrence ends at the row's normaliser.
-/
import proofs.«429144_j34359738695_3_alg».proof.Proof.Spec

noncomputable section

namespace Cert.Spec

open Idealize.ShloMosaic Idealize.ShloMosaic.ValueIdx

namespace Online

/-! ## The running pair on a finite row -/

/-- A finite sum of coerced reals is the coerced sum. -/
theorem coe_sum_real {ι : Type*} (s : Finset ι) (a : ι → ℝ) :
    (∑ k ∈ s, ((a k : ℝ) : EReal)) = ((∑ k ∈ s, a k : ℝ) : EReal) := by
  classical
  induction s using Finset.induction_on with
  | empty => simp
  | insert x s hx ih => rw [Finset.sum_insert hx, Finset.sum_insert hx, ih, EReal.coe_add]

/-- The maximum of two coerced reals is a coerced real. -/
theorem max_coe_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The running maximum of a nonempty family of reals, started at `-∞`, is a real. -/
theorem fold_max_real {ι : Type*} (s : Finset ι) (g : ι → ℝ) (hs : s.Nonempty) :
    ∃ m : ℝ, s.fold max (⊥ : EReal) (fun k => ((g k : ℝ) : EReal)) = (m : EReal) := by
  classical
  induction s using Finset.induction_on with
  | empty => exact absurd hs (by simp)
  | insert x s hx ih =>
    rw [Finset.fold_insert hx]
    rcases s.eq_empty_or_nonempty with h | h
    · subst h
      exact ⟨g x, by simp⟩
    · obtain ⟨m, hm⟩ := ih h
      exact ⟨max (g x) m, by rw [hm, max_coe_coe]⟩

/-- The running pair holds the real total `T` of the exponentials met so far: either nothing has been met, or the
    pair is a real `m` and the total rescaled by `exp (-m)`. -/
def Holds (T : ℝ) (p : EReal × EReal) : Prop :=
  (p = (⊥, 0) ∧ T = 0) ∨ ∃ m : ℝ, p = ((m : EReal), ((T * Real.exp (-m) : ℝ) : EReal))

/-- One step over a nonempty chunk of reals adds the chunk's exponentials to the total. -/
theorem step_holds (n : ℕ) (hn : 0 < n) (g : Fin n → ℝ) (T : ℝ) (p : EReal × EReal) (hp : Holds T p) :
    Holds (T + ∑ k : Fin n, Real.exp (g k)) (step n (fun k => ((g k : ℝ) : EReal)) p) := by
  haveI : Nonempty (Fin n) := ⟨⟨0, hn⟩⟩
  obtain ⟨mc, hmc⟩ := fold_max_real (Finset.univ : Finset (Fin n)) g Finset.univ_nonempty
  rcases hp with ⟨rfl, rfl⟩ | ⟨m, rfl⟩
  · refine Or.inr ⟨mc, ?_⟩
    have hsum : (∑ k : Fin n, Ideal.exp (((g k : ℝ) : EReal) - (mc : EReal)))
        = (((∑ k : Fin n, Real.exp (g k)) * Real.exp (-mc) : ℝ) : EReal) := by
      rw [Finset.sum_mul, ← coe_sum_real]
      refine Finset.sum_congr rfl fun k _ => ?_
      rw [← EReal.coe_sub, Ideal.exp_coe, ← Real.exp_add, sub_eq_add_neg]
    simp only [step, hmc, bot_le, max_eq_right, EReal.bot_sub, Ideal.exp_bot, mul_zero, zero_add, hsum]
  · refine Or.inr ⟨max m mc, ?_⟩
    have hsum : (∑ k : Fin n, Ideal.exp (((g k : ℝ) : EReal) - ((max m mc : ℝ) : EReal)))
        = (((∑ k : Fin n, Real.exp (g k)) * Real.exp (-(max m mc)) : ℝ) : EReal) := by
      rw [Finset.sum_mul, ← coe_sum_real]
      refine Finset.sum_congr rfl fun k _ => ?_
      rw [← EReal.coe_sub, Ideal.exp_coe, ← Real.exp_add, sub_eq_add_neg]
    have hold : ((T * Real.exp (-m) : ℝ) : EReal) * Ideal.exp ((m : EReal) - ((max m mc : ℝ) : EReal))
        = ((T * Real.exp (-(max m mc)) : ℝ) : EReal) := by
      rw [← EReal.coe_sub, Ideal.exp_coe, ← EReal.coe_mul, mul_assoc, ← Real.exp_add]
      congr 3
      ring
    simp only [step, hmc, max_coe_coe, hold, hsum, ← EReal.coe_add, add_mul]

/-- The exponential of entry `i` of a real row, and `0` past its end. -/
def expAt (r : Fin 3129 → ℝ) (i : ℕ) : ℝ := if h : i < 3129 then Real.exp (r ⟨i, h⟩) else 0

theorem sum_expAt (r : Fin 3129 → ℝ) :
    (∑ i ∈ Finset.range 3129, expAt r i) = ∑ c : Fin 3129, Real.exp (r c) := by
  rw [← Fin.sum_univ_eq_sum_range]
  refine Finset.sum_congr rfl fun c _ => ?_
  rw [expAt, dif_pos c.isLt]

theorem sum_exp_pos (r : Fin 3129 → ℝ) : 0 < ∑ c : Fin 3129, Real.exp (r c) :=
  Finset.sum_pos (fun c _ => Real.exp_pos _) ⟨⟨0, by omega⟩, Finset.mem_univ _⟩

/-- A step over the entries `s, …, s + n - 1` of a real row moves the total from the first `s` entries to the
    first `s + n`. -/
theorem chunk_holds (r : Fin 3129 → ℝ) (s n : ℕ) (h : s + n ≤ 3129) (hn : 0 < n) (e : ℕ) (he : s + n = e)
    (p : EReal × EReal) (hp : Holds (∑ i ∈ Finset.range s, expAt r i) p) :
    Holds (∑ i ∈ Finset.range e, expAt r i) (step n (chunk (fun c => ((r c : ℝ) : EReal)) s n h) p) := by
  subst he
  have hT : (∑ i ∈ Finset.range (s + n), expAt r i)
      = (∑ i ∈ Finset.range s, expAt r i) + ∑ k : Fin n, Real.exp (r ⟨s + k.val, by omega⟩) := by
    rw [Finset.sum_range_add, ← Fin.sum_univ_eq_sum_range (fun x => expAt r (s + x)) n]
    congr 1
    refine Finset.sum_congr rfl fun k _ => ?_
    have hk : s + k.val < 3129 := by omega
    rw [expAt, dif_pos hk]
  rw [hT]
  exact step_holds n hn (fun k => r ⟨s + k.val, by omega⟩) _ p hp

/-- A real `m` plus the logarithm of a positive total rescaled by `exp (-m)` is the logarithm of the total. -/
theorem coe_add_log (m T : ℝ) (hT : 0 < T) :
    (m : EReal) + Ideal.log ((T * Real.exp (-m) : ℝ) : EReal) = ((Real.log T : ℝ) : EReal) := by
  have hpos : 0 < T * Real.exp (-m) := mul_pos hT (Real.exp_pos _)
  rw [Ideal.log_coe, if_neg (not_le.2 hpos), Real.log_mul hT.ne' (Real.exp_pos _).ne', Real.log_exp,
    ← EReal.coe_add]
  congr 1
  ring

/-- The normaliser of a real row is the logarithm of the sum of its exponentials. -/
theorem logZOf_real (r : Fin 3129 → ℝ) :
    logZOf (fun c => ((r c : ℝ) : EReal)) = ((Real.log (∑ c : Fin 3129, Real.exp (r c)) : ℝ) : EReal) := by
  obtain ⟨M, hM⟩ := fold_max_real (Finset.univ : Finset (Fin 3129)) r ⟨⟨0, by omega⟩, Finset.mem_univ _⟩
  have hmax : rowMaxOf (fun c => ((r c : ℝ) : EReal)) = (M : EReal) := hM
  have hsum : rowSumOf (fun c => ((r c : ℝ) : EReal))
      = (((∑ c : Fin 3129, Real.exp (r c)) * Real.exp (-M) : ℝ) : EReal) := by
    rw [rowSumOf, hmax, Finset.sum_mul, ← coe_sum_real]
    refine Finset.sum_congr rfl fun c _ => ?_
    rw [← EReal.coe_sub, Ideal.exp_coe, ← Real.exp_add, sub_eq_add_neg]
  rw [logZOf, hsum, hmax]
  exact coe_add_log M _ (sum_exp_pos r)

end Online

open Online in
/-- On a finite row the chunked recurrence ends at the normaliser: the rescaling `exp (m - m')` turns sums shifted by
    the old maximum into sums shifted by the new one, and the maximum of the chunk maxima is the row's. -/
theorem online_eq (row : Fin 3129 → EReal) (hfin : ∀ c, ∃ r : ℝ, row c = (r : EReal)) :
    (online row).1 + Ideal.log (online row).2 = logZOf row := by
  choose r hr using hfin
  obtain rfl : row = fun c => ((r c : ℝ) : EReal) := funext hr
  have h0 : Holds (∑ i ∈ Finset.range 0, expAt r i) ((⊥ : EReal), (0 : EReal)) := Or.inl ⟨rfl, by simp⟩
  have h1 := chunk_holds r 0 512 (by omega) (by omega) 512 (by omega) _ h0
  have h2 := chunk_holds r 512 512 (by omega) (by omega) 1024 (by omega) _ h1
  have h3 := chunk_holds r 1024 512 (by omega) (by omega) 1536 (by omega) _ h2
  have h4 := chunk_holds r 1536 512 (by omega) (by omega) 2048 (by omega) _ h3
  have h5 := chunk_holds r 2048 512 (by omega) (by omega) 2560 (by omega) _ h4
  have h6 := chunk_holds r 2560 512 (by omega) (by omega) 3072 (by omega) _ h5
  have h7 := chunk_holds r 3072 57 (by omega) (by omega) 3129 (by omega) _ h6
  rw [sum_expAt] at h7
  rcases h7 with ⟨_, hz⟩ | ⟨m, hm⟩
  · exact absurd hz (sum_exp_pos r).ne'
  · have hon : online (fun c => ((r c : ℝ) : EReal))
        = ((m : EReal), (((∑ c : Fin 3129, Real.exp (r c)) * Real.exp (-m) : ℝ) : EReal)) := hm
    rw [logZOf_real, hon]
    exact coe_add_log m _ (sum_exp_pos r)

end Cert.Spec

end
-- ==== Proof.KI.BodyVal.lean ====
/-
  The body's stored value, read at a row: on a finite block it is the row's normaliser.  The seven chunk steps of the
  body are the steps of the chunked recurrence, chunk k holding the block's columns from 512 k on.
-/
import proofs.«429144_j34359738695_3_alg».proof.Proof.KI.BodyDef
import proofs.«429144_j34359738695_3_alg».proof.Proof.SpecOnline
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Fr

open Cert.KernelIdeal Cert.KernelIdeal.Gen
open Idealize.ShloMosaic Idealize.SL.Sem Idealize.ShloMosaic.ValueIdx

namespace BodyVal

/-! ## The keepdims forms read at a row -/

/-- A vector cast to a column reads, at row `i`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word `0xFF800000` is `-∞`. -/
theorem ofBits_neg_inf : Ideal.ofBits .f32 0xFF800000#32 = (⊥ : EReal) := by
  simp [Ideal.ofBits, Ideal.ieee]

/-- The index a row reduction inserts is `(r, k)`. -/
theorem lift_row {n : ℕ} (h : (⟨2, ![1024, n]⟩ : Shape).Reduces [1] S1024) (r : Fin 1024) (k : Fin n) :
    h.lift (ix1 r) k = ix2 r k :=
  funext fun c => match c with
    | ⟨0, _⟩ => Fin.ext rfl
    | ⟨1, _⟩ => Fin.ext rfl

/-- A row's maximum, kept as a column: the fold of `max` from `-∞` over the row. -/
theorem colMax_apply {n : ℕ} (v : FVec Ideal ⟨2, ![1024, n]⟩ .f32) (h : (⟨2, ![1024, n]⟩ : Shape).Reduces [1] S1024)
    (hφ : FKind.Formats .f32) (hacc : (0xFF800000#32 : BitVec 32) = FKind.maximumf.neutral .f32 hφ) (r : Fin 1024) :
    shapeCast S1024x1 (multiReduction .maximumf [1] S1024 v 0xFF800000#32 h hφ hacc) shapeCasts_S1024_S1024x1
        (ix2 r (0 : Fin 1))
      = (Finset.univ : Finset (Fin n)).fold max (⊥ : EReal) (fun k => v (ix2 r k)) := by
  rw [shapeCast_a_a1_apply, Ideal.multiReduction_maximumf_single]
  show (Finset.univ : Finset (Fin n)).fold max (Ideal.ofBits .f32 0xFF800000#32)
      (fun k : Fin n => v (h.lift (ix1 r) k)) = _
  rw [ofBits_neg_inf]
  exact congrArg (fun f => Finset.fold max (⊥ : EReal) f (Finset.univ : Finset (Fin n)))
    (funext fun k : Fin n => congrArg v (lift_row h r k))

/-- A row's sum, kept as a column. -/
theorem colSum_apply {n : ℕ} (v : FVec Ideal ⟨2, ![1024, n]⟩ .f32) (h : (⟨2, ![1024, n]⟩ : Shape).Reduces [1] S1024)
    (hφ : FKind.Formats .f32) (hacc : (0x00000000#32 : BitVec 32) = FKind.add.neutral .f32 hφ) (r : Fin 1024) :
    shapeCast S1024x1 (multiReduction .add [1] S1024 v 0x00000000#32 h hφ hacc) shapeCasts_S1024_S1024x1
        (ix2 r (0 : Fin 1))
      = ∑ k : Fin n, v (ix2 r k) := by
  rw [shapeCast_a_a1_apply, Ideal.multiReduction_add_single]
  show ∑ k : Fin n, v (h.lift (ix1 r) k) = _
  refine Finset.sum_congr rfl fun k _ => ?_
  rw [lift_row]

/-! ## One chunk of the recurrence read at a row -/

/-- The running maximum after a chunk, at a row. -/
theorem maxStep_apply {n : ℕ} (m : FVec Ideal S1024x1 .f32) (v : FVec Ideal ⟨2, ![1024, n]⟩ .f32)
    (h : (⟨2, ![1024, n]⟩ : Shape).Reduces [1] S1024) (hφ : FKind.Formats .f32)
    (hacc : (0xFF800000#32 : BitVec 32) = FKind.maximumf.neutral .f32 hφ) (r : Fin 1024) :
    maximumf m (shapeCast S1024x1 (multiReduction .maximumf [1] S1024 v 0xFF800000#32 h hφ hacc)
        shapeCasts_S1024_S1024x1) (ix2 r (0 : Fin 1))
      = max (m (ix2 r (0 : Fin 1))) ((Finset.univ : Finset (Fin n)).fold max (⊥ : EReal) (fun k => v (ix2 r k))) := by
  rw [maximumf_apply, colMax_apply]

/-- The rescaled running sum after a chunk, at a row. -/
theorem sumStep_apply {n : ℕ} (s mo mn : FVec Ideal S1024x1 .f32) (v : FVec Ideal ⟨2, ![1024, n]⟩ .f32)
    (hb : S1024x1.Broadcasts ⟨2, ![1024, n]⟩)
    (h : (⟨2, ![1024, n]⟩ : Shape).Reduces [1] S1024) (hφ : FKind.Formats .f32)
    (hacc : (0x00000000#32 : BitVec 32) = FKind.add.neutral .f32 hφ) (r : Fin 1024) :
    addf (mulf s (exp (subf mo mn)))
        (shapeCast S1024x1 (multiReduction .add [1] S1024 (exp (subf v (broadcastTo ⟨2, ![1024, n]⟩ mn hb)))
          0x00000000#32 h hφ hacc) shapeCasts_S1024_S1024x1) (ix2 r (0 : Fin 1))
      = s (ix2 r (0 : Fin 1)) * Ideal.exp (mo (ix2 r (0 : Fin 1)) - mn (ix2 r (0 : Fin 1)))
        + ∑ k : Fin n, Ideal.exp (v (ix2 r k) - mn (ix2 r (0 : Fin 1))) := by
  rw [addf_apply, colSum_apply, mulf_apply]
  congr 1
  refine Finset.sum_congr rfl fun k _ => ?_
  show Ideal.exp (v (ix2 r k) - broadcastTo ⟨2, ![1024, n]⟩ mn hb (ix2 r k)) = _
  rw [broadcastTo_a1_ab_apply]

/-! ## The payloads read at a row -/

theorem pay2_apply (r : Fin 1024) : k0_pay2 (F := Ideal) (ix2 r (0 : Fin 1)) = (⊥ : EReal) := ofBits_neg_inf

theorem pay3_apply (v2 : Vec Ideal S1024x512 .f32) (r : Fin 1024) :
    k0_pay3 v2 (ix2 r (0 : Fin 1)) = (Spec.step 512 (fun k => v2 (ix2 r k)) (⊥, 0)).1 := by
  refine (maxStep_apply (k0_pay2 (F := Ideal)) v2 reduces_S1024x512_S1024 (.inl rfl) rfl r).trans ?_
  rw [pay2_apply]
  rfl

theorem pay4_apply (v2 v15 : Vec Ideal S1024x512 .f32) (r : Fin 1024) :
    k0_pay4 v2 v15 (ix2 r (0 : Fin 1))
      = (Spec.step 512 (fun k => v15 (ix2 r k)) (Spec.step 512 (fun k => v2 (ix2 r k)) (⊥, 0))).1 := by
  refine (maxStep_apply (k0_pay3 v2) v15 reduces_S1024x512_S1024 (.inl rfl) rfl r).trans ?_
  rw [pay3_apply]
  rfl

theorem pay5_apply (v2 v15 v28 : Vec Ideal S1024x512 .f32) (r : Fin 1024) :
    k0_pay5 v2 v15 v28 (ix2 r (0 : Fin 1))
      = (Spec.step 512 (fun k => v28 (ix2 r k)) (Spec.step 512 (fun k => v15 (ix2 r k))
          (Spec.step 512 (fun k => v2 (ix2 r k)) (⊥, 0)))).1 := by
  refine (maxStep_apply (k0_pay4 v2 v15) v28 reduces_S1024x512_S1024 (.inl rfl) rfl r).trans ?_
  rw [pay4_apply]
  rfl

theorem zero_apply (r : Fin 1024) :
    broadcast S1024x1 (Scalar.ofBits (F := Ideal) .f32 0x00000000#32) (ix2 r (0 : Fin 1)) = (0 : EReal) :=
  Ideal.ofBits_zero_f32

theorem pay6_apply (v2 v15 v28 : Vec Ideal S1024x512 .f32) (r : Fin 1024) :
    k0_pay6 v2 v15 v28 (ix2 r (0 : Fin 1))
      = (Spec.step 512 (fun k => v28 (ix2 r k)) (Spec.step 512 (fun k => v15 (ix2 r k))
          (Spec.step 512 (fun k => v2 (ix2 r k)) (⊥, 0)))).2 := by
  refine (sumStep_apply _ (k0_pay4 v2 v15) (k0_pay5 v2 v15 v28) v28 broadcasts_S1024x1_S1024x512
    reduces_S1024x512_S1024 (.inl rfl) rfl r).trans ?_
  rw [sumStep_apply _ _ _ _ _ _ (.inl rfl) rfl r, sumStep_apply _ _ _ _ _ _ (.inl rfl) rfl r, zero_apply, pay5_apply,
    pay4_apply, pay3_apply, pay2_apply]
  rfl

theorem pay7_apply (v31 : FVec Ideal S1024x1 .f32) (v41 : Vec Ideal S1024x512 .f32) (r : Fin 1024) (p : EReal × EReal)
    (h31 : v31 (ix2 r (0 : Fin 1)) = p.1) :
    k0_pay7 v31 v41 (ix2 r (0 : Fin 1)) = (Spec.step 512 (fun k => v41 (ix2 r k)) p).1 := by
  refine (maxStep_apply v31 v41 reduces_S1024x512_S1024 (.inl rfl) rfl r).trans ?_
  rw [h31]
  rfl

theorem pay8_apply (v31 : FVec Ideal S1024x1 .f32) (v41 v54 : Vec Ideal S1024x512 .f32) (r : Fin 1024)
    (p : EReal × EReal) (h31 : v31 (ix2 r (0 : Fin 1)) = p.1) :
    k0_pay8 v31 v41 v54 (ix2 r (0 : Fin 1))
      = (Spec.step 512 (fun k => v54 (ix2 r k)) (Spec.step 512 (fun k => v41 (ix2 r k)) p)).1 := by
  refine (maxStep_apply (k0_pay7 v31 v41) v54 reduces_S1024x512_S1024 (.inl rfl) rfl r).trans ?_
  rw [pay7_apply v31 v41 r p h31]
  rfl

theorem pay9_apply (v31 : FVec Ideal S1024x1 .f32) (v41 v54 v67 : Vec Ideal S1024x512 .f32) (r : Fin 1024)
    (p : EReal × EReal) (h31 : v31 (ix2 r (0 : Fin 1)) = p.1) :
    k0_pay9 v31 v41 v54 v67 (ix2 r (0 : Fin 1))
      = (Spec.step 512 (fun k => v67 (ix2 r k)) (Spec.step 512 (fun k => v54 (ix2 r k))
          (Spec.step 512 (fun k => v41 (ix2 r k)) p))).1 := by
  refine (maxStep_apply (k0_pay8 v31 v41 v54) v67 reduces_S1024x512_S1024 (.inl rfl) rfl r).trans ?_
  rw [pay8_apply v31 v41 v54 r p h31]
  rfl

theorem pay10_apply (v31 v40 : FVec Ideal S1024x1 .f32) (v41 v54 v67 : Vec Ideal S1024x512 .f32) (r : Fin 1024)
    (p : EReal × EReal) (h31 : v31 (ix2 r (0 : Fin 1)) = p.1) (h40 : v40 (ix2 r (0 : Fin 1)) = p.2) :
    k0_pay10 v31 v40 v41 v54 v67 (ix2 r (0 : Fin 1))
      = (Spec.step 512 (fun k => v67 (ix2 r k)) (Spec.step 512 (fun k => v54 (ix2 r k))
          (Spec.step 512 (fun k => v41 (ix2 r k)) p))).2 := by
  refine (sumStep_apply _ (k0_pay8 v31 v41 v54) (k0_pay9 v31 v41 v54 v67) v67 broadcasts_S1024x1_S1024x512
    reduces_S1024x512_S1024 (.inl rfl) rfl r).trans ?_
  rw [sumStep_apply _ _ _ _ _ _ (.inl rfl) rfl r, sumStep_apply _ _ _ _ _ _ (.inl rfl) rfl r,
    pay9_apply v31 v41 v54 v67 r p h31, pay8_apply v31 v41 v54 r p h31, pay7_apply v31 v41 r p h31, h31, h40]
  rfl

theorem pay11_apply (v31 : FVec Ideal S1024x1 .f32) (v41 v54 v67 : Vec Ideal S1024x512 .f32)
    (v80 : Vec Ideal S1024x57 .f32) (r : Fin 1024) (p : EReal × EReal) (h31 : v31 (ix2 r (0 : Fin 1)) = p.1) :
    k0_pay11 v31 v41 v54 v67 v80 (ix2 r (0 : Fin 1))
      = (Spec.step 57 (fun k => v80 (ix2 r k)) (Spec.step 512 (fun k => v67 (ix2 r k))
          (Spec.step 512 (fun k => v54 (ix2 r k)) (Spec.step 512 (fun k => v41 (ix2 r k)) p)))).1 := by
  refine (maxStep_apply (k0_pay9 v31 v41 v54 v67) v80 reduces_S1024x57_S1024 (.inl rfl) rfl r).trans ?_
  rw [pay9_apply v31 v41 v54 v67 r p h31]
  rfl

theorem pay12_apply (v31 : FVec Ideal S1024x1 .f32) (v41 v54 v67 : Vec Ideal S1024x512 .f32)
    (v80 : Vec Ideal S1024x57 .f32) (r : Fin 1024) (p : EReal × EReal) (h31 : v31 (ix2 r (0 : Fin 1)) = p.1) :
    k0_pay12 v31 v41 v54 v67 v80 (ix2 r (0 : Fin 1))
      = Ideal.exp ((Spec.step 512 (fun k => v67 (ix2 r k)) (Spec.step 512 (fun k => v54 (ix2 r k))
            (Spec.step 512 (fun k => v41 (ix2 r k)) p))).1
          - (Spec.step 57 (fun k => v80 (ix2 r k)) (Spec.step 512 (fun k => v67 (ix2 r k))
            (Spec.step 512 (fun k => v54 (ix2 r k)) (Spec.step 512 (fun k => v41 (ix2 r k)) p)))).1) := by
  show Ideal.exp (k0_pay9 v31 v41 v54 v67 (ix2 r (0 : Fin 1)) - k0_pay11 v31 v41 v54 v67 v80 (ix2 r (0 : Fin 1))) = _
  rw [pay9_apply v31 v41 v54 v67 r p h31, pay11_apply v31 v41 v54 v67 v80 r p h31]

theorem pay13_apply (v31 : FVec Ideal S1024x1 .f32) (v41 v54 v67 : Vec Ideal S1024x512 .f32)
    (v80 : Vec Ideal S1024x57 .f32) (r : Fin 1024) (k : Fin 57) (p : EReal × EReal)
    (h31 : v31 (ix2 r (0 : Fin 1)) = p.1) :
    k0_pay13 v31 v41 v54 v67 v80 (ix2 r k)
      = Ideal.exp (v80 (ix2 r k)
          - (Spec.step 57 (fun k => v80 (ix2 r k)) (Spec.step 512 (fun k => v67 (ix2 r k))
            (Spec.step 512 (fun k => v54 (ix2 r k)) (Spec.step 512 (fun k => v41 (ix2 r k)) p)))).1) := by
  show Ideal.exp (v80 (ix2 r k)
    - broadcastTo S1024x57 (k0_pay11 v31 v41 v54 v67 v80) broadcasts_S1024x1_S1024x57 (ix2 r k)) = _
  rw [broadcastTo_a1_ab_apply, pay11_apply v31 v41 v54 v67 v80 r p h31]

theorem pay1_apply (v79 v83 v85 : FVec Ideal S1024x1 .f32) (v88 : FVec Ideal S1024x57 .f32) (r : Fin 1024) :
    k0_pay1 v79 v83 v85 v88 (ix2 r (0 : Fin 1))
      = v83 (ix2 r (0 : Fin 1)) + Ideal.log (v79 (ix2 r (0 : Fin 1)) * v85 (ix2 r (0 : Fin 1))
          + ∑ k : Fin 57, v88 (ix2 r k)) := by
  show v83 (ix2 r (0 : Fin 1)) + Ideal.log (v79 (ix2 r (0 : Fin 1)) * v85 (ix2 r (0 : Fin 1))
    + shapeCast S1024x1 (multiReduction .add [1] S1024 v88 0x00000000#32 reduces_S1024x57_S1024 (.inl rfl) rfl)
        shapeCasts_S1024_S1024x1 (ix2 r (0 : Fin 1))) = _
  rw [colSum_apply v88 reduces_S1024x57_S1024 (.inl rfl) rfl r]

/-! ## The loaded chunks are the row's chunks -/

/-- A load through a unit-stride rectangle of whole rows and `n` columns from `off`, read along row `r`, is the
    row's entries `off, …, off + n - 1`. -/
theorem ld_chunk (x0 : Vec Ideal S1024x3129 .f32) (off n : ℕ)
    (inb : ∀ a, (![0, off] : Fin 2 → ℕ) a + (![1024, n] : Fin 2 → ℕ) a ≤ S1024x3129.size a) (hk : off + n ≤ 3129)
    (r : Fin 1024) :
    (fun k : Fin n => View.ld x0 (Rect.unit (s := S1024x3129) ![0, off] ![1024, n] inb) (ix2 r k))
      = Spec.chunk (fun c : Fin 3129 => x0 (ix2 r c)) off n hk := by
  funext k
  show x0 _ = x0 (ix2 r ⟨off + k.val, by omega⟩)
  congr 1
  funext c
  match c with
  | ⟨0, _⟩ => exact Fin.ext (by show 0 + 1 * r.val = r.val; omega)
  | ⟨1, _⟩ => exact Fin.ext (by show off + 1 * k.val = off + k.val; omega)

/-! ## The seven chunks -/

/-- The stored value at a row, over any seven loaded chunks: the running pair after the seven steps, as maximum plus
    logarithm of the sum. -/
theorem body_steps (v2 v15 v28 v41 v54 v67 : Vec Ideal S1024x512 .f32) (v80 : Vec Ideal S1024x57 .f32) (r : Fin 1024) :
    k0_pay1 (k0_pay10 (k0_pay5 v2 v15 v28) (k0_pay6 v2 v15 v28) v41 v54 v67)
        (k0_pay11 (k0_pay5 v2 v15 v28) v41 v54 v67 v80) (k0_pay12 (k0_pay5 v2 v15 v28) v41 v54 v67 v80)
        (k0_pay13 (k0_pay5 v2 v15 v28) v41 v54 v67 v80) (ix2 r (0 : Fin 1))
      = (Spec.step 57 (fun k => v80 (ix2 r k)) (Spec.step 512 (fun k => v67 (ix2 r k))
          (Spec.step 512 (fun k => v54 (ix2 r k)) (Spec.step 512 (fun k => v41 (ix2 r k))
          (Spec.step 512 (fun k => v28 (ix2 r k)) (Spec.step 512 (fun k => v15 (ix2 r k))
          (Spec.step 512 (fun k => v2 (ix2 r k)) (⊥, 0)))))))).1
        + Ideal.log (Spec.step 57 (fun k => v80 (ix2 r k)) (Spec.step 512 (fun k => v67 (ix2 r k))
          (Spec.step 512 (fun k => v54 (ix2 r k)) (Spec.step 512 (fun k => v41 (ix2 r k))
          (Spec.step 512 (fun k => v28 (ix2 r k)) (Spec.step 512 (fun k => v15 (ix2 r k))
          (Spec.step 512 (fun k => v2 (ix2 r k)) (⊥, 0)))))))).2 := by
  have h31 := pay5_apply v2 v15 v28 r
  have h40 := pay6_apply v2 v15 v28 r
  rw [pay1_apply, pay10_apply _ _ _ _ _ r _ h31 h40, pay11_apply _ _ _ _ _ r _ h31, pay12_apply _ _ _ _ _ r _ h31,
    Finset.sum_congr rfl fun k _ => pay13_apply _ _ _ _ _ r k _ h31]
  rfl

end BodyVal

open BodyVal in
/-- At the exact instance, on a finite block, the value the body stores for row `r` is the normaliser of that row. -/
theorem bodyVal_apply (x0 : Vec Ideal S1024x3129 .f32) (hfin : ∀ i, ∃ r : ℝ, x0 i = (r : EReal)) (r : Fin 1024) :
    bodyVal (F := Ideal) x0 (ix2 r (0 : Fin 1)) = Cert.Spec.logZOf (fun c : Fin 3129 => x0 (ix2 r c)) := by
  have hc0 : (fun k : Fin 512 => View.ld x0 rc0 (ix2 r k)) = Spec.chunk (fun c : Fin 3129 => x0 (ix2 r c)) 0 512 (by omega) :=
    ld_chunk x0 0 512 inb_S1024x3129_S1024x512_0_0 (by omega) r
  have hc1 : (fun k : Fin 512 => View.ld x0 rc1 (ix2 r k)) = Spec.chunk (fun c : Fin 3129 => x0 (ix2 r c)) 512 512 (by omega) :=
    ld_chunk x0 512 512 inb_S1024x3129_S1024x512_0_512 (by omega) r
  have hc2 : (fun k : Fin 512 => View.ld x0 rc2 (ix2 r k)) = Spec.chunk (fun c : Fin 3129 => x0 (ix2 r c)) 1024 512 (by omega) :=
    ld_chunk x0 1024 512 inb_S1024x3129_S1024x512_0_1024 (by omega) r
  have hc3 : (fun k : Fin 512 => View.ld x0 rc3 (ix2 r k)) = Spec.chunk (fun c : Fin 3129 => x0 (ix2 r c)) 1536 512 (by omega) :=
    ld_chunk x0 1536 512 inb_S1024x3129_S1024x512_0_1536 (by omega) r
  have hc4 : (fun k : Fin 512 => View.ld x0 rc4 (ix2 r k)) = Spec.chunk (fun c : Fin 3129 => x0 (ix2 r c)) 2048 512 (by omega) :=
    ld_chunk x0 2048 512 inb_S1024x3129_S1024x512_0_2048 (by omega) r
  have hc5 : (fun k : Fin 512 => View.ld x0 rc5 (ix2 r k)) = Spec.chunk (fun c : Fin 3129 => x0 (ix2 r c)) 2560 512 (by omega) :=
    ld_chunk x0 2560 512 inb_S1024x3129_S1024x512_0_2560 (by omega) r
  have hc6 : (fun k : Fin 57 => View.ld x0 rc6 (ix2 r k)) = Spec.chunk (fun c : Fin 3129 => x0 (ix2 r c)) 3072 57 (by omega) :=
    ld_chunk x0 3072 57 inb_S1024x3129_S1024x57_0_3072 (by omega) r
  have key : bodyVal (F := Ideal) x0 (ix2 r (0 : Fin 1))
      = (Spec.online (fun c : Fin 3129 => x0 (ix2 r c))).1 + Ideal.log (Spec.online (fun c : Fin 3129 => x0 (ix2 r c))).2 := by
    unfold bodyVal
    rw [body_steps, hc0, hc1, hc2, hc3, hc4, hc5, hc6]
    rfl
  rw [key]
  exact Cert.Spec.online_eq _ fun c => hfin _

end Cert.KernelIdeal.Fr

end
-- ==== Proof.KI.LogzArray.lean ====
/-
  The region's result array: row `i` of the [16384, 1] output holds the normaliser of row `i` of the logits.
  Point `t` of the grid writes back the block of rows 1024 t … 1024 t + 1023; what it writes is the body's value of
  the logits' block of the same rows; the sixteen blocks cover the array.
-/
import proofs.«429144_j34359738695_3_alg».proof.Proof.KI.Frame
import proofs.«429144_j34359738695_3_alg».proof.Proof.KI.BodyVal
import proofs.«429144_j34359738695_3_alg».proof.Proof.Spec
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The store's offsets are zero. -/
theorem hz : (![0, 0] : Fin 2 → Nat) = fun _ => 0 := funext fun a => by
  match a with
  | ⟨0, _⟩ => rfl
  | ⟨1, _⟩ => rfl

/-- The printed index maps, decided over the grid: at point `t` both windows sit at block `(t, 0)`. -/
theorem idx_facts : ∀ t : Fin cfg0.N, win0_1.index t (0 : Fin 2) = t.val ∧ win0_1.index t (1 : Fin 2) = 0
    ∧ win0_0.index t (0 : Fin 2) = t.val ∧ win0_0.index t (1 : Fin 2) = 0 :=
  (by decide +kernel : ∀ t : Fin grid0.N, _)

/-- What the output array ends holding: row `i` at the normaliser of row `i` of the logits. -/
def G (c : Dev nD) : S16384x1.Idx → EReal :=
  fun idx => Cert.Spec.logZ (m ((c : Thread nD τ).loc main_arg0)) ⟨(idx 0).val, idx2_lt0 idx⟩

/-- The body's value at any index of its one column, on a finite block: the normaliser of the index's row. -/
theorem body_row (x0 : Vec Ideal S1024x3129 .f32) (hfin : ∀ i, ∃ r : ℝ, x0 i = (r : EReal)) (y : S1024x1.Idx) :
    bodyVal (F := Ideal) x0 y = Cert.Spec.logZOf (fun c' : Fin 3129 => x0 (ix2 (y 0 : Fin 1024) c')) := by
  have hy : y = ix2 (y 0 : Fin 1024) (0 : Fin 1) := by
    funext a
    match a with
    | ⟨0, _⟩ => rfl
    | ⟨1, _⟩ =>
      apply Fin.ext
      have h1 : (y 1).val < 1 := idx2_lt1 y
      show (y 1).val = 0
      omega
  refine Eq.trans (congrArg (bodyVal (F := Ideal) x0) hy) ?_
  exact bodyVal_apply x0 hfin (y 0)

/-- Element `(r, c')` of the logits' block at point `t` is element `(1024 t + r, c')` of the logits. -/
theorem iblk_apply (c : Dev nD) (t : Fin cfg0.N) (x : S1024x3129.Idx) (k : S16384x3129.Idx)
    (hk0 : (k 0).val = 1024 * t.val + (x 0).val) (hk1 : (k 1).val = (x 1).val) :
    (iblk (F := Ideal) m c 0 t : Vec Ideal S1024x3129 .f32) x = (m ((c : Thread nD τ).loc main_arg0) : S16384x3129.Idx → EReal) k := by
  obtain ⟨-, -, e0, e1⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * (x 0).val = (k 0).val; rw [e0, hk0]; omega
  | ⟨1, _⟩ => show win0_0.index t 1 * 3129 + 1 * (x 1).val = (k 1).val; rw [e1, hk1]; omega

/-- What point `t` stores at index `y` of its column is the normaliser of row `1024 t + y₀` of the logits. -/
theorem flushed_point (c : Dev nD) (hfin : ∀ i, ∃ r : ℝ, (m ((c : Thread nD τ).loc main_arg0) : S16384x3129.Idx → EReal) i = (r : EReal))
    (t : Fin cfg0.N) (y : S1024x1.Idx) (k : S16384x1.Idx) (hk : (k 0).val = 1024 * t.val + (y 0).val) :
    bodyVal (F := Ideal) (iblk m c 0 t) y = G m c k := by
  have ht : t.val < 16 := t.isLt
  refine (body_row (iblk m c 0 t) (fun i => ?_) y).trans ?_
  · have hi0 : (i 0).val < 1024 := idx2_lt0 i
    obtain ⟨r, hr⟩ := hfin (ix2 (⟨1024 * t.val + (i 0).val, by omega⟩ : Fin 16384) (⟨(i 1).val, idx2_lt1 i⟩ : Fin 3129) : S16384x3129.Idx)
    exact ⟨r, (iblk_apply m c t i _ rfl rfl).trans hr⟩
  · unfold G Cert.Spec.logZ Cert.Spec.xrow
    congr 1
    funext c'
    exact iblk_apply m c t (ix2 (y 0 : Fin 1024) c') (ix2 (⟨(k 0).val, idx2_lt0 k⟩ : Fin 16384) c') hk rfl

/-- What point `t` writes back is its block of `G`. -/
theorem flushed_eq (c : Dev nD) (hfin : ∀ i, ∃ r : ℝ, (m ((c : Thread nD τ).loc main_arg0) : S16384x3129.Idx → EReal) i = (r : EReal))
    (t : Fin cfg0.N) :
    (dats (F := Ideal) m 0 c).flushed 1 t = ((cfg0.win 1).blk t).view.read (Elt Ideal) (G m c) := by
  show (cfg0.win 1).cut (grid0.coords t) ((dats m 0 c).after 1 t) = _
  rw [after0_1]
  unfold out0_1
  rw [View.canon_unit_zero hz]
  funext y
  show bodyVal (F := Ideal) (iblk m c 0 t) y = G m c (((cfg0.win 1).blk t).view.emb y)
  refine flushed_point m c hfin t y _ ?_
  obtain ⟨e0, -, -, -⟩ := idx_facts t
  show win0_1.index t 0 * 1024 + 1 * (y 0).val = 1024 * t.val + (y 0).val
  rw [e0]; omega

/-- An index of the output array is in point `t`'s block iff each coordinate is in the block's range on its axis. -/
theorem mem_blk (t : Fin cfg0.N) (i : S16384x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v2).slice (win0_1.rect t)).set ↔ _
  rw [View.set_slice_whole, Rect.mem_set_unit]
  exact Iff.rfl

/-- Row `r` of the output array is in the block of point `r / 1024`. -/
theorem cover (i : S16384x1.Idx) : ∃ t : Fin cfg0.N, (cfg0.win 1).flush t = true ∧ i ∈ ((cfg0.win 1).blk t).view.set := by
  have hi0 : (i 0).val < 16384 := idx2_lt0 i
  have hi1 : (i 1).val < 1 := idx2_lt1 i
  obtain ⟨t, ht⟩ : ∃ t : Fin cfg0.N, t.val = (i 0).val / 1024 := ⟨⟨(i 0).val / 1024, by show _ < 16; omega⟩, rfl⟩
  refine ⟨t, flush0_1 t, ?_⟩
  rw [mem_blk]
  obtain ⟨e0, e1, -, -⟩ := idx_facts t
  intro a
  match a with
  | ⟨0, _⟩ => show win0_1.index t 0 * 1024 ≤ (i 0).val ∧ (i 0).val < win0_1.index t 0 * 1024 + 1024; rw [e0]; omega
  | ⟨1, _⟩ => show win0_1.index t 1 * 1 ≤ (i 1).val ∧ (i 1).val < win0_1.index t 1 * 1 + 1; rw [e1]; omega

/-- After the region, on finite logits, the output array holds each row's normaliser. -/
theorem logz_array (c : Dev nD) (hfin : ∀ i, ∃ r : ℝ, (m ((c : Thread nD τ).loc main_arg0) : S16384x3129.Idx → EReal) i = (r : EReal))
    (i : Fin 16384) :
    ((dats (F := Ideal) m 0 c).arrAt 1 cfg0.N : S16384x1.Idx → EReal) (ix2 i (0 : Fin 1))
      = Cert.Spec.logZ (m ((c : Thread nD τ).loc main_arg0)) i := by
  have h := (dats (F := Ideal) m 0 c).arrAt_eq_of_cover 1 (G m c) (fun t _ => flushed_eq m c hfin t) cover
  exact congrFun h (ix2 i (0 : Fin 1))

end Cert.KernelIdeal.Fr

end
-- ==== Proof.KI.TailDef.lean ====
/-
  The host lines after the region, as pure functions of the arrays they read: the clipped answers and hard labels
  (computed before the region), the logits, the class weights, and the region's result (one normaliser per row).
  Each function is the composition of the printed operations of one stretch, in program order.
-/
import proofs.«429144_j34359738695_3_alg».proof.Proof.Gen.KernelIdeal

noncomputable section

namespace Cert.KernelIdeal.Tail

open Cert.KernelIdeal Cert.KernelIdeal.Gen
open Idealize.ShloMosaic Idealize.SL.Sem

variable {F : FTy → Type} [FloatOps F]

/-- `jnp.clip(·, 0, 3128)` of the answers and of the hard labels (the host lines before the region). -/
def clipA (a : IVec S16384x10 32) : IVec S16384x10 32 :=
  minsi (broadcastInDim S16384x10 ![] bcast_S_S16384x10 (constantI S_ 32 3128#32))
    (maxsi (broadcastInDim S16384x10 ![] bcast_S_S16384x10 (constantI S_ 32 0#32)) a)
def clipM (mo : IVec S16384x1 32) : IVec S16384x1 32 :=
  minsi (broadcastInDim S16384x1 ![] bcast_S_S16384x1 (constantI S_ 32 3128#32))
    (maxsi (broadcastInDim S16384x1 ![] bcast_S_S16384x1 (constantI S_ 32 0#32)) mo)

/-- jnp's normalisation of a possibly negative index: `i < 0 ? i + 3129 : i`. -/
def wrap10 (i : IVec S16384x10 32) : IVec S16384x10 32 :=
  select (cmpi .slt i (broadcastInDim S16384x10 ![] bcast_S_S16384x10 (constantI S_ 32 0#32)))
    (addi i (broadcastInDim S16384x10 ![] bcast_S_S16384x10 (constantI S_ 32 3129#32))) i
def wrap1 (i : IVec S16384x1 32) : IVec S16384x1 32 :=
  select (cmpi .slt i (broadcastInDim S16384x1 ![] bcast_S_S16384x1 (constantI S_ 32 0#32)))
    (addi i (broadcastInDim S16384x1 ![] bcast_S_S16384x1 (constantI S_ 32 3129#32))) i
def wrapV (i : IVec S16384 32) : IVec S16384 32 :=
  select (cmpi .slt i (broadcastInDim S16384 ![] bcast_S_S16384 (constantI S_ 32 0#32)))
    (addi i (broadcastInDim S16384 ![] bcast_S_S16384 (constantI S_ 32 3129#32))) i

/-- `jnp.take_along_axis(X, i, axis=-1)` for ten columns of indices: the normalised indices as [16384, 10, 1]; the
    gather along each row; where an index is outside [0, 3128] the fill pattern instead. -/
def takeAlong10 (X : FVec F S16384x3129 .f32) (i : IVec S16384x10 32) : FVec F S16384x10 .f32 :=
  select
    (Host.reduce IntOp.andi
      (andi
        (cmpi .sge (shapeCast S16384x10x1 (wrap10 i) shapeCasts_S16384x10_S16384x10x1)
          (broadcastInDim S16384x10x1 ![] bcast_S_S16384x10x1 (constantI S_ 32 0#32)))
        (cmpi .sle (shapeCast S16384x10x1 (wrap10 i) shapeCasts_S16384x10_S16384x10x1)
          (broadcastInDim S16384x10x1 ![0, 1, 2] bcast_S1x1x1_S16384x10x1_0_1_2
            (broadcastInDim S1x1x1 ![2] bcast_S1_S1x1x1_2 (constantI S1 32 3128#32)))))
      (constantI S_ 1 1#1) reducesTo_S16384x10x1_S16384x10_d2 h_S_)
    (Host.gather gather_S16384x3129_S16384x10x1_S16384x10_n_1_0_0_1_2_11 X
      (shapeCast S16384x10x1 (wrap10 i) shapeCasts_S16384x10_S16384x10x1))
    (broadcastInDim S16384x10 ![] bcast_S_S16384x10 (constant S_ .f32 0x7FC00000#32))

/-- The same for one column of indices. -/
def takeAlong1 (X : FVec F S16384x3129 .f32) (i : IVec S16384x1 32) : FVec F S16384x1 .f32 :=
  select
    (Host.reduce IntOp.andi
      (andi
        (cmpi .sge (shapeCast S16384x1x1 (wrap1 i) shapeCasts_S16384x1_S16384x1x1)
          (broadcastInDim S16384x1x1 ![] bcast_S_S16384x1x1 (constantI S_ 32 0#32)))
        (cmpi .sle (shapeCast S16384x1x1 (wrap1 i) shapeCasts_S16384x1_S16384x1x1)
          (broadcastInDim S16384x1x1 ![0, 1, 2] bcast_S1x1x1_S16384x1x1_0_1_2
            (broadcastInDim S1x1x1 ![2] bcast_S1_S1x1x1_2 (constantI S1 32 3128#32)))))
      (constantI S_ 1 1#1) reducesTo_S16384x1x1_S16384x1_d2 h_S_)
    (Host.gather gather_S16384x3129_S16384x1x1_S16384x1_n_1_0_0_1_2_11 X
      (shapeCast S16384x1x1 (wrap1 i) shapeCasts_S16384x1_S16384x1x1))
    (broadcastInDim S16384x1 ![] bcast_S_S16384x1 (constant S_ .f32 0x7FC00000#32))

/-- `weight[i]` for ten columns of indices, and for one index a row. -/
def wgt10 (w : FVec F S3129 .f32) (i : IVec S16384x10 32) : FVec F S16384x10 .f32 :=
  Host.gather gather_S3129_S16384x10x1_S16384x10_n_0_n_n_0_2_1 w
    (broadcastInDim S16384x10x1 ![0, 1] bcast_S16384x10_S16384x10x1_0_1 (wrap10 i))
def wgtV (w : FVec F S3129 .f32) (i : IVec S16384 32) : FVec F S16384 .f32 :=
  Host.gather gather_S3129_S16384x1_S16384_n_0_n_n_0_1_1 w
    (broadcastInDim S16384x1 ![0] bcast_S16384_S16384x1_0 (wrapV i))

/-- The region's result [16384, 1] as a vector [16384]. -/
def lzV (lz : FVec F S16384x1 .f32) : FVec F S16384 .f32 := shapeCast S16384 lz shapeCasts_S16384x1_S16384

/-- The mean over rows of minus 0.1 times the row's sum over its ten answers of weight times (logit - normaliser). -/
def wlT (x : FVec F S16384x3129 .f32) (w : FVec F S3129 .f32) (ca : IVec S16384x10 32) (lz : FVec F S16384x1 .f32) : FVec F S_ .f32 :=
  Host.divf
    (Host.reduceAdd
      (Host.negf
        (mulf (broadcastInDim S16384 ![] bcast_S_S16384 (constant S_ .f32 0x3DCCCCCD#32))
          (Host.reduceAdd
            (mulf (wgt10 w ca)
              (subf (takeAlong10 x ca)
                (broadcastInDim S16384x10 ![0, 1] bcast_S16384x1_S16384x10_0_1
                  (broadcastInDim S16384x1 ![0] bcast_S16384_S16384x1_0 (lzV lz)))))
            (constant S_ .f32 0x00000000#32) reducesTo_S16384x10_S16384_d1 h_S_)))
      (constant S_ .f32 0x00000000#32) reducesTo_S16384_S_d0 h_S_)
    (constant S_ .f32 0x46800000#32)

/-- The weighted mean over rows of (normaliser - the hard label's logit), weights the hard labels' class weights. -/
def slT (x : FVec F S16384x3129 .f32) (w : FVec F S3129 .f32) (cm : IVec S16384x1 32) (lz : FVec F S16384x1 .f32) : FVec F S_ .f32 :=
  Host.divf
    (Host.reduceAdd
      (mulf (wgtV w (shapeCast S16384 cm shapeCasts_S16384x1_S16384))
        (subf (lzV lz) (shapeCast S16384 (takeAlong1 x cm) shapeCasts_S16384x1_S16384)))
      (constant S_ .f32 0x00000000#32) reducesTo_S16384_S_d0 h_S_)
    (Host.reduceAdd (wgtV w (shapeCast S16384 cm shapeCasts_S16384x1_S16384))
      (constant S_ .f32 0x00000000#32) reducesTo_S16384_S_d0 h_S_)

/-- The mean over rows of 0.8 where the hard label is class 0 and 0.2 elsewhere. -/
def rateT (mo : IVec S16384x1 32) : FVec F S_ .f32 :=
  Host.divf
    (Host.reduceAdd
      (select (cmpi .eq mo (broadcastInDim S16384x1 ![] bcast_S_S16384x1 (constantI S_ 32 0#32)))
        (broadcastInDim S16384x1 ![] bcast_S_S16384x1 (constant S_ .f32 0x3F4CCCCD#32))
        (broadcastInDim S16384x1 ![] bcast_S_S16384x1 (constant S_ .f32 0x3E4CCCCD#32)))
      (constant S_ .f32 0x00000000#32) reducesTo_S16384x1_S_d0_1 h_S_)
    (constant S_ .f32 0x46800000#32)

/-- rate * weighted + (1 - rate) * standard. -/
def combT (r wl sl : FVec F S_ .f32) : FVec F S_ .f32 :=
  addf (mulf r wl) (mulf (subf (constant S_ .f32 0x3F800000#32) r) sl)

/-- The program's result from the arrays the later lines read. -/
def tailVal (x : FVec F S16384x3129 .f32) (w : FVec F S3129 .f32) (ca : IVec S16384x10 32) (cm mo : IVec S16384x1 32)
    (lz : FVec F S16384x1 .f32) : FVec F S_ .f32 :=
  combT (rateT mo) (wlT x w ca lz) (slT x w cm lz)

end Cert.KernelIdeal.Tail

end
-- ==== Proof.KI.TailTerm.lean ====
/-
  The host lines around the region, computed: before it they clip the answers and the hard labels; after it they
  compose to `Tail.tailVal` of the arrays they read.
-/
import proofs.«429144_j34359738695_3_alg».proof.Proof.KI.Frame
import proofs.«429144_j34359738695_3_alg».proof.Proof.KI.TailDef
import Idealize.ShloMosaic.Lib.StableHlo.Run

noncomputable section

namespace Cert.KernelIdeal.Tail

open Cert.KernelIdeal Cert.KernelIdeal.Gen Cert.KernelIdeal.Fr
open Idealize.ShloMosaic Idealize.ShloMosaic.TcCoe Idealize.SL.Sem Idealize.ShloMosaic.StableHlo

variable {F : FTy → Type} [FloatOps F]

set_option maxRecDepth 8192 in
set_option maxHeartbeats 4000000 in
/-- The 104 lines after the region leave, in the result buffer, `tailVal` of what they read. -/
theorem tail_term (W : Valuation τ sig (Elt F)) :
    StableHlo.after (List.flatten (tailOps (F := F))) W (Proc.devRef .tc main_v46)
      = tailVal (F := F) (W (Proc.devRef .tc main_arg0)) (W (Proc.devRef .tc main_arg1)) (W (Proc.devRef .tc main_v0))
          (W (Proc.devRef .tc main_v1)) (W (Proc.devRef .tc main_arg3)) (W (Proc.devRef .tc main_v2)) := by
  -- the seven stretches as one list of 104 lines
  simp only [tailOps, hostOps1, hostOps1_1, hostOps1_2, hostOps1_3, hostOps1_4, hostOps1_5, hostOps1_6, List.flatten_cons, List.flatten_nil, List.append_nil, List.cons_append, List.nil_append]
  -- each line's result buffer holds its function of its operands' buffers; every other buffer is kept
  after_results_simp
  -- a callee's line moves contents along the identity between a buffer's type and its value's type
  simp only [StableHlo.TRef.ofBuf, StableHlo.TRef.toBuf, cast_eq, id]
  -- what is left is `tailVal` of the six arrays read, its stage functions unfolded
  rfl

variable (m : (ℓ : Loc nD τ sig) → Buf (Elt F) ℓ)

/-- The lines before the region leave the clipped answers in `main_v0` and the clipped hard labels in `main_v1`. -/
theorem pre_v0 (c : Dev nD) : V m c main_v0 = clipA (m ((c : Thread nD τ).loc main_arg2)) := by
  dsimp only [V, V0]
  simp only [preOps, hostOps0, hostOps0_1, hostOps0_2, hostOps0_3, List.flatten_cons, List.flatten_nil, List.append_nil, List.cons_append, List.nil_append]
  after_results_simp
  simp only [StableHlo.TRef.ofBuf, StableHlo.TRef.toBuf, cast_eq, id]
  rfl
theorem pre_v1 (c : Dev nD) : V m c main_v1 = clipM (m ((c : Thread nD τ).loc main_arg3)) := by
  dsimp only [V, V0]
  simp only [preOps, hostOps0, hostOps0_1, hostOps0_2, hostOps0_3, List.flatten_cons, List.flatten_nil, List.append_nil, List.cons_append, List.nil_append]
  after_results_simp
  simp only [StableHlo.TRef.ofBuf, StableHlo.TRef.toBuf, cast_eq, id]
  rfl

end Cert.KernelIdeal.Tail

end
-- ==== Proof.HostRead.lean ====
/-
  Reading the host's indexed operations at an index, generic in the extents.

  `take_along_axis` on the last axis gathers, per row, the row's own elements: with start indices [R, n, 1] batched
  over the rows, result element (i, j) is the operand at row i and at the column the start index names, read signed
  and clamped into the row.  A flat take `x[idx]` at a column of indices [R, 1] reads `x` at the clamped index.
-/
import Idealize.ShloMosaic.Lib.ValueIdx
import Idealize.ShloMosaic.Lib.Pipeline.Value

namespace Cert.HostRead

open Idealize.ShloMosaic Idealize.ShloMosaic.ValueIdx

variable {α : Type}

/-- `take_along_axis` on the last axis: operand [R, C], start indices [R, n, 1], result [R, n]. -/
theorem takeAlong_apply {R C n w : Nat} (hC : 0 < C) (d : GatherDims ⟨2, ![R, C]⟩ ⟨3, ![R, n, 1]⟩ ⟨2, ![R, n]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (x : (⟨2, ![R, C]⟩ : Shape).Idx → α) (idx : IVec ⟨3, ![R, n, 1]⟩ w) (i : Fin R) (j : Fin n) :
    Host.gather d x idx (ix2 i j)
      = x (ix2 i ⟨min (idx (ix3 i j (0 : Fin 1))).toInt.toNat (C - 1), by omega⟩) := by
  have hsl : d.sliceSizes 1 = 1 := d.slice_collapsed 1 (by rw [h2]; exact List.mem_singleton.mpr rfl)
  have hb0 : (0 : Fin 2) ∈ d.operandBatchingDims := by rw [h3]; exact List.mem_singleton.mpr rfl
  have hb1 : (1 : Fin 2) ∉ d.operandBatchingDims := by
    rw [h3]; exact fun h => absurd (congrArg Fin.val (List.mem_singleton.mp h)) Nat.one_ne_zero
  have hk0 : (0 : Fin 2) ∉ d.sKept := fun h => ((d.mem_sKept _).mp h).2 hb0
  have hk1 : (1 : Fin 2) ∉ d.sKept := fun h =>
    ((d.mem_sKept _).mp h).1 (by rw [h2]; exact List.mem_singleton.mpr rfl)
  have hm1 : (1 : Fin 2) ∈ d.startIndexMap := by rw [h5]; exact List.mem_singleton.mpr rfl
  unfold Host.gather
  congr 1
  funext a
  refine Fin.ext ?_
  match a with
  | ⟨0, _⟩ =>
    -- the batching axis: the start is 0, there is no offset, and the batch coordinate is the result's row
    show d.start (ix2 i j) idx 0 + d.batchCoord (ix2 i j) 0 + d.offCoord (ix2 i j) 0 = i.val
    rw [d.start_batching _ _ _ hb0, d.offCoord_eq_zero _ _ hk0, Nat.zero_add, Nat.add_zero]
    unfold GatherDims.batchCoord
    rw [dif_pos hb0]
    obtain ⟨od, cs, ob, sb, sim, ivd, ss, wf⟩ := d
    dsimp only at h1 h2 h3 h4 h5 h6
    subst h1 h2 h3 h4 h5 h6
    rfl
  | ⟨1, _⟩ =>
    -- the collapsed axis: no batch or offset coordinate, the start index idx[i, j, 0] clamped into the row
    show d.start (ix2 i j) idx 1 + d.batchCoord (ix2 i j) 1 + d.offCoord (ix2 i j) 1
      = min (idx (ix3 i j (0 : Fin 1))).toInt.toNat (C - 1)
    rw [d.batchCoord_eq_zero _ _ hb1, d.offCoord_eq_zero _ _ hk1, Nat.add_zero]
    unfold GatherDims.start
    rw [dif_pos hm1, hsl]
    have hsi : d.siIdx (ix2 i j) ⟨List.idxOf (1 : Fin 2) d.startIndexMap, List.idxOf_lt_length_iff.2 hm1⟩
        = ix3 i j (0 : Fin 1) := by
      obtain ⟨od, cs, ob, sb, sim, ivd, ss, wf⟩ := d
      dsimp only at h1 h2 h3 h4 h5 h6
      subst h1 h2 h3 h4 h5 h6
      funext b; refine Fin.ext ?_
      match b with
      | ⟨0, _⟩ => rfl
      | ⟨1, _⟩ => rfl
      | ⟨2, _⟩ => rfl
    rw [hsi]
    rfl

/-- A flat take at a column of indices: operand [N], start indices [R, 1], result [R]. -/
theorem take1_apply {N R w : Nat} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (x : (⟨1, ![N]⟩ : Shape).Idx → α) (idx : IVec ⟨2, ![R, 1]⟩ w) (i : Fin R) :
    Host.gather d x idx (ix1 i)
      = x (ix1 ⟨min (idx (ix2 i (0 : Fin 1))).toInt.toNat (N - 1), by omega⟩) := by
  have hsl : d.sliceSizes 0 = 1 := d.slice_collapsed 0 (by rw [h2]; exact List.mem_singleton.mpr rfl)
  have hb0 : (0 : Fin 1) ∉ d.operandBatchingDims := by rw [h3]; exact List.not_mem_nil
  have hk0 : (0 : Fin 1) ∉ d.sKept := fun h =>
    ((d.mem_sKept _).mp h).1 (by rw [h2]; exact List.mem_singleton.mpr rfl)
  have hm0 : (0 : Fin 1) ∈ d.startIndexMap := by rw [h5]; exact List.mem_singleton.mpr rfl
  unfold Host.gather
  congr 1
  funext a
  obtain rfl : a = 0 := Subsingleton.elim _ _
  refine Fin.ext ?_
  show d.start (ix1 i) idx 0 + d.batchCoord (ix1 i) 0 + d.offCoord (ix1 i) 0
    = min (idx (ix2 i (0 : Fin 1))).toInt.toNat (N - 1)
  rw [d.batchCoord_eq_zero _ _ hb0, d.offCoord_eq_zero _ _ hk0, Nat.add_zero]
  unfold GatherDims.start
  rw [dif_pos hm0, hsl]
  have hsi : d.siIdx (ix1 i) ⟨List.idxOf (0 : Fin 1) d.startIndexMap, List.idxOf_lt_length_iff.2 hm0⟩
      = ix2 i (0 : Fin 1) := by
    obtain ⟨od, cs, ob, sb, sim, ivd, ss, wf⟩ := d
    dsimp only at h1 h2 h3 h4 h5 h6
    subst h1 h2 h3 h4 h5 h6
    funext b; refine Fin.ext ?_
    match b with
    | ⟨0, _⟩ => rfl
    | ⟨1, _⟩ => rfl
  rw [hsi]
  rfl

end Cert.HostRead
-- ==== Proof.LibClampIndex.lean ====
/-
  Scalar facts about the index arithmetic of a trilinear sampler, at the ideal
  (extended-real) reading of the float operations: a clipped and floored coordinate
  is an integer in [0, B]; its upper neighbour, capped at B, is too; a flat index
  z·(H·W) + y·W + x computed in 32-bit words does not wrap when D·H·W ≤ 2^31; the
  negative-index normalisation and the in-range test are then trivial.
-/
import Idealize.ShloMosaic.PureOps.Ideal

namespace Cert.Lib.ClampIndex

open Idealize.ShloMosaic

/-- A signed 32-bit word lies in [-2^31, 2^31). -/
theorem toInt_bounds (v : BitVec 32) : -2147483648 ≤ v.toInt ∧ v.toInt < 2147483648 := by
  have h1 := BitVec.le_toInt v
  have h2 := @BitVec.toInt_lt 32 v
  norm_num at h1 h2
  exact ⟨h1, h2⟩

/-- An integer in [-2^31, 2^31) is its own balanced residue modulo 2^32. -/
theorem bmod_self (v : ℤ) (h0 : -2147483648 ≤ v) (h1 : v < 2147483648) : v.bmod (2 ^ 32) = v := by
  apply Int.bmod_eq_of_le <;> norm_num <;> omega

/-- The word sum of two signed words whose integer sum fits in 32 bits is that integer sum. -/
theorem toInt_add_of_fits (a c : BitVec 32) (h0 : -2147483648 ≤ a.toInt + c.toInt)
    (h1 : a.toInt + c.toInt < 2147483648) : (a + c).toInt = a.toInt + c.toInt := by
  rw [BitVec.toInt_add]; exact bmod_self _ h0 h1

/-- The word product of two signed words whose integer product fits in 32 bits is that integer product. -/
theorem toInt_mul_of_fits (a c : BitVec 32) (h0 : -2147483648 ≤ a.toInt * c.toInt)
    (h1 : a.toInt * c.toInt < 2147483648) : (a * c).toInt = a.toInt * c.toInt := by
  rw [BitVec.toInt_mul]; exact bmod_self _ h0 h1

/-- The neighbour index min(i + 1, B) of an index 0 ≤ i ≤ B stays in [0, B]. -/
theorem next_range (i b : BitVec 32) (hi0 : 0 ≤ i.toInt) (hib : i.toInt ≤ b.toInt) (hb : b.toInt < 2^31 - 1) :
    0 ≤ (IntOp.minsi (IntOp.addi i 1#32) b).toInt ∧ (IntOp.minsi (IntOp.addi i 1#32) b).toInt ≤ b.toInt := by
  have h1 : (1#32 : BitVec 32).toInt = 1 := by decide
  have hadd : (i + 1#32).toInt = i.toInt + 1 := by
    have := toInt_add_of_fits i 1#32 (by rw [h1]; omega) (by rw [h1]; omega)
    rw [this, h1]
  have hs : (i + 1#32).slt b = decide (i.toInt + 1 < b.toInt) := by rw [BitVec.slt_eq_decide, hadd]
  unfold IntOp.minsi IntOp.addi
  rw [hs]
  by_cases h : i.toInt + 1 < b.toInt
  · rw [decide_eq_true h, if_pos rfl, hadd]; omega
  · rw [decide_eq_false h, if_neg (by decide)]; omega

/-- Over the integers: for 0 ≤ z < D, 0 ≤ y < H, 0 ≤ x < W, the row offset y·W + x is below H·W and
    the plane offset z·(H·W) leaves room for a whole plane below D·H·W. -/
theorem flat_int_bounds (z y x : ℤ) (D H W : ℕ) (hz0 : 0 ≤ z) (hz : z < D) (hy0 : 0 ≤ y) (hy : y < H)
    (hx0 : 0 ≤ x) (hx : x < W) :
    0 ≤ y * W ∧ y * W + x < (H : ℤ) * W ∧ 0 ≤ z * ((H : ℤ) * W) ∧ z * ((H : ℤ) * W) + (H : ℤ) * W ≤ (D : ℤ) * H * W := by
  have hW0 : (0 : ℤ) ≤ W := Int.natCast_nonneg W
  have hHW0 : (0 : ℤ) ≤ (H : ℤ) * W := Int.mul_nonneg (Int.natCast_nonneg H) hW0
  have hyW : y * W + x < (H : ℤ) * W := by
    have : (y + 1) * W ≤ (H : ℤ) * W := Int.mul_le_mul_of_nonneg_right (by omega) hW0
    rw [Int.add_mul, Int.one_mul] at this
    omega
  have hzHW : z * ((H : ℤ) * W) + (H : ℤ) * W ≤ (D : ℤ) * H * W := by
    have : (z + 1) * ((H : ℤ) * W) ≤ (D : ℤ) * ((H : ℤ) * W) :=
      Int.mul_le_mul_of_nonneg_right (by omega) hHW0
    rw [Int.add_mul, Int.one_mul] at this
    have e : (D : ℤ) * H * W = (D : ℤ) * ((H : ℤ) * W) := Int.mul_assoc _ _ _
    rw [e]; exact this
  exact ⟨Int.mul_nonneg hy0 hW0, hyW, Int.mul_nonneg hz0 hHW0, hzHW⟩

/-- The flat index z·(H·W) + y·W + x of a point of a D × H × W grid, computed in 32-bit words, does not
    wrap when D·H·W ≤ 2^31: it is the same expression over the integers. -/
theorem flat_toInt (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    (IntOp.addi (IntOp.addi (IntOp.muli z hw) (IntOp.muli y wc)) x).toInt
      = z.toInt * (H * W) + y.toInt * W + x.toInt := by
  -- every partial value lies in [0, D·H·W), hence in the signed 32-bit range
  obtain ⟨hyW0, hyW, hzHW0, hzHW⟩ := flat_int_bounds z.toInt y.toInt x.toInt D H W hz0 hz hy0 hy hx0 hx
  have hD' : (D : ℤ) * H * W ≤ 2147483648 := by norm_num at hD; exact hD
  unfold IntOp.addi IntOp.muli
  have hm1 : (z * hw).toInt = z.toInt * ((H : ℤ) * W) := by
    rw [toInt_mul_of_fits z hw (by rw [hhw]; omega) (by rw [hhw]; omega), hhw]
  have hm2 : (y * wc).toInt = y.toInt * W := by
    rw [toInt_mul_of_fits y wc (by rw [hwc]; omega) (by rw [hwc]; omega), hwc]
  have ha1 : (z * hw + y * wc).toInt = z.toInt * ((H : ℤ) * W) + y.toInt * W := by
    rw [toInt_add_of_fits _ _ (by rw [hm1, hm2]; omega) (by rw [hm1, hm2]; omega), hm1, hm2]
  rw [toInt_add_of_fits _ _ (by rw [ha1]; omega) (by rw [ha1]; omega), ha1]

/-- The flat index of a point of a D × H × W grid lies in [0, D·H·W). -/
theorem flat_range (z y x hw wc : BitVec 32) (D H W : ℕ) (hhw : hw.toInt = H * W) (hwc : wc.toInt = W)
    (hD : (D * H * W : ℤ) ≤ 2^31) (hz0 : 0 ≤ z.toInt) (hz : z.toInt < D) (hy0 : 0 ≤ y.toInt) (hy : y.toInt < H)
    (hx0 : 0 ≤ x.toInt) (hx : x.toInt < W) :
    0 ≤ (IntOp.addi (IntOp.addi (IntOp.muli z hw) (IntOp.muli y wc)) x).toInt
      ∧ (IntOp.addi (IntOp.addi (IntOp.muli z hw) (IntOp.muli y wc)) x).toInt < D * H * W := by
  rw [flat_toInt z y x hw wc D H W hhw hwc hD hz0 hz hy0 hy hx0 hx]
  obtain ⟨hyW0, hyW, hzHW0, hzHW⟩ := flat_int_bounds z.toInt y.toInt x.toInt D H W hz0 hz hy0 hy hx0 hx
  constructor <;> omega

/-- jnp's negative-index normalisation (add n when i < 0) is the identity on a non-negative index. -/
theorem norm_id (i n : BitVec 32) (hi0 : 0 ≤ i.toInt) :
    Scalar.select (IntOp.cmpi .slt i 0#32) (IntOp.addi i n) i = i := by
  have h0 : (0#32 : BitVec 32).toInt = 0 := by decide
  have hs : i.slt 0#32 = false := by
    rw [BitVec.slt_eq_decide, h0]; exact decide_eq_false (by omega)
  unfold Scalar.select IntOp.cmpi
  simp only [hs]
  rw [if_neg (by decide)]

/-- The in-range test 0 ≤ i ∧ i ≤ mx answers true on an index in [0, mx]. -/
theorem inrange_true (i mx : BitVec 32) (hi0 : 0 ≤ i.toInt) (hi : i.toInt ≤ mx.toInt) :
    IntOp.andi (IntOp.cmpi .sge i 0#32) (IntOp.cmpi .sle i mx) = 1#1 := by
  have h0 : (0#32 : BitVec 32).toInt = 0 := by decide
  have hs1 : (0#32 : BitVec 32).sle i = true := by
    rw [BitVec.sle_eq_decide, h0]; exact decide_eq_true hi0
  have hs2 : i.sle mx = true := by
    rw [BitVec.sle_eq_decide]; exact decide_eq_true hi
  unfold IntOp.andi IntOp.cmpi
  simp only [hs1, hs2]
  decide

/-- A non-negative signed word, read as a natural number and back as an integer, is itself. -/
theorem toNat_of_range (i : BitVec 32) (hi0 : 0 ≤ i.toInt) : (i.toInt.toNat : ℤ) = i.toInt :=
  Int.toNat_of_nonneg hi0

/-- Capping a natural index below M at M − 1 leaves it unchanged. -/
theorem min_toNat_of_lt (i : BitVec 32) (M : ℕ) (hi0 : 0 ≤ i.toInt) (hi : i.toInt < M) :
    min i.toInt.toNat (M - 1) = i.toInt.toNat := by
  have := toNat_of_range i hi0
  omega

/-- The natural-number reading of a signed word in [0, M) is below M. -/
theorem toNat_lt_of_range (i : BitVec 32) (M : ℕ) (hi0 : 0 ≤ i.toInt) (hi : i.toInt < M) :
    i.toInt.toNat < M := by
  have := toNat_of_range i hi0
  omega

/-- An extended real between 0 and a real B is itself a real, in [0, B]. -/
theorem exists_real_of_mem (c : EReal) (B : ℝ) (h0 : 0 ≤ c) (hB : c ≤ (B : EReal)) :
    ∃ r : ℝ, c = (r : EReal) ∧ 0 ≤ r ∧ r ≤ B := by
  induction c using EReal.rec with
  | bot => exact absurd h0 (not_le.mpr EReal.bot_lt_zero)
  | top => exact absurd hB (not_le.mpr (EReal.coe_lt_top B))
  | coe r => exact ⟨r, rfl, EReal.coe_nonneg.mp h0, EReal.coe_le_coe_iff.mp hB⟩

/-- Clipping any extended real x to [0, B] (B ≥ 0 a signed word read as a real) gives a real in [0, B],
    whatever x is: an infinity is clipped to an end of the interval. -/
theorem clamp_real (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ) := by
  have hz : FloatOps.ofBits (F := Ideal) .f32 0x00000000#32 = (0 : EReal) := by
    simp [Ideal.ofBits, Ideal.ieee]
  apply exists_real_of_mem
  · show (0 : EReal) ≤ min (((b.toInt : ℝ)) : EReal) (max (FloatOps.ofBits (F := Ideal) .f32 0x00000000#32) x)
    rw [hz]
    exact le_min (EReal.coe_nonneg.mpr (by exact_mod_cast hb)) (le_max_left _ _)
  · exact min_le_left _ _

/-- Flooring a real r in [0, B], with B below 2^31, and converting to a signed 32-bit word gives the word
    whose signed value is ⌊r⌋: neither the conversion's clamp nor the word's wrap-around intervenes. -/
theorem fptosi_floor_coe (r : ℝ) (B : ℤ) (h0 : 0 ≤ r) (hB : r ≤ (B : ℝ)) (hB31 : B < 2147483648) :
    (Ideal.fptosi 32 (Ideal.liftRound Int.floor (r : EReal))).toInt = ⌊r⌋ := by
  have hf0 : 0 ≤ ⌊r⌋ := Int.floor_nonneg.mpr h0
  have hfB : ⌊r⌋ ≤ B := by
    have : ⌊r⌋ ≤ ⌊(B : ℝ)⌋ := Int.floor_le_floor hB
    rwa [Int.floor_intCast] at this
  have hnn : (0 : ℝ) ≤ ((⌊r⌋ : ℤ) : ℝ) := by exact_mod_cast hf0
  rw [Ideal.liftRound_coe, Ideal.fptosi, Ideal.toIntClamped_coe, if_pos hnn, Int.floor_intCast]
  have hmin : min ((((2 ^ (32 - 1) : ℕ)) : ℤ) - 1) ⌊r⌋ = ⌊r⌋ := min_eq_right (by norm_num; omega)
  have hmax : max (-(((2 ^ (32 - 1) : ℕ)) : ℤ)) ⌊r⌋ = ⌊r⌋ := max_eq_right (by norm_num; omega)
  rw [hmin, hmax, BitVec.toInt_ofInt]
  exact bmod_self _ (by omega) (by omega)

/-- The clipped, floored and converted coordinate equals the floor of the clipped real: there is a real
    r in [0, B] that the clip produces and the resulting signed word is ⌊r⌋. -/
theorem clampFloor_eq (b : BitVec 32) (hb : 0 ≤ b.toInt) (x : Ideal .f32) :
    ∃ r : ℝ, FloatOps.minimumf (FloatOps.sitofp (F := Ideal) .f32 b)
        (FloatOps.maximumf (FloatOps.ofBits (F := Ideal) .f32 0x00000000#32) x) = ((r : ℝ) : EReal)
      ∧ 0 ≤ r ∧ r ≤ (b.toInt : ℝ)
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt = ⌊r⌋ := by
  obtain ⟨r, hr, hr0, hrB⟩ := clamp_real b hb x
  refine ⟨r, hr, hr0, hrB, ?_⟩
  rw [hr]
  exact fptosi_floor_coe r b.toInt hr0 hrB (toInt_bounds b).2

/-- A coordinate clipped to [0, B], floored and converted to a signed 32-bit word is an index in [0, B]. -/
theorem clampFloor_range (b : BitVec 32) (hb : 0 ≤ b.toInt) (x : Ideal .f32) :
    0 ≤ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt
      ∧ (FloatOps.fptosi (F := Ideal) 32 (FloatOps.hostUnary (F := Ideal) .floor
          (FloatOps.minimumf (FloatOps.sitofp (F := Ideal) .f32 b)
            (FloatOps.maximumf (FloatOps.ofBits (F := Ideal) .f32 0x00000000#32) x)))).toInt ≤ b.toInt := by
  obtain ⟨r, _, hr0, hrB, hi⟩ := clampFloor_eq b hb x
  rw [hi]
  refine ⟨Int.floor_nonneg.mpr hr0, ?_⟩
  have : ⌊r⌋ ≤ ⌊(b.toInt : ℝ)⌋ := Int.floor_le_floor hrB
  rwa [Int.floor_intCast] at this

end Cert.Lib.ClampIndex
-- ==== Proof.KI.TailWl.lean ====
/-
  The weighted (soft-label) term of the lines after the region, read down to the arrays: with every answer a class index, it is the specification's `wlK`.
-/
import proofs.«429144_j34359738695_3_alg».proof.Proof.KI.TailDef
import proofs.«429144_j34359738695_3_alg».proof.Proof.Spec
import proofs.«429144_j34359738695_3_alg».proof.Proof.HostRead
import proofs.«429144_j34359738695_3_alg».proof.Proof.LibClampIndex
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Gen
open Idealize.ShloMosaic Idealize.SL.Sem Idealize.ShloMosaic.ValueIdx

/-! ## Words: a class index is its own clip, its own normalisation, and its own column -/

/-- A word below 3129 read signed is its natural value. -/
theorem toInt_of_lt (v : BitVec 32) (h : v.toNat < 3129) : v.toInt = (v.toNat : ℤ) :=
  BitVec.toInt_eq_toNat_of_lt (by omega)

/-- Clipping a class index to [0, 3128] leaves it unchanged. -/
theorem clip_word (v : BitVec 32) (h : v.toNat < 3129) : IntOp.minsi 3128#32 (IntOp.maxsi 0#32 v) = v := by
  have hv := toInt_of_lt v h
  have h0 : (0#32 : BitVec 32).toInt = 0 := by decide
  have h1 : (3128#32 : BitVec 32).toInt = 3128 := by decide
  have hs0 : v.slt 0#32 = false := by
    rw [BitVec.slt_eq_decide, h0, hv]; exact decide_eq_false (by omega)
  have hs1 : (3128#32 : BitVec 32).slt v = false := by
    rw [BitVec.slt_eq_decide, h1, hv]; exact decide_eq_false (by omega)
  have e1 : IntOp.maxsi 0#32 v = v := by
    unfold IntOp.maxsi; rw [hs0]; exact if_neg (by decide)
  rw [e1]
  unfold IntOp.minsi
  rw [hs1]
  exact if_neg (by decide)

/-- The gather's clamp of a class index into the row names the specification's column of it. -/
theorem clamp_col (v : BitVec 32) (h : v.toNat < 3129) : min v.toInt.toNat (3129 - 1) = (Cert.Spec.col v).val := by
  have hv := toInt_of_lt v h
  simp only [Cert.Spec.col]
  rw [hv, Int.toNat_natCast]

/-- With every answer a class index the clip is the identity. -/
theorem clipA_eq (a : IVec S16384x10 32) (ha : ∀ i, (a i).toNat < 3129) : clipA a = a := by
  funext i
  exact clip_word (a i) (ha i)

/-- With every answer a class index the negative-index normalisation is the identity. -/
theorem wrap10_eq (a : IVec S16384x10 32) (ha : ∀ i, (a i).toNat < 3129) : wrap10 a = a := by
  funext i
  have hv := toInt_of_lt (a i) (ha i)
  exact Cert.Lib.ClampIndex.norm_id (a i) 3129#32 (by omega)

/-! ## The in-range test of the gather along the rows -/

/-- A fold by `and` of ones, started at one, is one. -/
theorem foldl_andi_one {ι : Type} (l : List ι) :
    l.foldl (fun (r : BitVec 1) (_ : ι) => IntOp.andi r 1#1) 1#1 = 1#1 := by
  induction l with
  | nil => rfl
  | cons b l ih =>
    have e : IntOp.andi (1#1 : BitVec 1) 1#1 = 1#1 := by decide
    rw [List.foldl_cons, e]
    exact ih

/-- A reduction by `and` of an array of ones, started at one, is one. -/
theorem reduce_andi_ones {s t u : Shape} {axes : List (Fin s.rank)} (init : u.Idx → BitVec 1) (hinit : ∀ k, init k = 1#1)
    (h : s.ReducesTo axes t) (hu : 0 < u.numel) (j : t.Idx) :
    Host.reduce IntOp.andi (fun _ : s.Idx => (1#1 : BitVec 1)) init h hu j = 1#1 := by
  rw [Host.reduce_eq_foldl, hinit]
  exact foldl_andi_one _

/-- The test 0 ≤ index ≤ 3128 answers true at every class index. -/
theorem inrange10_eq (a : IVec S16384x10 32) (ha : ∀ i, (a i).toNat < 3129) :
    andi
        (cmpi .sge (shapeCast S16384x10x1 a shapeCasts_S16384x10_S16384x10x1)
          (broadcastInDim S16384x10x1 ![] bcast_S_S16384x10x1 (constantI S_ 32 0#32)))
        (cmpi .sle (shapeCast S16384x10x1 a shapeCasts_S16384x10_S16384x10x1)
          (broadcastInDim S16384x10x1 ![0, 1, 2] bcast_S1x1x1_S16384x10x1_0_1_2
            (broadcastInDim S1x1x1 ![2] bcast_S1_S1x1x1_2 (constantI S1 32 3128#32))))
      = fun _ => (1#1 : BitVec 1) := by
  funext k
  have hk : (shapeCast S16384x10x1 a shapeCasts_S16384x10_S16384x10x1 k).toNat < 3129 := ha _
  have hv := toInt_of_lt _ hk
  have h1 : (3128#32 : BitVec 32).toInt = 3128 := by decide
  exact Cert.Lib.ClampIndex.inrange_true _ 3128#32 (by omega) (by rw [h1]; omega)

/-! ## The gathers and the broadcast normaliser, read at (row, answer) -/

/-- The gather along the rows: at (i, j) the logit of row i at the column answer j names. -/
theorem takeAlong10_apply (x : FVec Ideal S16384x3129 .f32) (a : IVec S16384x10 32) (ha : ∀ i, (a i).toNat < 3129)
    (i : Fin 16384) (j : Fin 10) :
    takeAlong10 (F := Ideal) x a (ix2 i j) = x (ix2 i (Cert.Spec.col (a (ix2 i j)))) := by
  unfold takeAlong10
  rw [wrap10_eq a ha, inrange10_eq a ha, select_apply, reduce_andi_ones (constantI S_ 1 1#1) (fun _ => rfl), select_one]
  rw [Cert.HostRead.takeAlong_apply (by decide) gather_S16384x3129_S16384x10x1_S16384x10_n_1_0_0_1_2_11 rfl rfl rfl rfl rfl rfl]
  have hidx : shapeCast S16384x10x1 a shapeCasts_S16384x10_S16384x10x1 (ix3 i j (0 : Fin 1)) = a (ix2 i j) :=
    shapeCast_apply a shapeCasts_S16384x10_S16384x10x1 _ (ix2 i j)
      (by rewrite [Shape.rowMajor_val_two, Shape.rowMajor_val_three]
          show i.val * 10 + j.val = (i.val * 10 + j.val) * 1 + 0
          omega)
  refine congrArg x (congrArg (fun c : Fin 3129 => ix2 i c) (Fin.ext ?_))
  show min (shapeCast S16384x10x1 a shapeCasts_S16384x10_S16384x10x1 (ix3 i j (0 : Fin 1))).toInt.toNat (3129 - 1)
    = (Cert.Spec.col (a (ix2 i j))).val
  rw [hidx]
  exact clamp_col _ (ha _)

/-- The class weights taken at the answers: at (i, j) the weight of the class answer j of row i names. -/
theorem wgt10_apply (w : FVec Ideal S3129 .f32) (a : IVec S16384x10 32) (ha : ∀ i, (a i).toNat < 3129)
    (i : Fin 16384) (j : Fin 10) :
    wgt10 (F := Ideal) w a (ix2 i j) = w (ix1 (Cert.Spec.col (a (ix2 i j)))) := by
  unfold wgt10
  rw [wrap10_eq a ha]
  refine (gather_take_apply (N := 3129) (R := 16384) (C := 10) (by decide)
    gather_S3129_S16384x10x1_S16384x10_n_0_n_n_0_2_1_wf w _ (ix2 i j)).trans ?_
  have hidx : broadcastInDim S16384x10x1 ![0, 1] bcast_S16384x10_S16384x10x1_0_1 a (takeIdx (ix2 i j)) = a (ix2 i j) :=
    broadcastInDim_apply _ bcast_S16384x10_S16384x10x1_0_1 a _ (ix2 i j) (fun b => match b with
      | ⟨0, _⟩ => by show i.val = if (16384 : Nat) = 1 then 0 else i.val; rw [if_neg (by decide)]
      | ⟨1, _⟩ => by show j.val = if (10 : Nat) = 1 then 0 else j.val; rw [if_neg (by decide)])
  refine congrArg w (congrArg (fun c : Fin 3129 => ix1 c) (Fin.ext ?_))
  show min (broadcastInDim S16384x10x1 ![0, 1] bcast_S16384x10_S16384x10x1_0_1 a (takeIdx (ix2 i j))).toInt.toNat (3129 - 1)
    = (Cert.Spec.col (a (ix2 i j))).val
  rw [hidx]
  exact clamp_col _ (ha _)

/-- The region's result broadcast along the answers: at (i, j) the normaliser of row i. -/
theorem lzB_apply (lz : FVec Ideal S16384x1 .f32) (i : Fin 16384) (j : Fin 10) :
    broadcastInDim S16384x10 ![0, 1] bcast_S16384x1_S16384x10_0_1
      (broadcastInDim S16384x1 ![0] bcast_S16384_S16384x1_0 (lzV lz)) (ix2 i j) = lz (ix2 i (0 : Fin 1)) := by
  refine (broadcastInDim_apply _ bcast_S16384x1_S16384x10_0_1 _ (ix2 i j) (ix2 i (0 : Fin 1)) (fun b => match b with
      | ⟨0, _⟩ => by show i.val = if (16384 : Nat) = 1 then 0 else i.val; rw [if_neg (by decide)]
      | ⟨1, _⟩ => by show 0 = if (1 : Nat) = 1 then 0 else j.val; rw [if_pos rfl])).trans ?_
  refine (broadcastInDim_apply _ bcast_S16384_S16384x1_0 _ (ix2 i (0 : Fin 1)) (ix1 i) (fun b => match b with
      | ⟨0, _⟩ => by show i.val = if (16384 : Nat) = 1 then 0 else i.val; rw [if_neg (by decide)])).trans ?_
  unfold lzV
  exact shapeCast_apply lz shapeCasts_S16384x1_S16384 (ix1 i) (ix2 i (0 : Fin 1))
    (by rewrite [Shape.rowMajor_val_two, Shape.rowMajor_val_one]; show i.val * 1 + 0 = i.val; omega)

/-! ## The two sums -/

/-- A rank-1 index set is its coordinate's range, so a sum over it is the sum over the coordinate. -/
def idxEquiv1 {n : Nat} : (⟨1, ![n]⟩ : Shape).Idx ≃ Fin n where
  toFun i := i 0
  invFun c := ix1 c
  left_inv i := (eq_ix1 i).symm
  right_inv _ := rfl

theorem sum_idx1 {M : Type*} [AddCommMonoid M] {n : Nat} (f : (⟨1, ![n]⟩ : Shape).Idx → M) :
    ∑ i, f i = ∑ c : Fin n, f (ix1 c) := by
  rw [← Equiv.sum_comp (idxEquiv1 (n := n)).symm f]
  rfl

/-- The sum over the ten answers of a row, from zero. -/
theorem rowSum_apply (y : FVec Ideal S16384x10 .f32) (i : Fin 16384) :
    Host.reduceAdd y (constant S_ .f32 0x00000000#32) reducesTo_S16384x10_S16384_d1 h_S_ (ix1 i)
      = ∑ j : Fin 10, y (ix2 i j) := by
  simp only [Host.reduceAdd, Ideal.hostReduceAdd_def]
  rw [Ideal.hostReduceAdd_single reducesTo_S16384x10_S16384_d1 (by decide), constant_apply, Ideal.ofBits_zero_f32, zero_add]
  refine Finset.sum_congr rfl fun k _ => ?_
  exact congrArg y (funext fun b => Fin.ext (by match b with | ⟨0, _⟩ => rfl | ⟨1, _⟩ => rfl))

/-- The sum over the rows, from zero. -/
theorem total_apply (z : FVec Ideal S16384 .f32) (ix : S_.Idx) :
    Host.reduceAdd z (constant S_ .f32 0x00000000#32) reducesTo_S16384_S_d0 h_S_ ix = ∑ i : Fin 16384, z (ix1 i) := by
  simp only [Host.reduceAdd, Ideal.hostReduceAdd_def]
  rw [Ideal.hostReduceAdd_total reducesTo_S16384_S_d0 (fun b => b.elim0), constant_apply, Ideal.ofBits_zero_f32, zero_add]
  exact sum_idx1 z

/-! ## The pointwise host operations at an index -/

/-- The host's quotient at an index is the ideal division of the elements. -/
theorem hostDivf_apply {s : Shape} (p q : FVec Ideal s .f32) (i : s.Idx) : Host.divf p q i = Ideal.div (p i) (q i) := rfl

/-- The host's negation at an index is the negation of the element. -/
theorem hostNegf_apply {s : Shape} (y : FVec Ideal s .f32) (i : s.Idx) : Host.negf y i = -(y i) := rfl

/-- A scalar constant broadcast to any shape reads the extended real its word encodes. -/
theorem bcast0_apply {t : Shape} (h : S_.BroadcastsInDim t ![]) (b : BitVec 32) (i : t.Idx) :
    broadcastInDim t ![] h (constant (F := Ideal) S_ .f32 b) i = Ideal.ofBits .f32 b := rfl

/-- The soft-label term. `lz` is the region's result: one normaliser per row. -/
theorem wlT_read (x : FVec Ideal S16384x3129 .f32) (w : FVec Ideal S3129 .f32) (a : IVec S16384x10 32) (lz : FVec Ideal S16384x1 .f32)
    (ha : ∀ i, (a i).toNat < 3129) (hlz : ∀ i : Fin 16384, lz (ix2 i (0 : Fin 1)) = Cert.Spec.logZ x i) :
    wlT (F := Ideal) x w (clipA a) lz = fun _ => Cert.Spec.wlK x w a := by
  funext ix
  rw [clipA_eq a ha]
  unfold wlT Cert.Spec.wlK Cert.Spec.softK Cert.Spec.cB Cert.Spec.c01
  rw [hostDivf_apply, total_apply, constant_apply]
  refine congrArg (fun s => Ideal.div s (Ideal.ofBits .f32 0x46800000#32)) (Finset.sum_congr rfl fun i _ => ?_)
  rw [hostNegf_apply, mulf_apply, bcast0_apply, rowSum_apply]
  refine congrArg (fun s => -(Ideal.ofBits .f32 0x3DCCCCCD#32 * s)) (Finset.sum_congr rfl fun j _ => ?_)
  rw [mulf_apply, subf_apply, wgt10_apply w a ha, takeAlong10_apply x a ha, lzB_apply, hlz]

end Cert.KernelIdeal.Tail

end
-- ==== Proof.KI.TailSl.lean ====
/-
  The standard (hard-label) term, the rate and the combination of the lines after the region, read down to the arrays.

  A hard label below 3129 is non-negative as a signed word, so the clip to [0, 3128], the negative-index normalisation
  and the gathers' clamps are the identity on it and the gathers' in-range test answers true; each gather then reads
  its operand at the label's column.  The sums into rank 0 are sums over the rows.
-/
import proofs.«429144_j34359738695_3_alg».proof.Proof.KI.TailDef
import proofs.«429144_j34359738695_3_alg».proof.Proof.Spec
import proofs.«429144_j34359738695_3_alg».proof.Proof.HostRead
import proofs.«429144_j34359738695_3_alg».proof.Proof.LibClampIndex
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Gen
open Idealize.ShloMosaic Idealize.SL.Sem Idealize.ShloMosaic.ValueIdx

/-! ## Words: a label below 3129 -/

theorem sl_toInt_of_lt (v : BitVec 32) (h : v.toNat < 3129) : v.toInt = (v.toNat : ℤ) :=
  BitVec.toInt_eq_toNat_of_lt (by omega)

theorem clip_id (v : BitVec 32) (h : v.toNat < 3129) :
    IntOp.minsi 3128#32 (IntOp.maxsi 0#32 v) = v := by
  have hv := sl_toInt_of_lt v h
  have h0 : (0#32 : BitVec 32).toInt = 0 := by decide
  have h1 : (3128#32 : BitVec 32).toInt = 3128 := by decide
  have hs : v.slt 0#32 = false := by
    rw [BitVec.slt_eq_decide, h0, hv]; exact decide_eq_false (by omega)
  have hm : IntOp.maxsi 0#32 v = v := by
    unfold IntOp.maxsi; rw [hs]; exact if_neg (by decide)
  rw [hm]
  have hs2 : (3128#32 : BitVec 32).slt v = false := by
    rw [BitVec.slt_eq_decide, h1, hv]; exact decide_eq_false (by omega)
  unfold IntOp.minsi; rw [hs2]; exact if_neg (by decide)

theorem gidx_eq (v : BitVec 32) (h : v.toNat < 3129) (p : min v.toInt.toNat (3129 - 1) < 3129) :
    (⟨min v.toInt.toNat (3129 - 1), p⟩ : Fin 3129) = Cert.Spec.col v := by
  apply Fin.ext
  show min v.toInt.toNat (3129 - 1) = min v.toNat 3128
  rw [sl_toInt_of_lt v h, Int.toNat_natCast]

theorem select_eq_zero {α : Type} (v : BitVec 32) (p q : α) :
    Scalar.select (IntOp.cmpi .eq v 0#32) p q = if v = 0#32 then p else q := by
  by_cases h : v = 0#32
  · subst h; rw [if_pos rfl]; rfl
  · rw [if_neg h]
    have hb : (v == 0#32) = false := beq_eq_false_iff_ne.mpr h
    unfold Scalar.select IntOp.cmpi
    simp only [hb]
    exact if_neg (by decide)

theorem sl_foldl_andi_one {ι : Type} (l : List ι) : l.foldl (fun r (_ : ι) => IntOp.andi r 1#1) 1#1 = 1#1 := by
  induction l with
  | nil => rfl
  | cons a l ih => exact ih

theorem reduce_andi_one {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  obtain rfl : x = fun _ => 1#1 := funext hx
  unfold Host.reduce
  rw [hi]
  exact sl_foldl_andi_one _

theorem gidx_eq' (u v : BitVec 32) (huv : u = v) (h : v.toNat < 3129) (p : min u.toInt.toNat (3129 - 1) < 3129) :
    (⟨min u.toInt.toNat (3129 - 1), p⟩ : Fin 3129) = Cert.Spec.col v := by
  subst huv; exact gidx_eq u h p

/-! ## The index arithmetic on in-range labels is the identity -/

theorem clipM_eq (mo : IVec S16384x1 32) (hmo : ∀ i, (mo i).toNat < 3129) : clipM mo = mo := by
  funext i
  exact clip_id (mo i) (hmo i)

theorem wrap1_eq (mo : IVec S16384x1 32) (hmo : ∀ i, (mo i).toNat < 3129) : wrap1 mo = mo := by
  funext i
  exact Cert.Lib.ClampIndex.norm_id (mo i) 3129#32 (by rw [sl_toInt_of_lt _ (hmo i)]; omega)

theorem wrapV_eq (v : IVec S16384 32) (hv : ∀ i, (v i).toNat < 3129) : wrapV v = v := by
  funext i
  exact Cert.Lib.ClampIndex.norm_id (v i) 3129#32 (by rw [sl_toInt_of_lt _ (hv i)]; omega)

/-! ## Layout operations at an index -/

/-- A column [16384, 1] read as a vector [16384]. -/
theorem castV_apply {α : Type} (y : S16384x1.Idx → α) (i : Fin 16384) :
    shapeCast S16384 y shapeCasts_S16384x1_S16384 (ix1 i) = y (ix2 i (0 : Fin 1)) :=
  shapeCast_apply y shapeCasts_S16384x1_S16384 (ix1 i) (ix2 i (0 : Fin 1))
    (by rewrite [Shape.rowMajor_val_two, Shape.rowMajor_val_one]; show i.val * 1 + 0 = i.val; omega)

/-- A column [16384, 1] read as [16384, 1, 1]. -/
theorem cast3_apply {α : Type} (y : S16384x1.Idx → α) (i : Fin 16384) :
    shapeCast S16384x1x1 y shapeCasts_S16384x1_S16384x1x1 (ix3 i (0 : Fin 1) (0 : Fin 1)) = y (ix2 i (0 : Fin 1)) :=
  shapeCast_apply y shapeCasts_S16384x1_S16384x1x1 (ix3 i (0 : Fin 1) (0 : Fin 1)) (ix2 i (0 : Fin 1))
    (by rewrite [Shape.rowMajor_val_two, Shape.rowMajor_val_three]; show i.val * 1 + 0 = (i.val * 1 + 0) * 1 + 0; omega)

/-- A vector [16384] broadcast to a column [16384, 1]. -/
theorem bcastV_apply {α : Type} (y : S16384.Idx → α) (i : Fin 16384) :
    broadcastInDim S16384x1 ![0] bcast_S16384_S16384x1_0 y (ix2 i (0 : Fin 1)) = y (ix1 i) :=
  broadcastInDim_apply _ bcast_S16384_S16384x1_0 y (ix2 i (0 : Fin 1)) (ix1 i) (fun a => match a with
    | ⟨0, _⟩ => by show i.val = if (16384 : Nat) = 1 then 0 else i.val; rw [if_neg (by decide)])

/-! ## The gathers -/

/-- The class weight at a vector of in-range labels. -/
theorem wgtV_apply (w : FVec Ideal S3129 .f32) (v : IVec S16384 32) (hv : ∀ i, (v i).toNat < 3129) (i : Fin 16384) :
    wgtV (F := Ideal) w v (ix1 i) = w (ix1 (Cert.Spec.col (v (ix1 i)))) := by
  unfold wgtV
  rw [Cert.HostRead.take1_apply (by decide) gather_S3129_S16384x1_S16384_n_0_n_n_0_1_1 rfl rfl rfl rfl rfl rfl]
  exact congrArg (fun c : Fin 3129 => w (ix1 c))
    (gidx_eq' _ _ (by rw [bcastV_apply, wrapV_eq v hv]) (hv _) _)

/-- The in-range test of the gather along rows answers true on in-range labels. -/
theorem inrange1 (mo : IVec S16384x1 32) (hmo : ∀ i, (mo i).toNat < 3129) (j : S16384x1.Idx) :
    Host.reduce IntOp.andi
      (andi
        (cmpi .sge (shapeCast S16384x1x1 (wrap1 mo) shapeCasts_S16384x1_S16384x1x1)
          (broadcastInDim S16384x1x1 ![] bcast_S_S16384x1x1 (constantI S_ 32 0#32)))
        (cmpi .sle (shapeCast S16384x1x1 (wrap1 mo) shapeCasts_S16384x1_S16384x1x1)
          (broadcastInDim S16384x1x1 ![0, 1, 2] bcast_S1x1x1_S16384x1x1_0_1_2
            (broadcastInDim S1x1x1 ![2] bcast_S1_S1x1x1_2 (constantI S1 32 3128#32)))))
      (constantI S_ 1 1#1) reducesTo_S16384x1x1_S16384x1_d2 h_S_ j = 1#1 := by
  rw [wrap1_eq mo hmo]
  refine reduce_andi_one _ _ _ _ _ (fun k => ?_) rfl
  have hlt := hmo (Shape.reshapeEquiv shapeCasts_S16384x1_S16384x1x1 k)
  have hk := sl_toInt_of_lt _ hlt
  exact Cert.Lib.ClampIndex.inrange_true (mo (Shape.reshapeEquiv shapeCasts_S16384x1_S16384x1x1 k)) 3128#32
    (by rw [hk]; omega) (by rw [hk, show (3128#32 : BitVec 32).toInt = 3128 by decide]; omega)

/-- The logit at a column of in-range labels. -/
theorem takeAlong1_apply (x : FVec Ideal S16384x3129 .f32) (mo : IVec S16384x1 32) (hmo : ∀ i, (mo i).toNat < 3129)
    (i : Fin 16384) :
    takeAlong1 (F := Ideal) x mo (ix2 i (0 : Fin 1)) = x (ix2 i (Cert.Spec.col (mo (ix2 i (0 : Fin 1))))) := by
  unfold takeAlong1
  rw [select_apply, inrange1 mo hmo, select_one,
    Cert.HostRead.takeAlong_apply (by decide) gather_S16384x3129_S16384x1x1_S16384x1_n_1_0_0_1_2_11 rfl rfl rfl rfl rfl rfl]
  exact congrArg (fun c : Fin 3129 => x (ix2 i c))
    (gidx_eq' _ _ (by rw [cast3_apply, wrap1_eq mo hmo]) (hmo _) _)

/-! ## Sums into rank 0 -/

/-- A rank-1 index set is its coordinate's range, so a sum over it is the sum over the coordinate. -/
def sl_idxEquiv1 {n : Nat} : (⟨1, ![n]⟩ : Shape).Idx ≃ Fin n where
  toFun j := j 0
  invFun := ix1
  left_inv j := (eq_ix1 j).symm
  right_inv _ := rfl

theorem sl_sum_idx1 {M : Type*} [AddCommMonoid M] {n : Nat} (f : (⟨1, ![n]⟩ : Shape).Idx → M) :
    ∑ j, f j = ∑ a : Fin n, f (ix1 a) := by
  rw [← Equiv.sum_comp (sl_idxEquiv1 (n := n)).symm f]
  rfl

/-- The host's sum of a vector [16384] from zero is the sum over its rows. -/
theorem sumV (y : FVec Ideal S16384 .f32) (j : S_.Idx) :
    Host.reduceAdd y (constant S_ .f32 0x00000000#32) reducesTo_S16384_S_d0 h_S_ j = ∑ a : Fin 16384, y (ix1 a) := by
  simp only [Host.reduceAdd, Ideal.hostReduceAdd_def]
  rw [Ideal.hostReduceAdd_total reducesTo_S16384_S_d0 (fun b => b.elim0), constant_apply, Ideal.ofBits_zero_f32,
    zero_add, sl_sum_idx1]

/-- The host's sum of a column [16384, 1] from zero is the sum over its rows. -/
theorem sumM (y : FVec Ideal S16384x1 .f32) (j : S_.Idx) :
    Host.reduceAdd y (constant S_ .f32 0x00000000#32) reducesTo_S16384x1_S_d0_1 h_S_ j
      = ∑ a : Fin 16384, y (ix2 a (0 : Fin 1)) := by
  simp only [Host.reduceAdd, Ideal.hostReduceAdd_def]
  rw [Ideal.hostReduceAdd_total reducesTo_S16384x1_S_d0_1 (fun b => b.elim0), constant_apply, Ideal.ofBits_zero_f32,
    zero_add, sum_idx2]
  exact Finset.sum_congr rfl (fun a _ => Fin.sum_univ_one _)

/-- The host's quotient at the one index of a rank-0 result. -/
theorem hostDivf_at (a b : FVec Ideal S_ .f32) (j : S_.Idx) : Host.divf a b j = Ideal.div (a j) (b j) := rfl

/-! ## The three stages -/

/-- The class weight of row a's hard label. -/
theorem wy_read (w : FVec Ideal S3129 .f32) (mo : IVec S16384x1 32) (hmo : ∀ i, (mo i).toNat < 3129) (a : Fin 16384) :
    wgtV (F := Ideal) w (shapeCast S16384 mo shapeCasts_S16384x1_S16384) (ix1 a) = Cert.Spec.wy w mo a := by
  rw [wgtV_apply w (shapeCast S16384 mo shapeCasts_S16384x1_S16384) (fun i => hmo _) a, castV_apply]
  rfl

/-- The hard-label term. -/
theorem slT_read (x : FVec Ideal S16384x3129 .f32) (w : FVec Ideal S3129 .f32) (mo : IVec S16384x1 32) (lz : FVec Ideal S16384x1 .f32)
    (hmo : ∀ i, (mo i).toNat < 3129) (hlz : ∀ i : Fin 16384, lz (ix2 i (0 : Fin 1)) = Cert.Spec.logZ x i) :
    slT (F := Ideal) x w (clipM mo) lz = fun _ => Cert.Spec.slK x w mo := by
  rw [clipM_eq mo hmo]
  funext j
  unfold slT
  rw [hostDivf_at, sumV, sumV]
  unfold Cert.Spec.slK
  refine congrArg₂ Ideal.div ?_ ?_
  · refine Finset.sum_congr rfl (fun a _ => ?_)
    rw [mulf_apply, subf_apply, wy_read w mo hmo a]
    unfold lzV
    rw [castV_apply, castV_apply, hlz a, takeAlong1_apply x mo hmo a]
  · exact Finset.sum_congr rfl (fun a _ => wy_read w mo hmo a)

/-- The rate. -/
theorem rateT_read (mo : IVec S16384x1 32) : rateT (F := Ideal) mo = fun _ => Cert.Spec.rate mo := by
  funext j
  unfold rateT
  rw [hostDivf_at, sumM, constant_apply]
  unfold Cert.Spec.rate
  refine congrArg₂ Ideal.div ?_ rfl
  exact Finset.sum_congr rfl (fun a _ => select_eq_zero (mo (ix2 a (0 : Fin 1))) _ _)

/-- The combination at the one index of a rank-0 result. -/
theorem combT_read (r wl sl : EReal) :
    combT (F := Ideal) (fun _ => r) (fun _ => wl) (fun _ => sl) = fun _ => Cert.Spec.comb r wl sl := by
  funext j
  rfl

end Cert.KernelIdeal.Tail

end
-- ==== Proof.KI.Value.lean ====
/-
  The exact-instance program's run with its result named: under the precondition's element facts (finite logits,
  every answer and hard label a class index) every execution ends with the result buffer at the specification's
  `resultK` of the argument arrays, and the arguments unchanged.

  The frame run names every buffer at the end: the region's result array at the proof data's contents (each row's
  normaliser), every other buffer as the host lines after the region leave it.  Those lines compose to `tailVal` of
  the arrays they read: the logits and weights as launched, the answers and hard labels clipped by the lines before
  the region, and the region's result; read down to the arrays, that is `resultK`.
-/
import proofs.«429144_j34359738695_3_alg».proof.Proof.KI.Frame
import proofs.«429144_j34359738695_3_alg».proof.Proof.KI.LogzArray
import proofs.«429144_j34359738695_3_alg».proof.Proof.KI.TailTerm
import proofs.«429144_j34359738695_3_alg».proof.Proof.KI.TailWl
import proofs.«429144_j34359738695_3_alg».proof.Proof.KI.TailSl
import proofs.«429144_j34359738695_3_alg».proof.Proof.Spec

set_option maxRecDepth 16384

noncomputable section

namespace Cert.KernelIdeal.Val

open Cert.KernelIdeal Cert.KernelIdeal.Gen Cert.KernelIdeal.Fr Cert.KernelIdeal.Tail
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The arrays the later lines read, on core `c`, after the region. -/
abbrev Wc (c : Dev nD) : Valuation τ sig (Elt Ideal) :=
  Pipeline.withArrays spec0 c (V0 m c) fun w => (dats m 0 c).arrAt w cfg0.N

theorem W_arg0 (c : Dev nD) : Wc m c (Proc.devRef .tc main_arg0) = m ((c : Thread nD τ).loc main_arg0) :=
  (Pipeline.withArrays_arr spec0 launch0.win.arr_inj c (V0 m c) _ 0).trans (arr0_kept m c)
theorem W_v2 (c : Dev nD) : Wc m c (Proc.devRef .tc main_v2) = (dats m 0 c).arrAt 1 cfg0.N :=
  Pipeline.withArrays_arr spec0 launch0.win.arr_inj c (V0 m c) _ 1
theorem W_arg1 (c : Dev nD) : Wc m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem W_arg3 (c : Dev nD) : Wc m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem W_v0 (c : Dev nD) : Wc m c (Proc.devRef .tc main_v0) = clipA (m ((c : Thread nD τ).loc main_arg2)) :=
  (Pipeline.withArrays_of_ne _ c (V0 m c) _ main_v0 (by exact (by decide : ∀ w, Pipeline.arrRef spec0 w ≠ main_v0))).trans (pre_v0 m c)
theorem W_v1 (c : Dev nD) : Wc m c (Proc.devRef .tc main_v1) = clipM (m ((c : Thread nD τ).loc main_arg3)) :=
  (Pipeline.withArrays_of_ne _ c (V0 m c) _ main_v1 (by exact (by decide : ∀ w, Pipeline.arrRef spec0 w ≠ main_v1))).trans (pre_v1 m c)

/-- What the later lines leave in the result buffer. -/
theorem tail_value (c : Dev nD)
    (hx : ∀ i, ∃ r : ℝ, (m ((c : Thread nD τ).loc main_arg0) : S16384x3129.Idx → EReal) i = (r : EReal))
    (ha : ∀ i, ((m ((c : Thread nD τ).loc main_arg2) : IVec S16384x10 32) i).toNat < 3129)
    (hmo : ∀ i, ((m ((c : Thread nD τ).loc main_arg3) : IVec S16384x1 32) i).toNat < 3129) :
    Pipeline.afterTail₀ cfgs (dats m) 0 (V0 m) tailOps c main_v46
      = fun _ => Cert.Spec.resultK (m ((c : Thread nD τ).loc main_arg0)) (m ((c : Thread nD τ).loc main_arg1))
          (m ((c : Thread nD τ).loc main_arg2)) (m ((c : Thread nD τ).loc main_arg3)) := by
  unfold Pipeline.afterTail₀
  refine (tail_term (F := Ideal) (Wc m c)).trans ?_
  rw [W_arg0, W_arg1, W_v0, W_v1, W_arg3, W_v2]
  unfold tailVal
  rw [wlT_read _ _ _ _ ha (fun i => logz_array m c hx i), slT_read _ _ _ _ hmo (fun i => logz_array m c hx i), rateT_read, combT_read]
  rfl

/-- THE RUN of the exact-instance program with its result named. -/
theorem run
    (hx : ∀ c : Dev nD, ∀ i, ∃ r : ℝ, (m ((c : Thread nD τ).loc main_arg0) : S16384x3129.Idx → EReal) i = (r : EReal))
    (ha : ∀ c : Dev nD, ∀ i, ((m ((c : Thread nD τ).loc main_arg2) : IVec S16384x10 32) i).toNat < 3129)
    (hmo : ∀ c : Dev nD, ∀ i, ((m ((c : Thread nD τ).loc main_arg3) : IVec S16384x1 32) i).toNat < 3129) :
    θ_run defs (onTc (τ := τ) (main (F := Ideal))) ⟨m, fun _ => 0, ρ⟩ (fun r => ∀ c : Dev nD,
      r.2.mem ((c.tc : Thread nD τ).loc main_v46)
        = (fun _ => Cert.Spec.resultK (m ((c : Thread nD τ).loc main_arg0)) (m ((c : Thread nD τ).loc main_arg1))
            (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v46 (Pipeline.mem_restRefs_of main_v46 (by decide) (by decide))).trans (tail_value m c (hx c) (ha c) (hmo c)),
     ((h c).1 0).trans (arr0_kept m c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Val

end
-- ==== Proof.RefLogp.lean ====
/-
  The reference's log-softmax stage, read at an element: the specification's `logp`.
-/
import proofs.«429144_j34359738695_3_alg».proof.Proof.RefRead
import proofs.«429144_j34359738695_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.SL.Sem Idealize.ShloMosaic.ValueIdx

/-- The word of minus infinity denotes the bottom of the extended reals. -/
theorem logp_ofBits_neg_inf : Ideal.ofBits .f32 0xFF800000#32 = (⊥ : EReal) := by
  simp [Ideal.ofBits, Ideal.ieee]

/-- The shape fact naming the index a reduction over the classes inserts. -/
theorem logp_reduces_row : S16384x3129.Reduces [1] S16384 := by decide

/-- Row `i` with column `k` inserted is the index (i, k). -/
theorem logp_lift_row (i : Fin 16384) (k : Fin 3129) :
    logp_reduces_row.lift (ix1 i) k = ix2 i k := by
  funext a
  apply Fin.ext
  match a with
  | ⟨0, _⟩ => rfl
  | ⟨1, _⟩ => rfl

/-- The maximum reduction over the classes, at row `i`: the fold of `max` from minus infinity over the row. -/
theorem logp_rowmax_read (x : FVec Ideal S16384x3129 .f32) (i : Fin 16384) :
    val_main_call0_v0 (F := Ideal) x (ix1 i) = Cert.Spec.rowMaxOf (Cert.Spec.xrow x i) := by
  unfold val_main_call0_v0
  rw [Host.reduce_eq_fold_single FloatOps.maximumf x _ reducesTo_S16384x3129_S16384_d1 logp_reduces_row h_S_ (ix1 i)]
  rw [val_main_call0_cst_apply]
  show Finset.fold max (Ideal.ofBits .f32 0xFF800000#32) (x ∘ logp_reduces_row.lift (ix1 i)) Finset.univ = _
  rw [logp_ofBits_neg_inf]
  unfold Cert.Spec.rowMaxOf Cert.Spec.xrow
  refine congrArg (fun f => Finset.fold max (⊥ : EReal) f (Finset.univ : Finset (Fin 3129))) ?_
  funext k
  exact congrArg x (logp_lift_row i k)

/-- Taking the maximum with minus infinity once more changes nothing. -/
theorem logp_v2_read (x : FVec Ideal S16384x3129 .f32) (i : Fin 16384) :
    val_main_call0_v2 (F := Ideal) x (ix1 i) = Cert.Spec.rowMaxOf (Cert.Spec.xrow x i) := by
  rw [val_main_call0_v2_apply, val_main_call0_v1_apply, val_main_call0_cst_0_apply, logp_rowmax_read]
  show max (Ideal.ofBits .f32 0xFF800000#32) _ = _
  rw [logp_ofBits_neg_inf]
  exact max_eq_right bot_le

/-- The row maximum broadcast back over the classes. -/
theorem logp_v4_read (x : FVec Ideal S16384x3129 .f32) (i : Fin 16384) (c : Fin 3129) :
    val_main_call0_v4 (F := Ideal) x (ix2 i c) = Cert.Spec.rowMaxOf (Cert.Spec.xrow x i) := by
  rw [val_main_call0_v4_apply, val_main_call0_v3_apply]
  have e : idx_main_call0_v3 (idx_main_call0_v4 (ix2 i c)) = ix1 i := by
    funext a
    match a with
    | ⟨0, _⟩ => rfl
  rw [e, logp_v2_read]

/-- The shifted logit. -/
theorem logp_v5_read (x : FVec Ideal S16384x3129 .f32) (i : Fin 16384) (c : Fin 3129) :
    val_main_call0_v5 (F := Ideal) x (ix2 i c) = x (ix2 i c) - Cert.Spec.rowMaxOf (Cert.Spec.xrow x i) := by
  rw [val_main_call0_v5_apply, logp_v4_read]
  rfl

/-- The row's shifted exponential sum. -/
theorem logp_v7_read (x : FVec Ideal S16384x3129 .f32) (i : Fin 16384) :
    val_main_call0_v7 (F := Ideal) x (ix1 i) = Cert.Spec.rowSumOf (Cert.Spec.xrow x i) := by
  rw [val_main_call0_v7_apply, val_main_call0_cst_1_apply]
  show Ideal.ofBits .f32 0x00000000#32 + _ = _
  rw [Ideal.ofBits_zero_f32, zero_add]
  unfold Cert.Spec.rowSumOf
  refine Finset.sum_congr rfl fun k _ => ?_
  have e : idx_main_call0_v7 (ix1 i) k = ix2 i k := by
    funext a
    match a with
    | ⟨0, _⟩ => rfl
    | ⟨1, _⟩ => rfl
  rw [e, val_main_call0_v6_apply, logp_v5_read]
  rfl

/-- The logarithm of the row's sum, broadcast back over the classes. -/
theorem logp_v10_read (x : FVec Ideal S16384x3129 .f32) (i : Fin 16384) (c : Fin 3129) :
    val_main_call0_v10 (F := Ideal) x (ix2 i c) = Ideal.log (Cert.Spec.rowSumOf (Cert.Spec.xrow x i)) := by
  rw [val_main_call0_v10_apply, val_main_call0_v9_apply, val_main_call0_v8_apply]
  have e : idx_main_call0_v8 (idx_main_call0_v10 (ix2 i c)) = ix1 i := by
    funext a
    match a with
    | ⟨0, _⟩ => rfl
  rw [e, logp_v7_read]
  rfl

/-- `jax.nn.log_softmax` along the classes, at (i, c). -/
theorem logp_read (x : FVec Ideal S16384x3129 .f32) (i : Fin 16384) (c : Fin 3129) :
    val_main_v19 (F := Ideal) x (ix2 i c) = Cert.Spec.logp x i c := by
  rw [val_main_v19_apply, logp_v5_read, logp_v10_read]
  rfl

end Cert.ReferenceIdeal.RefValue

end
-- ==== Proof.HostScatter.lean ====
/-
  Reading the host's accumulating float scatter at an index, at the exact instance, generic in the extents.

  With an operand [R, C], updates [R, n] and an index pair (row, column) per update (start indices [R, n, 2], both
  operand axes inserted), the result at (i, c) is the operand there plus the sum of the updates whose index pair,
  read signed, is exactly (i, c); an update whose pair falls outside the operand lands nowhere.
-/
import Idealize.ShloMosaic.PureOps.Ideal
import Idealize.ShloMosaic.PureOps.Contract
import Idealize.ShloMosaic.Lib.ValueIdx
import Idealize.ShloMosaic.Lib.Pipeline.Value

noncomputable section

namespace Cert.HostRead

open Idealize.ShloMosaic Idealize.ShloMosaic.ValueIdx

/-- An update lands on `t` exactly when, on every operand axis, its start plus its window coordinate is `t`'s coordinate. -/
theorem resultIdx?_eq_some_iff {s si u : Shape} (d : ScatterDims s si u) {w : Nat} (j : u.Idx) (idx : IVec si w)
    (t : s.Idx) :
    d.resultIdx? j idx = some t ↔ ∀ a, d.start j idx a + (d.window j a : ℤ) = ((t a).val : ℤ) := by
  unfold ScatterDims.resultIdx?
  split_ifs with h
  · rw [Option.some.injEq]
    constructor
    · rintro rfl a
      have := (h a).1
      simp only [Int.toNat_of_nonneg this]
    · intro ht
      funext a
      apply Fin.ext
      have := ht a
      simp only
      omega
  · constructor
    · intro he; cases he
    · intro ht
      exact absurd (fun a => by have := ht a; have := (t a).isLt; omega) h

/-- The dimension numbers of the instance, as a record. -/
abbrev pairDims (R C n : Nat) (wf : ScatterDims.WF ⟨2, ![R, C]⟩ ⟨3, ![R, n, 2]⟩ ⟨2, ![R, n]⟩ [] [0, 1] [0, 1] 2) :
    ScatterDims ⟨2, ![R, C]⟩ ⟨3, ![R, n, 2]⟩ ⟨2, ![R, n]⟩ where
  updateWindowDims := []
  insertedWindowDims := [0, 1]
  scatterDimsToOperandDims := [0, 1]
  indexVectorDim := 2
  wf := wf

/-- Dimension numbers with these four fields are that record. -/
theorem eq_pairDims {R C n : Nat} (d : ScatterDims ⟨2, ![R, C]⟩ ⟨3, ![R, n, 2]⟩ ⟨2, ![R, n]⟩)
    (h1 : d.updateWindowDims = []) (h2 : d.insertedWindowDims = [0, 1]) (h3 : d.scatterDimsToOperandDims = [0, 1])
    (h4 : d.indexVectorDim = 2) : ∃ wf, d = pairDims R C n wf := by
  obtain ⟨uw, iw, sd, iv, wf⟩ := d
  dsimp only at h1 h2 h3 h4
  subst h1 h2 h3 h4
  exact ⟨wf, rfl⟩

/-- The start on operand axis 0 of update `(e1, e2)` is the entry `[e1, e2, 0]` of the indices, read signed. -/
theorem pair_start0 {R C n : Nat} (wf : ScatterDims.WF ⟨2, ![R, C]⟩ ⟨3, ![R, n, 2]⟩ ⟨2, ![R, n]⟩ [] [0, 1] [0, 1] 2)
    (j : (⟨2, ![R, n]⟩ : Shape).Idx) (idx : IVec ⟨3, ![R, n, 2]⟩ 32) :
    (pairDims R C n wf).start j idx (0 : Fin 2) = (idx (ix3 (j 0) (j 1) (0 : Fin 2))).toInt := by
  have hmem : (0 : Fin 2) ∈ ([0, 1] : List (Fin 2)) := by decide
  unfold ScatterDims.start
  rw [dif_pos hmem]
  have hsi : (pairDims R C n wf).siIdx j ⟨List.idxOf (0 : Fin 2) (pairDims R C n wf).scatterDimsToOperandDims,
      List.idxOf_lt_length_iff.2 hmem⟩ = ix3 (j 0) (j 1) (0 : Fin 2) := by
    funext b; refine Fin.ext ?_
    match b with
    | ⟨0, _⟩ => rfl
    | ⟨1, _⟩ => rfl
    | ⟨2, _⟩ => rfl
  rw [hsi]
  rfl

/-- The start on operand axis 1 of update `(e1, e2)` is the entry `[e1, e2, 1]` of the indices, read signed. -/
theorem pair_start1 {R C n : Nat} (wf : ScatterDims.WF ⟨2, ![R, C]⟩ ⟨3, ![R, n, 2]⟩ ⟨2, ![R, n]⟩ [] [0, 1] [0, 1] 2)
    (j : (⟨2, ![R, n]⟩ : Shape).Idx) (idx : IVec ⟨3, ![R, n, 2]⟩ 32) :
    (pairDims R C n wf).start j idx (1 : Fin 2) = (idx (ix3 (j 0) (j 1) (1 : Fin 2))).toInt := by
  have hmem : (1 : Fin 2) ∈ ([0, 1] : List (Fin 2)) := by decide
  unfold ScatterDims.start
  rw [dif_pos hmem]
  have hsi : (pairDims R C n wf).siIdx j ⟨List.idxOf (1 : Fin 2) (pairDims R C n wf).scatterDimsToOperandDims,
      List.idxOf_lt_length_iff.2 hmem⟩ = ix3 (j 0) (j 1) (1 : Fin 2) := by
    funext b; refine Fin.ext ?_
    match b with
    | ⟨0, _⟩ => rfl
    | ⟨1, _⟩ => rfl
    | ⟨2, _⟩ => rfl
  rw [hsi]
  rfl

/-- Both operand axes are inserted: every window coordinate is `0`. -/
theorem pair_window {R C n : Nat} (wf : ScatterDims.WF ⟨2, ![R, C]⟩ ⟨3, ![R, n, 2]⟩ ⟨2, ![R, n]⟩ [] [0, 1] [0, 1] 2)
    (j : (⟨2, ![R, n]⟩ : Shape).Idx) (a : Fin 2) : (pairDims R C n wf).window j a = 0 := by
  have hall : ∀ b : Fin 2, b ∈ ([0, 1] : List (Fin 2)) := by decide
  have hk : ∀ b : Fin 2, b ∉ (Shape.kept ⟨2, ![R, C]⟩ ([0, 1] : List (Fin 2))) := fun b hb =>
    of_decide_eq_true (List.mem_filter.1 hb).2 (hall b)
  unfold ScatterDims.window
  exact dif_neg (hk a)

/-- Update `j` lands on `(i, c)` exactly when its index pair, read signed, is `(i, c)`. -/
theorem pair_resultIdx {R C n : Nat} (wf : ScatterDims.WF ⟨2, ![R, C]⟩ ⟨3, ![R, n, 2]⟩ ⟨2, ![R, n]⟩ [] [0, 1] [0, 1] 2)
    (j : (⟨2, ![R, n]⟩ : Shape).Idx) (idx : IVec ⟨3, ![R, n, 2]⟩ 32) (i : Fin R) (c : Fin C) :
    (pairDims R C n wf).resultIdx? j idx = some (ix2 i c) ↔
      (idx (ix3 (j 0) (j 1) (0 : Fin 2))).toInt = (i.val : ℤ) ∧ (idx (ix3 (j 0) (j 1) (1 : Fin 2))).toInt = (c.val : ℤ) := by
  rw [resultIdx?_eq_some_iff]
  constructor
  · intro h
    have h0 := h (0 : Fin 2)
    have h1 := h (1 : Fin 2)
    rw [pair_start0, pair_window] at h0
    rw [pair_start1, pair_window] at h1
    exact ⟨by simpa using h0, by simpa using h1⟩
  · rintro ⟨e0, e1⟩ a
    rw [pair_window]
    match a with
    | ⟨0, _⟩ => rw [show (⟨0, by omega⟩ : Fin 2) = 0 from rfl, pair_start0]; simpa using e0
    | ⟨1, _⟩ => rw [show (⟨1, by omega⟩ : Fin 2) = 1 from rfl, pair_start1]; simpa using e1

/-- The accumulating scatter of updates [R, n] into an operand [R, C] at index pairs [R, n, 2]. -/
theorem scatterAdd_pairs_read {R C n : Nat} {φ : FTy} (d : ScatterDims ⟨2, ![R, C]⟩ ⟨3, ![R, n, 2]⟩ ⟨2, ![R, n]⟩)
    (h1 : d.updateWindowDims = []) (h2 : d.insertedWindowDims = [0, 1]) (h3 : d.scatterDimsToOperandDims = [0, 1])
    (h4 : d.indexVectorDim = 2)
    (x : (⟨2, ![R, C]⟩ : Shape).Idx → EReal) (idx : IVec ⟨3, ![R, n, 2]⟩ 32) (upd : (⟨2, ![R, n]⟩ : Shape).Idx → EReal)
    (i : Fin R) (c : Fin C) :
    Host.scatterAdd (F := Ideal) (φ := φ) d x idx upd (ix2 i c)
      = x (ix2 i c) + ∑ e ∈ (Finset.univ : Finset (Fin R × Fin n)).filter (fun e =>
          (idx (ix3 e.1 e.2 (0 : Fin 2))).toInt = (i.val : ℤ) ∧ (idx (ix3 e.1 e.2 (1 : Fin 2))).toInt = (c.val : ℤ)),
          upd (ix2 e.1 e.2) := by
  obtain ⟨wf, rfl⟩ := eq_pairDims d h1 h2 h3 h4
  show Ideal.hostScatterAdd (pairDims R C n wf) x idx upd (ix2 i c) = _
  unfold Ideal.hostScatterAdd
  rw [Finset.sum_filter, Finset.sum_filter, ← Equiv.sum_comp (idxEquiv2 (n0 := R) (n1 := n)).symm]
  refine congrArg (x (ix2 i c) + ·) (Finset.sum_congr rfl fun e _ => ?_)
  exact if_congr (pair_resultIdx wf (ix2 e.1 e.2) idx i c) rfl rfl

end Cert.HostRead

end
-- ==== Proof.RefCounts.lean ====
/-
  The reference's soft-label counts, read at an element: with every answer a class index, row i's count for class c is 0.1 for each of the row's ten answers that is c.
-/
import proofs.«429144_j34359738695_3_alg».proof.Proof.RefRead
import proofs.«429144_j34359738695_3_alg».proof.Proof.Spec
import proofs.«429144_j34359738695_3_alg».proof.Proof.HostScatter
import proofs.«429144_j34359738695_3_alg».proof.Proof.LibClampIndex
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.SL.Sem Idealize.ShloMosaic.ValueIdx

/-! ## The index words -/

/-- A row number below 16384, as a 32-bit word read signed, is itself. -/
theorem counts_toInt_ofNat_row (e : Fin 16384) : (BitVec.ofNat 32 e.val).toInt = (e.val : ℤ) := by
  have h : (BitVec.ofNat 32 e.val).toNat = e.val := by
    rw [BitVec.toNat_ofNat]; exact Nat.mod_eq_of_lt (by omega)
  rw [BitVec.toInt_eq_toNat_cond, h]
  split
  · rfl
  · omega

/-- A label word below 3129, read signed, is its natural value. -/
theorem counts_toInt_of_lt (v : BitVec 32) (h : v.toNat < 3129) : v.toInt = (v.toNat : ℤ) := by
  rw [BitVec.toInt_eq_toNat_cond]
  split
  · rfl
  · omega

/-- The row-number column: the iota, whose negative-index normalisation is the identity. -/
theorem counts_v7_read (e1 : Fin 16384) :
    val_main_v7 (F := Ideal) (ix2 e1 (0 : Fin 1)) = BitVec.ofNat 32 e1.val := by
  have h2 : val_main_v2 (F := Ideal) (ix2 e1 (0 : Fin 1)) = BitVec.ofNat 32 e1.val := by
    rw [val_main_v2_apply, val_main_v1_apply]
  rw [val_main_v7_apply, val_main_v4_apply, val_main_v6_apply, val_main_v3_apply, val_main_c_apply, h2]
  exact Cert.Lib.ClampIndex.norm_id _ _ (by rw [counts_toInt_ofNat_row]; omega)

/-- The answers, whose negative-index normalisation is the identity on labels in range. -/
theorem counts_v12_read (a : IVec S16384x10 32) (ha : ∀ i, (a i).toNat < 3129) (e1 : Fin 16384) (e2 : Fin 10) :
    val_main_v12 (F := Ideal) a (ix2 e1 e2) = a (ix2 e1 e2) := by
  rw [val_main_v12_apply, val_main_v9_apply, val_main_v11_apply, val_main_v8_apply, val_main_c_1_apply]
  exact Cert.Lib.ClampIndex.norm_id _ _ (by rw [counts_toInt_of_lt _ (ha _)]; omega)

/-- The first entry of the index pair of update (e1, e2): the row number. -/
theorem counts_v16_row (a : IVec S16384x10 32) (e1 : Fin 16384) (e2 : Fin 10) :
    val_main_v16 (F := Ideal) a (ix3 e1 e2 (0 : Fin 2)) = BitVec.ofNat 32 e1.val := by
  have e : val_main_v16 (F := Ideal) a (ix3 e1 e2 (0 : Fin 2)) = val_main_v14 (F := Ideal) (ix3 e1 e2 (0 : Fin 1)) := by
    unfold val_main_v16
    exact concatenate_pair_apply_left (t := S16384x10x2) (s₁ := S16384x10x1) (s₂ := S16384x10x1) (2 : Fin 3)
      (val_main_v14 (F := Ideal)) (val_main_v15 (F := Ideal) a) concatenates_S16384x10x1_S16384x10x1_S16384x10x2_d2
      (ix3 e1 e2 (0 : Fin 2)) rfl (ix3 e1 e2 (0 : Fin 1))
      (fun b => match b with | ⟨0, _⟩ => rfl | ⟨1, _⟩ => rfl | ⟨2, _⟩ => rfl)
  rw [e, val_main_v14_apply, val_main_v13_apply]
  have ei : idx_main_v13 (idx_main_v14 (ix3 e1 e2 (0 : Fin 1))) = ix2 e1 (0 : Fin 1) := by
    funext b
    match b with
    | ⟨0, _⟩ => rfl
    | ⟨1, _⟩ => rfl
  rw [ei, counts_v7_read]

/-- The second entry of the index pair of update (e1, e2): the answer. -/
theorem counts_v16_col (a : IVec S16384x10 32) (ha : ∀ i, (a i).toNat < 3129) (e1 : Fin 16384) (e2 : Fin 10) :
    val_main_v16 (F := Ideal) a (ix3 e1 e2 (1 : Fin 2)) = a (ix2 e1 e2) := by
  have e : val_main_v16 (F := Ideal) a (ix3 e1 e2 (1 : Fin 2)) = val_main_v15 (F := Ideal) a (ix3 e1 e2 (0 : Fin 1)) := by
    unfold val_main_v16
    exact concatenate_pair_apply_right (t := S16384x10x2) (s₁ := S16384x10x1) (s₂ := S16384x10x1) (2 : Fin 3)
      (val_main_v14 (F := Ideal)) (val_main_v15 (F := Ideal) a) concatenates_S16384x10x1_S16384x10x1_S16384x10x2_d2
      (ix3 e1 e2 (1 : Fin 2)) rfl rfl (ix3 e1 e2 (0 : Fin 1))
      (fun b hb => match b, hb with | ⟨0, _⟩, _ => rfl | ⟨1, _⟩, _ => rfl | ⟨2, _⟩, hb => absurd rfl hb)
      rfl
  rw [e, val_main_v15_apply]
  have ei : idx_main_v15 (ix3 e1 e2 (0 : Fin 1)) = ix2 e1 e2 := by
    funext b
    match b with
    | ⟨0, _⟩ => rfl
    | ⟨1, _⟩ => rfl
  rw [ei, counts_v12_read a ha]

/-! ## The counts -/

/-- Update (e1, e2) lands on (i, c) exactly when its row is `i` and its answer's column is `c`. -/
theorem counts_lands_iff (a : IVec S16384x10 32) (ha : ∀ i, (a i).toNat < 3129) (i : Fin 16384) (c : Fin 3129)
    (e1 : Fin 16384) (e2 : Fin 10) :
    ((val_main_v16 (F := Ideal) a (ix3 e1 e2 (0 : Fin 2))).toInt = (i.val : ℤ)
        ∧ (val_main_v16 (F := Ideal) a (ix3 e1 e2 (1 : Fin 2))).toInt = (c.val : ℤ))
      ↔ (e1 = i ∧ Cert.Spec.col (a (ix2 e1 e2)) = c) := by
  rw [counts_v16_row, counts_v16_col a ha, counts_toInt_ofNat_row, counts_toInt_of_lt _ (ha _), Cert.Spec.col_of_lt _ (ha _)]
  constructor
  · rintro ⟨h1, h2⟩
    exact ⟨Fin.ext (by omega), Fin.ext (by simp only; omega)⟩
  · rintro ⟨h1, h2⟩
    have h2' := congrArg Fin.val h2
    simp only at h2'
    subst h1
    exact ⟨rfl, by omega⟩

/-- The scatter of 0.1 at every (row, answer) pair into zeros, at (i, c): the row's count of class `c`. -/
theorem counts_read (a : IVec S16384x10 32) (ha : ∀ i, (a i).toNat < 3129) (i : Fin 16384) (c : Fin 3129) :
    val_main_v18 (F := Ideal) a (ix2 i c) = Cert.Spec.counts a i c := by
  unfold val_main_v18
  rw [Cert.HostRead.scatterAdd_pairs_read (R := 16384) (C := 3129) (n := 10) (φ := .f32)
    scatter_S16384x3129_S16384x10x2_S16384x10_n_01_01_2 rfl rfl rfl rfl]
  rw [val_main_v0_apply, val_main_cst_apply]
  show Ideal.ofBits .f32 0x00000000#32 + _ = _
  rw [Ideal.ofBits_zero_f32, zero_add, Finset.sum_filter, Fintype.sum_prod_type]
  unfold Cert.Spec.counts
  have hs : (∑ j : Fin 10, (if Cert.Spec.col (a (ix2 i j)) = c then Cert.Spec.c01 else 0))
      = ∑ e1 : Fin 16384, (if e1 = i then ∑ j : Fin 10, (if Cert.Spec.col (a (ix2 e1 j)) = c then Cert.Spec.c01 else 0) else 0) := by
    rw [Finset.sum_ite_eq' Finset.univ i, if_pos (Finset.mem_univ i)]
  rw [hs]
  refine Finset.sum_congr rfl fun e1 _ => ?_
  by_cases h : e1 = i
  · rw [if_pos h]
    refine Finset.sum_congr rfl fun e2 _ => ?_
    rw [val_main_v17_apply, val_main_cst_3_apply]
    refine if_congr ?_ rfl rfl
    rw [counts_lands_iff a ha]
    exact ⟨fun hh => hh.2, fun hh => ⟨h, hh⟩⟩
  · rw [if_neg h]
    refine Finset.sum_eq_zero fun e2 _ => ?_
    rw [if_neg]
    rw [counts_lands_iff a ha]
    exact fun hh => h hh.1

end Cert.ReferenceIdeal.RefValue

end
-- ==== Proof.RefWl.lean ====
/-
  The reference's weighted (soft-label) term, read down to the arrays: the specification's `wlR`.
-/
import proofs.«429144_j34359738695_3_alg».proof.Proof.RefRead
import proofs.«429144_j34359738695_3_alg».proof.Proof.RefLogp
import proofs.«429144_j34359738695_3_alg».proof.Proof.RefCounts
import proofs.«429144_j34359738695_3_alg».proof.Proof.Spec
import proofs.«429144_j34359738695_3_alg».proof.Proof.HostScatter
import proofs.«429144_j34359738695_3_alg».proof.Proof.LibClampIndex
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.SL.Sem Idealize.ShloMosaic.ValueIdx

/-! ## The weighted sum -/

/-- The class weights broadcast over the rows. -/
theorem wl_v21_read (w : FVec Ideal S3129 .f32) (i : Fin 16384) (c : Fin 3129) :
    val_main_v21 (F := Ideal) w (ix2 i c) = w (ix1 c) := by
  rw [val_main_v21_apply, val_main_v20_apply]
  have e : idx_main_v20 (idx_main_v21 (ix2 i c)) = ix1 c := by
    funext b
    match b with
    | ⟨0, _⟩ => rfl
  rw [e]

/-- Weight times count times log-probability, at (i, c). -/
theorem wl_v23_read (x : FVec Ideal S16384x3129 .f32) (w : FVec Ideal S3129 .f32) (a : IVec S16384x10 32)
    (ha : ∀ i, (a i).toNat < 3129) (i : Fin 16384) (c : Fin 3129) :
    val_main_v23 (F := Ideal) x w a (ix2 i c) = (w (ix1 c) * Cert.Spec.counts a i c) * Cert.Spec.logp x i c := by
  rw [val_main_v23_apply, val_main_v22_apply, wl_v21_read, counts_read a ha, logp_read]
  rfl

/-- The row's sum over the classes. -/
theorem wl_v24_read (x : FVec Ideal S16384x3129 .f32) (w : FVec Ideal S3129 .f32) (a : IVec S16384x10 32)
    (ha : ∀ i, (a i).toNat < 3129) (i : Fin 16384) :
    val_main_v24 (F := Ideal) x w a (ix1 i) = Cert.Spec.softR x w a i := by
  rw [val_main_v24_apply, val_main_cst_4_apply]
  show Ideal.ofBits .f32 0x00000000#32 + _ = _
  rw [Ideal.ofBits_zero_f32, zero_add]
  unfold Cert.Spec.softR
  refine Finset.sum_congr rfl fun k _ => ?_
  have e : idx_main_v24 (ix1 i) k = ix2 i k := by
    funext b
    match b with
    | ⟨0, _⟩ => rfl
    | ⟨1, _⟩ => rfl
  rw [e, wl_v23_read x w a ha]

/-- Its negation. -/
theorem wl_v25_read (x : FVec Ideal S16384x3129 .f32) (w : FVec Ideal S3129 .f32) (a : IVec S16384x10 32)
    (ha : ∀ i, (a i).toNat < 3129) (i : Fin 16384) :
    val_main_v25 (F := Ideal) x w a (ix1 i) = -(Cert.Spec.softR x w a i) := by
  rw [val_main_v25_apply, wl_v24_read x w a ha]
  rfl

/-- The indices of a vector of length `n` are its coordinates. -/
def wl_idxEquiv1 (n : Nat) : Fin n ≃ (⟨1, ![n]⟩ : Shape).Idx where
  toFun := ix1
  invFun j := j 0
  left_inv _ := rfl
  right_inv j := (eq_ix1 j).symm

/-- The sum over the rows. -/
theorem wl_v26_read (x : FVec Ideal S16384x3129 .f32) (w : FVec Ideal S3129 .f32) (a : IVec S16384x10 32)
    (ha : ∀ i, (a i).toNat < 3129) (j : S_.Idx) :
    val_main_v26 (F := Ideal) x w a j = ∑ i : Fin 16384, -(Cert.Spec.softR x w a i) := by
  rw [val_main_v26_apply, val_main_cst_5_apply]
  show Ideal.ofBits .f32 0x00000000#32 + _ = _
  rw [Ideal.ofBits_zero_f32, zero_add]
  exact (Fintype.sum_equiv (wl_idxEquiv1 16384) (fun i => -(Cert.Spec.softR x w a i)) (val_main_v25 (F := Ideal) x w a)
    (fun i => (wl_v25_read x w a ha i).symm)).symm

/-- The soft-label term: the mean over rows of minus the row's sum over classes of weight times count times log-probability. -/
theorem wl_read (x : FVec Ideal S16384x3129 .f32) (w : FVec Ideal S3129 .f32) (a : IVec S16384x10 32)
    (ha : ∀ i, (a i).toNat < 3129) :
    val_main_v27 (F := Ideal) x w a = fun _ => Cert.Spec.wlR x w a := by
  funext j
  rw [val_main_v27_apply, wl_v26_read x w a ha, val_main_cst_6_apply]
  rfl

end Cert.ReferenceIdeal.RefValue

end
-- ==== Proof.RefSl.lean ====
/-
  The reference's standard (hard-label) term, its rate and its result, read down to the arrays.
-/
import proofs.«429144_j34359738695_3_alg».proof.Proof.RefRead
import proofs.«429144_j34359738695_3_alg».proof.Proof.RefLogp
import proofs.«429144_j34359738695_3_alg».proof.Proof.Spec
import proofs.«429144_j34359738695_3_alg».proof.Proof.HostRead
import proofs.«429144_j34359738695_3_alg».proof.Proof.LibClampIndex
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.SL.Sem Idealize.ShloMosaic.ValueIdx

/-! ## Words, folds and sums -/

/-- A left fold by `and` from 1 over words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    have h1 : IntOp.andi (1#1 : BitVec 1) 1#1 = 1#1 := by decide
    rw [h1]
    exact ih (fun n hn => hf n (List.mem_cons_of_mem _ hn))

/-- A reduce by `and` from 1 of an array of 1s is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ (fun n _ => hx n)

/-- A sum over the indices of a column [n, 1] is the sum over its rows. -/
theorem sum_idx_col {M : Type*} [AddCommMonoid M] {n : Nat} (f : (⟨2, ![n, 1]⟩ : Shape).Idx → M) :
    ∑ j, f j = ∑ i : Fin n, f (ix2 i (0 : Fin 1)) := by
  rw [sum_idx2]
  exact Finset.sum_congr rfl fun i _ => Fin.sum_univ_one _

/-- A sum over the indices of a vector [n] is the sum over its coordinates. -/
theorem sum_idx_vec {M : Type*} [AddCommMonoid M] {n : Nat} (f : (⟨1, ![n]⟩ : Shape).Idx → M) :
    ∑ j, f j = ∑ i : Fin n, f (ix1 i) := by
  let e : (⟨1, ![n]⟩ : Shape).Idx ≃ Fin n := ⟨fun i => i 0, ix1, fun i => (eq_ix1 i).symm, fun _ => rfl⟩
  rw [← Equiv.sum_comp e.symm f]
  rfl

/-- The equality test of a word against zero, as a one-bit word. -/
theorem cmpi_eq_zero (v : BitVec 32) : IntOp.cmpi .eq v 0#32 = if v = 0#32 then 1#1 else 0#1 := by
  unfold IntOp.cmpi
  by_cases h : v = 0#32
  · rw [if_pos h, h]; rfl
  · rw [if_neg h]
    have : (v == 0#32) = false := by simpa using h
    simp only [this]; rfl

/-- A label below 3129 is, as a signed word, a non-negative integer below 3129, and reads the same either way. -/
theorem label_toInt (mo : IVec S16384x1 32) (hmo : ∀ i, (mo i).toNat < 3129) (j : S16384x1.Idx) :
    0 ≤ (mo j).toInt ∧ (mo j).toInt < 3129 ∧ (mo j).toInt.toNat = (mo j).toNat := by
  have h := hmo j
  have e : (mo j).toInt = ((mo j).toNat : ℤ) := BitVec.toInt_eq_toNat_of_lt (by omega)
  rw [e, Int.toNat_natCast]
  exact ⟨by omega, by omega, rfl⟩

/-! ## The rate -/

/-- The rate's summand at row i: 0.8 where the label is class 0, else 0.2. -/
theorem v47_read (mo : IVec S16384x1 32) (i : Fin 16384) :
    val_main_v47 (F := Ideal) mo (ix2 i (0 : Fin 1))
      = if mo (ix2 i (0 : Fin 1)) = 0#32 then Cert.Spec.c08 else Cert.Spec.c02 := by
  rw [val_main_v47_apply, val_main_v46_apply, val_main_v45_apply, val_main_v44_apply, val_main_c_11_apply,
    val_main_call2_v0_apply, val_main_call2_v1_apply, val_main_cst_12_apply, val_main_cst_13_apply, cmpi_eq_zero]
  by_cases h : mo (ix2 i (0 : Fin 1)) = 0#32
  · rw [if_pos h, if_pos h, select_one]; rfl
  · rw [if_neg h, if_neg h, select_zero]; rfl

/-- The rate. -/
theorem rate_read (mo : IVec S16384x1 32) : val_main_v49 (F := Ideal) mo = fun _ => Cert.Spec.rate mo := by
  funext j
  rw [val_main_v49_apply, val_main_v48_apply, val_main_cst_14_apply, val_main_cst_15_apply, sum_idx_col]
  simp only [Ideal.hostDivf_def, Ideal.ofBits_def, Ideal.ofBits_zero_f32, zero_add, v47_read]
  rfl

/-! ## The hard-label term -/

/-- The flattened label array at row i is the label. -/
theorem v28_read (mo : IVec S16384x1 32) (i : Fin 16384) :
    val_main_v28 (F := Ideal) mo (ix1 i) = mo (ix2 i (0 : Fin 1)) := by
  rw [val_main_v28_apply]
  refine congrArg mo (funext fun a => ?_)
  match a with
  | ⟨0, _⟩ => exact Fin.ext (Nat.div_one _)
  | ⟨1, _⟩ => rfl

/-- Flattened and put back as a column, the label array is itself. -/
theorem v29_read (mo : IVec S16384x1 32) (a : Fin 16384) (b : Fin 1) :
    val_main_v29 (F := Ideal) mo (ix2 a b) = mo (ix2 a b) := by
  rw [val_main_v29_apply, val_main_v28_apply]
  refine congrArg mo (funext fun c => ?_)
  match c with
  | ⟨0, _⟩ => exact Fin.ext (Nat.div_one _)
  | ⟨1, _⟩ => exact Fin.ext (by have := b.isLt; show 0 = b.val; omega)

/-- The negative-index normalisation inside the row gather leaves a label in range alone. -/
theorem c1v4_read (mo : IVec S16384x1 32) (hmo : ∀ i, (mo i).toNat < 3129) (a : Fin 16384) (b : Fin 1) :
    val_main_call1_v4 (F := Ideal) mo (ix2 a b) = mo (ix2 a b) := by
  rw [val_main_call1_v4_apply, val_main_call1_v1_apply, val_main_call1_v3_apply, val_main_call1_v0_apply,
    val_main_call1_c_apply, v29_read]
  exact Cert.Lib.ClampIndex.norm_id _ _ (label_toInt mo hmo _).1

/-- The start indices of the row gather: at (a, b, c) the label of row a. -/
theorem c1v5_read (mo : IVec S16384x1 32) (hmo : ∀ i, (mo i).toNat < 3129) (a : Fin 16384) (b c : Fin 1) :
    val_main_call1_v5 (F := Ideal) mo (ix3 a b c) = mo (ix2 a (0 : Fin 1)) := by
  rw [val_main_call1_v5_apply]
  have e : idx_main_call1_v5 (ix3 a b c) = ix2 a (0 : Fin 1) := by
    funext d
    match d with
    | ⟨0, _⟩ =>
      exact Fin.ext (by
        have := b.isLt; have := c.isLt
        show ((a.val * 1 + b.val) * 1 + c.val) / 1 = a.val
        omega)
    | ⟨1, _⟩ => rfl
  rw [e, c1v4_read mo hmo]

/-- Every start index passes the in-range test 0 ≤ · ≤ 3128. -/
theorem c1v11_read (mo : IVec S16384x1 32) (hmo : ∀ i, (mo i).toNat < 3129) (k : S16384x1x1.Idx) :
    val_main_call1_v11 (F := Ideal) mo k = 1#1 := by
  obtain ⟨a, b, c, rfl⟩ : ∃ (a : Fin 16384) (b c : Fin 1), k = ix3 a b c := ⟨k 0, k 1, k 2, eq_ix3 k⟩
  rw [val_main_call1_v11_apply, val_main_call1_v7_apply, val_main_call1_v10_apply, val_main_call1_v6_apply,
    val_main_call1_c_2_apply, val_main_call1_v9_apply, val_main_call1_v8_apply, val_main_call1_c_1_apply,
    c1v5_read mo hmo]
  have h := label_toInt mo hmo (ix2 a (0 : Fin 1))
  have h3 : (3128#32 : BitVec 32).toInt = 3128 := by decide
  exact Cert.Lib.ClampIndex.inrange_true _ _ h.1 (by rw [h3]; omega)

/-- So the test, folded over its axis of size one, is true at every row. -/
theorem c1v12_read (mo : IVec S16384x1 32) (hmo : ∀ i, (mo i).toNat < 3129) (j : S16384x1.Idx) :
    val_main_call1_v12 (F := Ideal) mo j = 1#1 := by
  unfold val_main_call1_v12
  exact reduce_andi_ones _ _ _ _ rfl (c1v11_read mo hmo) j

/-- The row gather at row i: the log-probability of the row's label. -/
theorem c1v13_read (x : FVec Ideal S16384x3129 .f32) (mo : IVec S16384x1 32) (hmo : ∀ i, (mo i).toNat < 3129)
    (i : Fin 16384) :
    val_main_call1_v13 (F := Ideal) x mo (ix2 i (0 : Fin 1))
      = Cert.Spec.logp x i (Cert.Spec.col (mo (ix2 i (0 : Fin 1)))) := by
  unfold val_main_call1_v13
  rw [Cert.HostRead.takeAlong_apply (R := 16384) (C := 3129) (n := 1) (by omega)
    gather_S16384x3129_S16384x1x1_S16384x1_n_1_0_0_1_2_11 rfl rfl rfl rfl rfl rfl]
  refine Eq.trans ?_ (logp_read x i _)
  refine congrArg (fun c => val_main_v19 (F := Ideal) x (ix2 i c)) (Fin.ext ?_)
  show min (val_main_call1_v5 (F := Ideal) mo (ix3 i (0 : Fin 1) (0 : Fin 1))).toInt.toNat (3129 - 1)
    = min (mo (ix2 i (0 : Fin 1))).toNat 3128
  rw [c1v5_read mo hmo, (label_toInt mo hmo _).2.2]

/-- The gathered log-probability, as a vector over the rows. -/
theorem v31_read (x : FVec Ideal S16384x3129 .f32) (mo : IVec S16384x1 32) (hmo : ∀ i, (mo i).toNat < 3129)
    (i : Fin 16384) :
    val_main_v31 (F := Ideal) x mo (ix1 i) = Cert.Spec.logp x i (Cert.Spec.col (mo (ix2 i (0 : Fin 1)))) := by
  rw [val_main_v31_apply]
  have e : idx_main_v31 (ix1 i) = ix2 i (0 : Fin 1) := by
    funext a
    match a with
    | ⟨0, _⟩ => exact Fin.ext (Nat.div_one _)
    | ⟨1, _⟩ => rfl
  rw [e, val_main_v30_apply, c1v12_read mo hmo, select_one, c1v13_read x mo hmo]

/-- The index of the weight gather at row i: the label. -/
theorem v37_read (mo : IVec S16384x1 32) (hmo : ∀ i, (mo i).toNat < 3129) (i : Fin 16384) :
    val_main_v37 (F := Ideal) mo (ix1 i) = mo (ix2 i (0 : Fin 1)) := by
  rw [val_main_v37_apply, val_main_v34_apply, val_main_v36_apply, val_main_v33_apply, val_main_c_7_apply, v28_read]
  exact Cert.Lib.ClampIndex.norm_id _ _ (label_toInt mo hmo _).1

theorem v38_read (mo : IVec S16384x1 32) (hmo : ∀ i, (mo i).toNat < 3129) (i : Fin 16384) (b : Fin 1) :
    val_main_v38 (F := Ideal) mo (ix2 i b) = mo (ix2 i (0 : Fin 1)) := by
  rw [val_main_v38_apply]
  have e : idx_main_v38 (ix2 i b) = ix1 i := by
    funext a
    match a with
    | ⟨0, _⟩ => rfl
  rw [e, v37_read mo hmo]

/-- The weight gather at row i: the class weight of the row's label. -/
theorem v39_read (w : FVec Ideal S3129 .f32) (mo : IVec S16384x1 32) (hmo : ∀ i, (mo i).toNat < 3129)
    (i : Fin 16384) :
    val_main_v39 (F := Ideal) w mo (ix1 i) = Cert.Spec.wy w mo i := by
  unfold val_main_v39
  rw [Cert.HostRead.take1_apply (N := 3129) (R := 16384) (by omega)
    gather_S3129_S16384x1_S16384_n_0_n_n_0_1_1 rfl rfl rfl rfl rfl rfl]
  unfold Cert.Spec.wy
  refine congrArg (fun c => w (ix1 c)) (Fin.ext ?_)
  show min (val_main_v38 (F := Ideal) mo (ix2 i (0 : Fin 1))).toInt.toNat (3129 - 1)
    = min (mo (ix2 i (0 : Fin 1))).toNat 3128
  rw [v38_read mo hmo, (label_toInt mo hmo _).2.2]

/-- The summand of the numerator at row i. -/
theorem v40_read (x : FVec Ideal S16384x3129 .f32) (w : FVec Ideal S3129 .f32) (mo : IVec S16384x1 32)
    (hmo : ∀ i, (mo i).toNat < 3129) (i : Fin 16384) :
    val_main_v40 (F := Ideal) x w mo (ix1 i)
      = Cert.Spec.wy w mo i * (-(Cert.Spec.logp x i (Cert.Spec.col (mo (ix2 i (0 : Fin 1)))))) := by
  rw [val_main_v40_apply, val_main_v32_apply, v39_read w mo hmo, v31_read x mo hmo]
  rfl

/-- The hard-label term. -/
theorem sl_read (x : FVec Ideal S16384x3129 .f32) (w : FVec Ideal S3129 .f32) (mo : IVec S16384x1 32)
    (hmo : ∀ i, (mo i).toNat < 3129) :
    val_main_v43 (F := Ideal) x w mo = fun _ => Cert.Spec.slR x w mo := by
  funext j
  rw [val_main_v43_apply, val_main_v41_apply, val_main_v42_apply, val_main_cst_9_apply, val_main_cst_10_apply,
    sum_idx_vec, sum_idx_vec]
  simp only [Ideal.hostDivf_def, Ideal.ofBits_def, Ideal.ofBits_zero_f32, zero_add, v40_read x w mo hmo,
    v39_read w mo hmo]
  rfl

end Cert.ReferenceIdeal.RefValue

end
-- ==== Proof.RefValue.lean ====
/-
  The reference's run with its result named: with every answer and hard label a class index, every execution ends
  with the result buffer at the specification's `resultR` of the argument arrays, and the arguments unchanged.
  The result is rate * weighted + (1 - rate) * standard, each of the three read down to the arrays.
-/
import proofs.«429144_j34359738695_3_alg».proof.Proof.RefRead
import proofs.«429144_j34359738695_3_alg».proof.Proof.RefWl
import proofs.«429144_j34359738695_3_alg».proof.Proof.RefSl
import proofs.«429144_j34359738695_3_alg».proof.Proof.Spec

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

/-- The result stage is the specification's `resultR`. -/
theorem result_read (x : FVec Ideal S16384x3129 .f32) (w : FVec Ideal S3129 .f32) (a : IVec S16384x10 32) (mo : IVec S16384x1 32)
    (ha : ∀ i, (a i).toNat < 3129) (hmo : ∀ i, (mo i).toNat < 3129) :
    val_main_v53 (F := Ideal) x w a mo = fun _ => Cert.Spec.resultR x w a mo := by
  funext i
  rw [val_main_v53_apply, val_main_v50_apply, val_main_v52_apply, val_main_v51_apply, rate_read, wl_read x w a ha, sl_read x w mo hmo]
  rfl

variable (m : (ℓ : Loc nD τ sig) → Buf (Elt Ideal) ℓ) (ρ : Dev nD → PrngReg)

/-- THE RUN of the reference with its result named. -/
theorem run
    (ha : ∀ c : Dev nD, ∀ i, ((m ((c.tc : Thread nD τ).loc main_arg2) : IVec S16384x10 32) i).toNat < 3129)
    (hmo : ∀ c : Dev nD, ∀ i, ((m ((c.tc : Thread nD τ).loc main_arg3) : IVec S16384x1 32) i).toNat < 3129) :
    θ_run defs (onTc (τ := τ) (main (F := Ideal))) ⟨m, fun _ => 0, ρ⟩ (fun r => ∀ c : Dev nD,
      r.2.mem ((c.tc : Thread nD τ).loc main_v53)
        = (fun _ => Cert.Spec.resultR (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1.trans ((val_main_v53_eq (F := Ideal) m c).trans (result_read _ _ _ _ (ha c) (hmo c))), (h c).2⟩)
    (Cert.ReferenceIdeal.ValueP.run (F := Ideal) m ρ)

end Cert.ReferenceIdeal.RefValue

end
-- ==== Proof.PreFacts.lean ====
/-
  What the precondition says, element by element: every logit and every class weight is a finite real, and every
  answer and every hard label is a class index `0 ≤ v < 3129` (as a word: its unsigned value is below 3129).
-/
import proofs.«429144_j34359738695_3_alg».proof.Pre_finite_inputs
import proofs.«429144_j34359738695_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The scalar shape has one index. -/
instance : Subsingleton S_.Idx := ⟨fun a b => funext fun d => d.elim0⟩

/-- The word `0x7F800000` is `+∞`. -/
theorem inf_bits : Ideal.ofBits .f32 0x7F800000#32 = ⊤ := by simp [Ideal.ofBits, Ideal.ieee]

/-- `|v| < +∞` on the extended reals says `v` is a real: at either infinity `max v (-v)` is `⊤`. -/
theorem real_of_abs_lt_inf (v : Ideal .f32)
    (h : FloatOps.cmpf .olt (FloatOps.hostAbsf v) (FloatOps.ofBits (F := Ideal) .f32 0x7F800000#32) = 1#1) :
    ∃ r : ℝ, v = (r : EReal) := by
  change Ideal.cmp .olt (max (v : EReal) (-(v : EReal))) (Ideal.ofBits .f32 0x7F800000#32) = 1#1 at h
  rw [inf_bits] at h
  unfold Ideal.cmp at h
  induction v using EReal.rec with
  | bot => simp at h
  | coe r => exact ⟨r, rfl⟩
  | top => simp at h

/-- A word that is signed-at-least 0 and signed-below 3129 has unsigned value below 3129: a word with the top bit set
    reads negative. -/
theorem toNat_lt_of_signed (v : BitVec 32) (h0 : IntOp.cmpi .sge v 0#32 = 1#1) (h1 : IntOp.cmpi .slt v 3129#32 = 1#1) :
    v.toNat < 3129 := by
  rw [IntOp.cmpi_sge] at h0
  rw [IntOp.cmpi_slt] at h1
  have e0 : (0#32 : BitVec 32).toInt = 0 := by decide
  have e1 : (3129#32 : BitVec 32).toInt = 3129 := by decide
  rw [e0] at h0
  rw [e1] at h1
  have hv := v.isLt
  rw [BitVec.toInt_eq_toNat_cond] at h0 h1
  split at h0 <;> omega

/-- The precondition, read at every element. -/
theorem of_pre [Cert.Pre_finite_inputs.Facts] (x : FVec Ideal S16384x3129 .f32) (w : FVec Ideal S3129 .f32) (a : IVec S16384x10 32) (mo : IVec S16384x1 32)
    (h : Cert.Pre_finite_inputs.fn (F := Ideal) x w a mo = fun _ => 1#1) :
    (∀ i, ∃ r : ℝ, x i = (r : EReal)) ∧ (∀ i, ∃ r : ℝ, w i = (r : EReal))
      ∧ (∀ i, (a i).toNat < 3129) ∧ (∀ i, (mo i).toNat < 3129) := by
  have h0 := congrFun h ValueIdx.ix0
  dsimp only [fn, fn_part1] at h0
  -- the six conjuncts, outermost first
  obtain ⟨h5, hmo1⟩ := IntOp.andi_eq_one.1 h0
  obtain ⟨h4, hmo0⟩ := IntOp.andi_eq_one.1 h5
  obtain ⟨h3, ha1⟩ := IntOp.andi_eq_one.1 h4
  obtain ⟨h2, ha0⟩ := IntOp.andi_eq_one.1 h3
  obtain ⟨hx, hw⟩ := IntOp.andi_eq_one.1 h2
  refine ⟨fun i => ?_, fun i => ?_, fun i => ?_, fun i => ?_⟩
  · exact real_of_abs_lt_inf (x i) (Host.reduce_andi_all _ _ _ _ _ hx i)
  · exact real_of_abs_lt_inf (w i) (Host.reduce_andi_all _ _ _ _ _ hw i)
  · exact toNat_lt_of_signed (a i) (Host.reduce_andi_all _ _ _ _ _ ha0 i) (Host.reduce_andi_all _ _ _ _ _ ha1 i)
  · exact toNat_lt_of_signed (mo i) (Host.reduce_andi_all _ _ _ _ _ hmo0 i) (Host.reduce_andi_all _ _ _ _ _ hmo1 i)

end Cert.PreFacts

end
-- ==== Proof.SpecBridge.lean ====
/-
  The two spellings of the loss agree on finite inputs.
-/
import proofs.«429144_j34359738695_3_alg».proof.Proof.Spec

noncomputable section

namespace Cert.Spec

open Idealize.ShloMosaic Idealize.ShloMosaic.ValueIdx

variable (x : SPred.Idx → EReal) (w : SWt.Idx → EReal) (a : SAns.Idx → BitVec 32) (mo : SMode.Idx → BitVec 32)

namespace BridgeAux

/-! ## Coerced reals -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, folded from `-∞`, of a nonempty family of reals is a real. -/
theorem fold_max_coe {ι : Type*} (s : Finset ι) (hs : s.Nonempty) (f : ι → ℝ) :
    ∃ m : ℝ, s.fold max ⊥ (fun i => (f i : EReal)) = (m : EReal) := by
  classical
  induction hs using Finset.Nonempty.cons_induction with
  | singleton a => exact ⟨f a, by simp⟩
  | cons a s ha hs ih =>
    obtain ⟨m, hm⟩ := ih
    exact ⟨max (f a) m, by rw [Finset.fold_cons, hm]; exact (EReal.coe_strictMono.monotone.map_max).symm⟩

/-- On a finite row the maximum is a real and so is the logarithm of the shifted exponential sum. -/
theorem row_real (row : Fin 3129 → EReal) (h : ∀ c, ∃ r : ℝ, row c = (r : EReal)) :
    ∃ m l : ℝ, rowMaxOf row = (m : EReal) ∧ Ideal.log (rowSumOf row) = (l : EReal) := by
  choose r hr using h
  obtain rfl : row = fun c => (r c : EReal) := funext hr
  obtain ⟨m, hm⟩ := fold_max_coe (Finset.univ : Finset (Fin 3129)) ⟨⟨0, by omega⟩, Finset.mem_univ _⟩ r
  have hS : rowSumOf (fun c => (r c : EReal)) = ((∑ c : Fin 3129, Real.exp (r c - m) : ℝ) : EReal) := by
    rw [rowSumOf, rowMaxOf, hm, coe_sum]
    exact Finset.sum_congr rfl fun c _ => by rw [← EReal.coe_sub, Ideal.exp_coe]
  have hpos : 0 < ∑ c : Fin 3129, Real.exp (r c - m) :=
    Finset.sum_pos (fun c _ => Real.exp_pos _) ⟨⟨0, by omega⟩, Finset.mem_univ _⟩
  exact ⟨m, Real.log (∑ c : Fin 3129, Real.exp (r c - m)), hm, by rw [hS, Ideal.log_coe, if_neg (not_le.mpr hpos)]⟩

/-- The literal `0.1f` denotes a real. -/
theorem c01_real : ∃ k : ℝ, c01 = (k : EReal) := by
  refine ⟨13421773 * (2 ^ 27)⁻¹, ?_⟩
  simp [c01, Ideal.ofBits, Ideal.ieee]

/-! ## The two spellings -/

/-- On finite logits `logp_ic = x_ic - logZ_i`, a real. -/
theorem logp_real (hx : ∀ i, ∃ r : ℝ, x i = (r : EReal)) (i : Fin 16384) (c : Fin 3129) :
    ∃ r : ℝ, logp x i c = (r : EReal) ∧ x (ix2 i c) - logZ x i = (r : EReal) := by
  obtain ⟨m, l, hm, hl⟩ := row_real (xrow x i) (fun c => hx _)
  obtain ⟨r, hr⟩ := hx (ix2 i c)
  refine ⟨(r - m) - l, ?_, ?_⟩
  · rw [logp, hm, hl, hr, ← EReal.coe_sub, ← EReal.coe_sub]
  · rw [logZ, logZOf, hm, hl, hr, ← EReal.coe_add, ← EReal.coe_sub]
    congr 1; ring

/-- On finite logits `-logp_ic = logZ_i - x_ic`. -/
theorem neg_logp (hx : ∀ i, ∃ r : ℝ, x i = (r : EReal)) (i : Fin 16384) (c : Fin 3129) :
    -(logp x i c) = logZ x i - x (ix2 i c) := by
  obtain ⟨m, l, hm, hl⟩ := row_real (xrow x i) (fun c => hx _)
  obtain ⟨r, hr⟩ := hx (ix2 i c)
  rw [logp, logZ, logZOf, hm, hl, hr, ← EReal.coe_sub, ← EReal.coe_sub, ← EReal.coe_neg, ← EReal.coe_add,
    ← EReal.coe_sub]
  congr 1; ring

theorem sl_eq (hx : ∀ i, ∃ r : ℝ, x i = (r : EReal)) : slR x w mo = slK x w mo := by
  unfold slR slK
  simp only [neg_logp x hx]

/-- Over the reals: summing `w_c * counts_c * L_c` over the classes is `k` times the sum of `w * L` over the answers. -/
theorem soft_real (wr L : Fin 3129 → ℝ) (k : ℝ) (cj : Fin 10 → Fin 3129) :
    ∑ c : Fin 3129, (wr c * ∑ j : Fin 10, (if cj j = c then k else 0)) * L c
      = k * ∑ j : Fin 10, wr (cj j) * L (cj j) := by
  simp_rw [Finset.mul_sum, Finset.sum_mul]
  rw [Finset.sum_comm]
  refine Finset.sum_congr rfl fun j _ => ?_
  simp only [mul_ite, ite_mul, mul_zero, zero_mul, Finset.sum_ite_eq, Finset.mem_univ, if_true]
  ring

/-- The same over coerced reals. -/
theorem soft_ereal (wr L : Fin 3129 → ℝ) (k : ℝ) (cj : Fin 10 → Fin 3129) :
    ∑ c : Fin 3129, ((wr c : EReal) * ∑ j : Fin 10, (if cj j = c then (k : EReal) else 0)) * (L c : EReal)
      = (k : EReal) * ∑ j : Fin 10, (wr (cj j) : EReal) * (L (cj j) : EReal) := by
  have h1 : ∀ c : Fin 3129, (∑ j : Fin 10, (if cj j = c then (k : EReal) else 0))
      = ((∑ j : Fin 10, (if cj j = c then k else 0) : ℝ) : EReal) := by
    intro c
    rw [coe_sum]
    exact Finset.sum_congr rfl fun j _ => by split_ifs <;> simp
  simp_rw [h1, ← EReal.coe_mul, ← coe_sum, ← EReal.coe_mul]
  rw [soft_real]

theorem soft_eq (hx : ∀ i, ∃ r : ℝ, x i = (r : EReal)) (hw : ∀ i, ∃ r : ℝ, w i = (r : EReal)) (i : Fin 16384) :
    softR x w a i = softK x w a i := by
  choose L hL hL' using fun c => logp_real x hx i c
  choose wr hwr using fun c : Fin 3129 => hw (ix1 c)
  obtain ⟨k, hk⟩ := c01_real
  unfold softR softK counts
  simp_rw [hL, hL', hwr, hk]
  exact soft_ereal wr L k _

theorem wl_eq (hx : ∀ i, ∃ r : ℝ, x i = (r : EReal)) (hw : ∀ i, ∃ r : ℝ, w i = (r : EReal)) :
    wlR x w a = wlK x w a := by
  unfold wlR wlK
  simp only [soft_eq x w a hx hw]

end BridgeAux

/-- On finite logits and weights the two spellings agree: a row's sum over classes of `w_c * counts_c * logp_c` is
    `0.1` times the sum over its answers of `w * logp` (distributivity, which needs finiteness), and
    `logp_ic = x_ic - logZ_i`. -/
theorem bridge (hx : ∀ i, ∃ r : ℝ, x i = (r : EReal)) (hw : ∀ i, ∃ r : ℝ, w i = (r : EReal)) :
    resultR x w a mo = resultK x w a mo := by
  rw [resultR, resultK, BridgeAux.wl_eq x w a hx hw, BridgeAux.sl_eq x w mo hx]

end Cert.Spec

end
-- ==== Proof.lean ====
/- The weighted cross-entropy loss with soft labels, computed two ways, is one function of finite inputs with labels in range.

   Both programs return  rate * weighted + (1 - rate) * standard  for logits x : [16384, 3129], class weights w : [3129],
   ten answers a row and one hard label a row, where with  logZ_i = max_c x_ic + log ∑_c exp (x_ic - max_c x_ic):
     weighted = mean_i ( - ∑_c w_c * counts_ic * (x_ic - logZ_i) ),  counts_ic = 0.1 * #{j : a_ij = c};
     standard = ( ∑_i w_{y_i} * (logZ_i - x_{i, y_i}) ) / ∑_i w_{y_i};   rate = mean_i (y_i = 0 ? 0.8 : 0.2).
   The kernel computes logZ by rows in a pipelined region — seven column chunks with a running maximum and a rescaled
   running sum of exponentials — and gathers x and w at the (clipped) answers and labels; the reference scatters the
   counts, takes the log-softmax of every entry and reduces over the classes.  On finite inputs the chunked recurrence
   ends at logZ, a row's sum over classes against the counts is 0.1 times its sum over the answers (distributivity, which
   is where finiteness is used), and (x - M) - log S = x - (M + log S); with every label a class index the clips and jnp's
   index normalisations are the identity and every gather is in bounds.

   The frames: each kernel program is host lines, one region, host lines; its body is run symbolically on the staging
   buffers, and the library's frame run for a region continued by host lines names every buffer at the end; the argument
   arrays are written by nothing.  The reference is host lines only.  No idealization rewrite was applied, so the
   preservation conjunct is trivial. -/
import proofs.«429144_j34359738695_3_alg».proof.Defs
import proofs.«429144_j34359738695_3_alg».proof.Proof.Gen.Kernel
import proofs.«429144_j34359738695_3_alg».proof.Proof.Gen.KernelIdeal
import proofs.«429144_j34359738695_3_alg».proof.Proof.Gen.ReferenceIdeal
import proofs.«429144_j34359738695_3_alg».proof.Proof.Gen.Pre_finite_inputs
import proofs.«429144_j34359738695_3_alg».proof.Proof.K.Frame
import proofs.«429144_j34359738695_3_alg».proof.Proof.KI.Frame
import proofs.«429144_j34359738695_3_alg».proof.Proof.KI.Value
import proofs.«429144_j34359738695_3_alg».proof.Proof.RefRun
import proofs.«429144_j34359738695_3_alg».proof.Proof.RefValue
import proofs.«429144_j34359738695_3_alg».proof.Proof.PreFacts
import proofs.«429144_j34359738695_3_alg».proof.Proof.SpecBridge

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Fr.frame m ρ

/-- So does the kernel program read at the exact instance. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two exact-instance programs end at one value: the kernel's run ends at `resultK` of its arguments, the
    reference's at `resultR` of the same arrays, and the two agree on finite logits and weights. -/
theorem algebraic : Cert.algebraic_KernelIdeal_ReferenceIdeal := by
  intro m ρ m' ρ' hpre hagree
  have hf := fun c => Cert.PreFacts.of_pre _ _ _ _ (hpre c)
  refine ⟨fun c => fun _ => Cert.Spec.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run m ρ (fun c => (hf c).1) (fun c => (hf c).2.2.1) (fun c => (hf c).2.2.2), ?_⟩
  refine (θ_run Cert.ReferenceIdeal.defs _ _).mono (fun _ h c => ⟨(h c).1.trans ?_, (h c).2⟩)
    (Cert.ReferenceIdeal.RefValue.run m' ρ'
      (fun c => by rw [(hagree c).2.2.1]; exact (hf c).2.2.1)
      (fun c => by rw [(hagree c).2.2.2]; exact (hf c).2.2.2))
  rw [(hagree c).1, (hagree c).2.1, (hagree c).2.2.1, (hagree c).2.2.2]
  exact congrArg (fun v : EReal => fun _ => v) (Cert.Spec.bridge _ _ _ _ (hf c).1 (hf c).2.1)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
